-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280x512 : Shape := ⟨2, ![1280, 512]⟩
abbrev S65536x2 : Shape := ⟨2, ![65536, 2]⟩
abbrev S65536x2048 : Shape := ⟨2, ![65536, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S_ : Shape := ⟨0, ![]⟩

class Facts : Prop where
  bcast_S_S1280x512 : S_.BroadcastsInDim S1280x512 (![] : Fin 0 → Fin S1280x512.rank)
  reducesTo_S1280x512_S_d0_1 : S1280x512.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S65536x2 : S_.BroadcastsInDim S65536x2 (![] : Fin 0 → Fin S65536x2.rank)
  reducesTo_S65536x2_S_d0_1 : S65536x2.ReducesTo [0, 1] S_

variable [Facts]

def fn_part2 {F : FTy → Type} [FloatOps F] (main_arg1 : IVec S65536x2 32) (main_arg8 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_c_14 : IVec S_ 32 := constantI S_ 32 0#32
  let main_v39 : IVec S65536x2 32 := broadcastInDim S65536x2 ![] bcast_S_S65536x2 main_c_14
  let main_v40 : IVec S65536x2 1 := cmpi .sge main_arg1 main_v39
  let main_c_15 : IVec S_ 1 := constantI S_ 1 1#1
  let main_v41 : IVec S_ 1 := (fun x v => Host.reduce IntOp.andi x v reducesTo_S65536x2_S_d0_1 h_S_) main_v40 main_c_15
  let main_v42 : IVec S_ 1 := andi main_v38 main_v41
  let main_c_16 : IVec S_ 32 := constantI S_ 32 1280#32
  let main_v43 : IVec S65536x2 32 := broadcastInDim S65536x2 ![] bcast_S_S65536x2 main_c_16
  let main_v44 : IVec S65536x2 1 := cmpi .slt main_arg1 main_v43
  let main_c_17 : IVec S_ 1 := constantI S_ 1 1#1
  let main_v45 : IVec S_ 1 := (fun x v => Host.reduce IntOp.andi x v reducesTo_S65536x2_S_d0_1 h_S_) main_v44 main_c_17
  let main_v46 : IVec S_ 1 := andi main_v42 main_v45
  main_v46

def fn_part1 {F : FTy → Type} [FloatOps F] (main_arg1 : IVec S65536x2 32) (main_arg5 : FVec F S1024x4096 .f32) (main_arg6 : FVec F S4096 .f32) (main_arg7 : FVec F S2048x4096 .f32) (main_arg8 : FVec F S4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg5
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S2048x4096 .f32 := Host.absf main_arg7
  let main_cst_10 : FVec F S_ .f32 := constant S_ .f32 0x7F800000#32
  let main_v30 : FVec F S2048x4096 .f32 := broadcastInDim S2048x4096 ![] bcast_S_S2048x4096 main_cst_10
  let main_v31 : IVec S2048x4096 1 := cmpf .olt main_v29 main_v30
  let main_c_11 : IVec S_ 1 := constantI S_ 1 1#1
  let main_v32 : IVec S_ 1 := (fun x v => Host.reduce IntOp.andi x v reducesTo_S2048x4096_S_d0_1 h_S_) main_v31 main_c_11
  let main_v33 : IVec S_ 1 := andi main_v28 main_v32
  fn_part2 (F := F) main_arg1 main_arg8 main_v33

def fn {F : FTy → Type} [FloatOps F] (main_arg0 : FVec F S1280x512 .f32) (main_arg1 : IVec S65536x2 32) (main_arg2 : FVec F S65536x2048 .f32) (main_arg3 : FVec F S512x1024 .f32) (main_arg4 : FVec F S1024 .f32) (main_arg5 : FVec F S1024x4096 .f32) (main_arg6 : FVec F S4096 .f32) (main_arg7 : FVec F S2048x4096 .f32) (main_arg8 : FVec F S4096 .f32) : IVec S_ 1 :=
  let main_v0 : FVec F S1280x512 .f32 := Host.absf main_arg0
  let main_cst : FVec F S_ .f32 := constant S_ .f32 0x7F800000#32
  let main_v1 : FVec F S1280x512 .f32 := broadcastInDim S1280x512 ![] bcast_S_S1280x512 main_cst
  let main_v2 : IVec S1280x512 1 := cmpf .olt main_v0 main_v1
  let main_c : IVec S_ 1 := constantI S_ 1 1#1
  let main_v3 : IVec S_ 1 := (fun x v => Host.reduce IntOp.andi x v reducesTo_S1280x512_S_d0_1 h_S_) main_v2 main_c
  let main_v4 : FVec F S65536x2048 .f32 := Host.absf main_arg2
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S512x1024 .f32 := Host.absf main_arg3
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_arg6 main_arg7 main_arg8 main_v13 main_v16
-- ==== Kernel.lean ====
abbrev S1280x512 : Shape := ⟨2, ![1280, 512]⟩
abbrev S65536x2 : Shape := ⟨2, ![65536, 2]⟩
abbrev S65536x2048 : Shape := ⟨2, ![65536, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S_ : Shape := ⟨0, ![]⟩
abbrev S1x1024 : Shape := ⟨2, ![1, 1024]⟩
abbrev S1280x1024 : Shape := ⟨2, ![1280, 1024]⟩
abbrev S1x4096 : Shape := ⟨2, ![1, 4096]⟩
abbrev S65536x4096 : Shape := ⟨2, ![65536, 4096]⟩
abbrev S256x2 : Shape := ⟨2, ![256, 2]⟩
abbrev S256x2048 : Shape := ⟨2, ![256, 2048]⟩
abbrev S256x1024 : Shape := ⟨2, ![256, 1024]⟩
abbrev S256x1 : Shape := ⟨2, ![256, 1]⟩
abbrev S1x1280 : Shape := ⟨2, ![1, 1280]⟩
abbrev S256x1280 : Shape := ⟨2, ![256, 1280]⟩
abbrev S256x512 : Shape := ⟨2, ![256, 512]⟩
abbrev S1024x2048 : Shape := ⟨2, ![1024, 2048]⟩
abbrev S1x2048 : Shape := ⟨2, ![1, 2048]⟩
abbrev S2048x2048 : Shape := ⟨2, ![2048, 2048]⟩

abbrev nBuf : Space → Nat
  | .hbm => 26
  | .vmem => 18
  | .smem => 0
  | _ => 0

abbrev bufTy : (tb : Table) → Fin (tcTables nBuf tb) → BufTy
  | .hbm, ⟨0, _⟩ => ⟨S1280x512, .f32⟩
  | .hbm, ⟨1, _⟩ => ⟨S65536x2, .i32⟩
  | .hbm, ⟨2, _⟩ => ⟨S65536x2048, .f32⟩
  | .hbm, ⟨3, _⟩ => ⟨S512x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S2048x4096, .f32⟩
  | .hbm, ⟨8, _⟩ => ⟨S4096, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S65536x2, .i32⟩
  | .hbm, ⟨13, _⟩ => ⟨S65536x2, .i32⟩
  | .hbm, ⟨14, _⟩ => ⟨S_, .i32⟩
  | .hbm, ⟨15, _⟩ => ⟨S65536x2, .i32⟩
  | .hbm, ⟨16, _⟩ => ⟨S65536x2, .i32⟩
  | .hbm, ⟨17, _⟩ => ⟨S512x1024, .bf16⟩
  | .hbm, ⟨18, _⟩ => ⟨S1x1024, .f32⟩
  | .hbm, ⟨19, _⟩ => ⟨S1280x512, .bf16⟩
  | .hbm, ⟨20, _⟩ => ⟨S1280x512, .bf16⟩
  | .hbm, ⟨21, _⟩ => ⟨S1024x4096, .bf16⟩
  | .hbm, ⟨22, _⟩ => ⟨S1x4096, .f32⟩
  | .hbm, ⟨23, _⟩ => ⟨S2048x4096, .bf16⟩
  | .hbm, ⟨24, _⟩ => ⟨S1x4096, .f32⟩
  | .hbm, ⟨25, _⟩ => ⟨S65536x4096, .f32⟩
  | .local _ .vmem, ⟨0, _⟩ => ⟨S1280x512, .f32⟩
  | .local _ .vmem, ⟨1, _⟩ => ⟨S512x1024, .bf16⟩
  | .local _ .vmem, ⟨2, _⟩ => ⟨S1x1024, .f32⟩
  | .local _ .vmem, ⟨3, _⟩ => ⟨S1280x512, .bf16⟩
  | .local _ .vmem, ⟨4, _⟩ => ⟨S1280x512, .bf16⟩
  | .local _ .vmem, ⟨5, _⟩ => ⟨S256x2, .i32⟩
  | .local _ .vmem, ⟨6, _⟩ => ⟨S256x2, .i32⟩
  | .local _ .vmem, ⟨7, _⟩ => ⟨S256x2048, .f32⟩
  | .local _ .vmem, ⟨8, _⟩ => ⟨S256x2048, .f32⟩
  | .local _ .vmem, ⟨9, _⟩ => ⟨S1280x512, .bf16⟩
  | .local _ .vmem, ⟨10, _⟩ => ⟨S1280x512, .bf16⟩
  | .local _ .vmem, ⟨11, _⟩ => ⟨S1024x4096, .bf16⟩
  | .local _ .vmem, ⟨12, _⟩ => ⟨S1x4096, .f32⟩
  | .local _ .vmem, ⟨13, _⟩ => ⟨S2048x4096, .bf16⟩
  | .local _ .vmem, ⟨14, _⟩ => ⟨S1x4096, .f32⟩
  | .local _ .vmem, ⟨15, _⟩ => ⟨S256x2048, .f32⟩
  | .local _ .vmem, ⟨16, _⟩ => ⟨S256x2048, .f32⟩
  | .local _ .vmem, ⟨17, _⟩ => ⟨S256x1024, .bf16⟩
  | _, _ => ⟨S1280x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3_0 : Ref sig .tc := ⟨.hbm, 19, rfl⟩
abbrev main_v3_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![256, 2], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k1_off2 (i : grid1.Coords) : Fin 2 → Nat :=
  let c0_1 : Index := 0#32
  let arg1 : BitVec 32 := BitVec.ofNat 32 (i 1).val
  let c2048_i32 : BitVec 32 := 2048#32
  let v3 : BitVec 32 := Scalar.muli arg1 c2048_i32
  let v4 : BitVec 32 := v3
  let v8 : Index := Scalar.indexCast v4
  ![0, v8.toNat]
def k1_off3 (i : grid1.Coords) : Fin 2 → Nat :=
  let c0_2 : Index := 0#32
  let arg1 : BitVec 32 := BitVec.ofNat 32 (i 1).val
  let c2048_i32 : BitVec 32 := 2048#32
  let v3 : BitVec 32 := Scalar.muli arg1 c2048_i32
  let v4 : BitVec 32 := v3
  let v11 : Index := Scalar.indexCast v4
  ![0, v11.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1280x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1280x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2048x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  bcast_S_S65536x2 : S_.BroadcastsInDim S65536x2 (![] : Fin 0 → Fin S65536x2.rank)
  bitsLt_bf16_f32 : FTy.bits .bf16 < FTy.bits .f32
  shapeCasts_S1024_S1x1024 : S1024.ShapeCasts S1x1024
  inb_S1280x512_S1280x512_0_0 : ∀ a, (![0, 0] : Fin 2 → Nat) a + S1280x512.size a ≤ S1280x512.size a
  h_S1280x512 : 0 < S1280x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1280x1024 : S1x1024.Broadcasts S1280x1024
  slices_S1280x1024_o0_0_S1280x512 : S1280x1024.Slices ![0, 0] S1280x512
  packedbf16_S1280x512_S1280x512_0_0 : (Rect.unit (s := S1280x512) ![0, 0] S1280x512.size inb_S1280x512_S1280x512_0_0).PackedRows (EltTy.packing .bf16)
  slices_S1280x1024_o0_512_S1280x512 : S1280x1024.Slices ![0, 512] S1280x512
  shapeCasts_S4096_S1x4096 : S4096.ShapeCasts S1x4096
  inb_S256x2_S256x1_0_0 : ∀ a, (![0, 0] : Fin 2 → Nat) a + S256x1.size a ≤ S256x2.size a
  h_S256x1 : 0 < S256x1.numel
  shapeCasts_S256x1_S256x1 : S256x1.ShapeCasts S256x1
  inb_S256x2_S256x1_0_1 : ∀ a, (![0, 1] : Fin 2 → Nat) a + S256x1.size a ≤ S256x2.size a
  iota_S1x1280_d1_w32 : S1x1280.Iotas .tc 32 [1]
  broadcasts_S256x1_S256x1280 : S256x1.Broadcasts S256x1280
  broadcasts_S1x1280_S256x1280 : S1x1280.Broadcasts S256x1280
  natLt_1_32 : 1 < 32
  shapeCasts_S1280x512_S1280x512 : S1280x512.ShapeCasts S1280x512
  inb_S256x1024_S256x512_0_0 : ∀ a, (![0, 0] : Fin 2 → Nat) a + S256x512.size a ≤ S256x1024.size a
  h_S256x512 : 0 < S256x512.numel
  shapeCasts_S256x512_S256x512 : S256x512.ShapeCasts S256x512
  packedbf16_S256x1024_S256x512_0_0 : (Rect.unit (s := S256x1024) ![0, 0] S256x512.size inb_S256x1024_S256x512_0_0).PackedRows (EltTy.packing .bf16)
  inb_S256x1024_S256x512_0_512 : ∀ a, (![0, 512] : Fin 2 → Nat) a + S256x512.size a ≤ S256x1024.size a
  packedbf16_S256x1024_S256x512_0_512 : (Rect.unit (s := S256x1024) ![0, 512] S256x512.size inb_S256x1024_S256x512_0_512).PackedRows (EltTy.packing .bf16)
  h_S1024x2048 : 0 < S1024x2048.numel
  shapeCasts_S1024x2048_S1024x2048 : S1024x2048.ShapeCasts S1024x2048
  h_S1x2048 : 0 < S1x2048.numel
  shapeCasts_S1x2048_S1x2048 : S1x2048.ShapeCasts S1x2048
  h_S2048x2048 : 0 < S2048x2048.numel
  shapeCasts_S2048x2048_S2048x2048 : S2048x2048.ShapeCasts S2048x2048
  inb_S256x1024_S256x1024_0_0 : ∀ a, (![0, 0] : Fin 2 → Nat) a + S256x1024.size a ≤ S256x1024.size a
  h_S256x1024 : 0 < S256x1024.numel
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S1280x512_S512x1024_S1280x1024_1_0_0_1_n_n_wf : DotDims.WF S1280x512 S512x1024 S1280x1024 [1] [0] [0] [1] [] []
  dot_S256x1280_S1280x512_S256x512_1_0_0_1_n_n_wf : DotDims.WF S256x1280 S1280x512 S256x512 [1] [0] [0] [1] [] []
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1280x512.size a ≤ S1280x512.size a
  hwx0_0 : ∀ i : grid0.Coords, EltTy.bits .f32 = 32 ∨ (Rect.block (s := S1280x512) S1280x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x512.size a ≤ S1280x512.size a
  hwx0_3 : ∀ i : grid0.Coords, EltTy.bits .bf16 = 32 ∨ (Rect.block (s := S1280x512) S1280x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x512.size a ≤ S1280x512.size a
  hwx0_4 : ∀ i : grid0.Coords, EltTy.bits .bf16 = 32 ∨ (Rect.block (s := S1280x512) S1280x512.size (cc0_transform_4 i) (hinb0_4 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1024x2048.size a ≤ S1024x4096.size a
  k1_off2_inb : ∀ i : grid1.Coords, ∀ a, (k1_off2 i) a + S1x2048.size a ≤ S1x4096.size a
  k1_off3_inb : ∀ i : grid1.Coords, ∀ a, (k1_off3 i) a + S2048x2048.size a ≤ S2048x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2.size a ≤ S65536x2.size a
  hwx1_0 : ∀ i : grid1.Coords, EltTy.bits .i32 = 32 ∨ (Rect.block (s := S65536x2) S256x2.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S65536x2048.size a
  hwx1_1 : ∀ i : grid1.Coords, EltTy.bits .f32 = 32 ∨ (Rect.block (s := S65536x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1280x512.size a ≤ S1280x512.size a
  hwx1_2 : ∀ i : grid1.Coords, EltTy.bits .bf16 = 32 ∨ (Rect.block (s := S1280x512) S1280x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1280x512.size a ≤ S1280x512.size a
  hwx1_3 : ∀ i : grid1.Coords, EltTy.bits .bf16 = 32 ∨ (Rect.block (s := S1280x512) S1280x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x4096.size a ≤ S2048x4096.size a
  hwx1_6 : ∀ i : grid1.Coords, EltTy.bits .bf16 = 32 ∨ (Rect.block (s := S2048x4096) S2048x4096.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4096.size a ≤ S1x4096.size a
  hwx1_7 : ∀ i : grid1.Coords, EltTy.bits .f32 = 32 ∨ (Rect.block (s := S1x4096) S1x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x2048.size a ≤ S65536x4096.size a
  hwx1_8 : ∀ i : grid1.Coords, EltTy.bits .f32 = 32 ∨ (Rect.block (s := S65536x4096) S256x2048.size (cc1_transform_8 i) (hinb1_8 i)).WholeWords (EltTy.packing .f32)

variable [Facts₀]

def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def dot_S256x1280_S1280x512_S256x512_1_0_0_1_n_n : DotDims S256x1280 S1280x512 S256x512 where
  lhsContracting := [1]
  rhsContracting := [0]
  lhsNonContracting := [0]
  rhsNonContracting := [1]
  lhsBatch := []
  rhsBatch := []
  wf := dot_S256x1280_S1280x512_S256x512_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S1280x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1280x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1280x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S256x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1280x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1280x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S2048x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x4096.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S256x2048.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1280x512 : Shape := ⟨2, ![1280, 512]⟩
abbrev S65536x2 : Shape := ⟨2, ![65536, 2]⟩
abbrev S65536x2048 : Shape := ⟨2, ![65536, 2048]⟩
abbrev S512x1024 : Shape := ⟨2, ![512, 1024]⟩
abbrev S1024 : Shape := ⟨1, ![1024]⟩
abbrev S1024x4096 : Shape := ⟨2, ![1024, 4096]⟩
abbrev S4096 : Shape := ⟨1, ![4096]⟩
abbrev S2048x4096 : Shape := ⟨2, ![2048, 4096]⟩
abbrev S1280x1024 : Shape := ⟨2, ![1280, 1024]⟩
abbrev S1x1024 : Shape := ⟨2, ![1, 1024]⟩
abbrev S_ : Shape := ⟨0, ![]⟩
abbrev S65536x1 : Shape := ⟨2, ![65536, 1]⟩
abbrev S65536 : Shape := ⟨1, ![65536]⟩
abbrev S65536x512 : Shape := ⟨2, ![65536, 512]⟩
abbrev S65536x1024 : Shape := ⟨2, ![65536, 1024]⟩
abbrev S65536x4096 : Shape := ⟨2, ![65536, 4096]⟩
abbrev S1x4096 : Shape := ⟨2, ![1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S1280x512, .f32⟩
  | .hbm, ⟨1, _⟩ => ⟨S65536x2, .i32⟩
  | .hbm, ⟨2, _⟩ => ⟨S65536x2048, .f32⟩
  | .hbm, ⟨3, _⟩ => ⟨S512x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S2048x4096, .f32⟩
  | .hbm, ⟨8, _⟩ => ⟨S4096, .f32⟩
  | .hbm, ⟨9, _⟩ => ⟨S1280x1024, .f32⟩
  | .hbm, ⟨10, _⟩ => ⟨S1x1024, .f32⟩
  | .hbm, ⟨11, _⟩ => ⟨S1280x1024, .f32⟩
  | .hbm, ⟨12, _⟩ => ⟨S1280x1024, .f32⟩
  | .hbm, ⟨13, _⟩ => ⟨S_, .f32⟩
  | .hbm, ⟨14, _⟩ => ⟨S1280x1024, .f32⟩
  | .hbm, ⟨15, _⟩ => ⟨S1280x1024, .f32⟩
  | .hbm, ⟨16, _⟩ => ⟨S1280x512, .f32⟩
  | .hbm, ⟨17, _⟩ => ⟨S1280x512, .f32⟩
  | .hbm, ⟨18, _⟩ => ⟨S65536x1, .i32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x512, .f32⟩
  | .hbm, ⟨29, _⟩ => ⟨S65536x1, .i32⟩
  | .hbm, ⟨30, _⟩ => ⟨S65536, .i32⟩
  | .hbm, ⟨31, _⟩ => ⟨S_, .i32⟩
  | .hbm, ⟨32, _⟩ => ⟨S65536, .i32⟩
  | .hbm, ⟨33, _⟩ => ⟨S65536, .i1⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S65536, .i32⟩
  | .hbm, ⟨38, _⟩ => ⟨S65536x1, .i32⟩
  | .hbm, ⟨39, _⟩ => ⟨S65536x512, .f32⟩
  | .hbm, ⟨40, _⟩ => ⟨S65536x1024, .f32⟩
  | .hbm, ⟨41, _⟩ => ⟨S65536x4096, .f32⟩
  | .hbm, ⟨42, _⟩ => ⟨S1x4096, .f32⟩
  | .hbm, ⟨43, _⟩ => ⟨S65536x4096, .f32⟩
  | .hbm, ⟨44, _⟩ => ⟨S65536x4096, .f32⟩
  | .hbm, ⟨45, _⟩ => ⟨S65536x4096, .f32⟩
  | .hbm, ⟨46, _⟩ => ⟨S1x4096, .f32⟩
  | .hbm, ⟨47, _⟩ => ⟨S65536x4096, .f32⟩
  | .hbm, ⟨48, _⟩ => ⟨S65536x4096, .f32⟩
  | .hbm, ⟨49, _⟩ => ⟨S65536x4096, .f32⟩
  | _, _ => ⟨S1280x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1280x1024_0_1 : S1x1024.BroadcastsInDim S1280x1024 (![0, 1] : Fin 2 → Fin S1280x1024.rank)
  bcast_S_S1280x1024 : S_.BroadcastsInDim S1280x1024 (![] : Fin 0 → Fin S1280x1024.rank)
  slices_S1280x1024_S1280x512_0_0 : S1280x1024.Slices ![0, 0] S1280x512
  slices_S1280x1024_S1280x512_0_512 : S1280x1024.Slices ![0, 512] S1280x512
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S65536x2_S65536x1_0_1 : S65536x2.Slices ![0, 1] S65536x1
  concatenates_S65536x512_S65536x512_S65536x1024_d1 : Shape.Concatenates [S65536x512, S65536x512] S65536x1024 1
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  dot_S1280x512_S512x1024_S1280x1024_1_0_0_1_n_n_wf : DotDims.WF S1280x512 S512x1024 S1280x1024 [1] [0] [0] [1] [] []
  gather_S1280x512_S65536x1_S65536x512_1_0_n_n_0_1_1512_wf : GatherDims.WF S1280x512 S65536x1 S65536x512 [1] [0] [] [0] [] 1 ![1, 512]
  dot_S65536x1024_S1024x4096_S65536x4096_1_0_0_1_n_n_wf : DotDims.WF S65536x1024 S1024x4096 S65536x4096 [1] [0] [0] [1] [] []
  dot_S65536x2048_S2048x4096_S65536x4096_1_0_0_1_n_n_wf : DotDims.WF S65536x2048 S2048x4096 S65536x4096 [1] [0] [0] [1] [] []

variable [Facts₀]

def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def gather_S1280x512_S65536x1_S65536x512_1_0_n_n_0_1_1512 : GatherDims S1280x512 S65536x1 S65536x512 where
  offsetDims := [1]
  collapsedSliceDims := [0]
  operandBatchingDims := []
  startIndicesBatchingDims := []
  startIndexMap := [0]
  indexVectorDim := 1
  sliceSizes := ![1, 512]
  wf := gather_S1280x512_S65536x1_S65536x512_1_0_n_n_0_1_1512_wf
def dot_S65536x1024_S1024x4096_S65536x4096_1_0_0_1_n_n : DotDims S65536x1024 S1024x4096 S65536x4096 where
  lhsContracting := [1]
  rhsContracting := [0]
  lhsNonContracting := [0]
  rhsNonContracting := [1]
  lhsBatch := []
  rhsBatch := []
  wf := dot_S65536x1024_S1024x4096_S65536x4096_1_0_0_1_n_n_wf
def dot_S65536x2048_S2048x4096_S65536x4096_1_0_0_1_n_n : DotDims S65536x2048 S2048x4096 S65536x4096 where
  lhsContracting := [1]
  rhsContracting := [0]
  lhsNonContracting := [0]
  rhsNonContracting := [1]
  lhsBatch := []
  rhsBatch := []
  wf := dot_S65536x2048_S2048x4096_S65536x4096_1_0_0_1_n_n_wf

class Facts : Prop extends Facts₀ where

variable [Facts]
-- ==== Proof.K.Vals.lean ====
/-
  What a TensorCore's buffers hold at each boundary between the items of the entry function, as a fold from the launch
  memory: three stretches of host operations (two constants; the clip of the index pairs; the conversion of the first
  weight matrix and the reshape of its bias), the first kernel region, a fourth stretch (the conversions of the two
  other weight matrices and the reshapes of their biases), the second kernel region. A stretch of host operations
  changes the contents by its operations' composed function; a region leaves each of its windows' arrays at what its
  write-backs leave and every other buffer as it found it. The regions' proof data are PARAMETERS here (one family per
  region, each a function of the contents the region is entered with), so that the run, the reading of the host
  stretches and the values can be stated against these names before the data are fixed.
-/
import proofs.«403099_j88871463289481_2_alg».proof.Proof.Gen.Kernel.Launch
import Idealize.ShloMosaic.Lib.Pipeline.FrameBody
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The contents of every TensorCore's buffers at the moment a region is entered. -/
abbrev Entry (F : FTy → Type) [FloatOps F] : Type := (c : Dev nD) → (b : Ref sig .tc) → Buf (Elt F) ((c : Thread nD τ).loc b)

/-- A region's proof data as a function of the contents it is entered with: the first region's, -/
abbrev Data0 (F : FTy → Type) [FloatOps F] : Type := (V : Entry F) → (c : Dev nD) → Dat τ (Elt F) Unit ℕ (UR sig nD τ) ℕ cfg0 c
/-- and the second region's. -/
abbrev Data1 (F : FTy → Type) [FloatOps F] : Type := (V : Entry F) → (c : Dev nD) → Dat τ (Elt F) Unit ℕ (UR sig nD τ) ℕ cfg1 c

variable (d0 : Data0 F) (d1 : Data1 F) (m : (ℓ : Loc nD τ sig) → Buf (Elt F) ℓ)

/-- Core c's buffers at launch. -/
abbrev W0 (c : Dev nD) : Valuation τ sig (Elt F) := fun b => m (c, b)
/-- After the two constants. -/
abbrev W1 (c : Dev nD) : Valuation τ sig (Elt F) := StableHlo.after hostOps0 (W0 m c)
/-- After the clip of the index pairs. -/
abbrev W2 (c : Dev nD) : Valuation τ sig (Elt F) := StableHlo.after hostOps0_1 (W1 m c)
/-- After the conversion of the first weight matrix and the reshape of its bias: the first region's entry. -/
abbrev W3 (c : Dev nD) : Valuation τ sig (Elt F) := StableHlo.after hostOps0_2 (W2 m c)
/-- The same read at the TensorCore's references. -/
abbrev V3 : Entry F := fun c b => W3 m c b
/-- At the first region's exit: its arrays at what the pipeline leaves, every other buffer as entered. -/
def W4 (c : Dev nD) : Valuation τ sig (Elt F) :=
  Pipeline.withArrays spec0 c (W3 m c) fun w => (d0 (V3 m) c).arrAt w cfg0.N
/-- After the conversions of the two other weight matrices and the reshapes of their biases: the second region's entry. -/
abbrev W5 (c : Dev nD) : Valuation τ sig (Elt F) := StableHlo.after hostOps1 (W4 d0 m c)
/-- The same read at the TensorCore's references. -/
abbrev V5 : Entry F := fun c b => W5 d0 m c b
/-- At the second region's exit: its arrays at what the pipeline leaves, every other buffer as entered. -/
def W6 (c : Dev nD) : Valuation τ sig (Elt F) :=
  Pipeline.withArrays spec1 c (W5 d0 m c) fun w => (d1 (V5 d0 m) c).arrAt w cfg1.N

/-- A window's array of the first region after the region. -/
theorem W4_arr (c : Dev nD) (w : Fin cfg0.W) :
    W4 d0 m c (Proc.devRef .tc (Pipeline.arrRef spec0 w)) = (d0 (V3 m) c).arrAt w cfg0.N := by
  unfold W4; exact Pipeline.withArrays_arr spec0 launch0.win.arr_inj c _ _ w
/-- A buffer that is no window's array of the first region is as the region found it. -/
theorem W4_of_ne (c : Dev nD) (b : Ref sig .tc) (hb : ∀ w, Pipeline.arrRef spec0 w ≠ b) :
    W4 d0 m c (Proc.devRef .tc b) = W3 m c (Proc.devRef .tc b) := by
  unfold W4; exact Pipeline.withArrays_of_ne spec0 c _ _ b hb
/-- A window's array of the second region after the region. -/
theorem W6_arr (c : Dev nD) (w : Fin cfg1.W) :
    W6 d0 d1 m c (Proc.devRef .tc (Pipeline.arrRef spec1 w)) = (d1 (V5 d0 m) c).arrAt w cfg1.N := by
  unfold W6; exact Pipeline.withArrays_arr spec1 launch1.win.arr_inj c _ _ w
/-- A buffer that is no window's array of the second region is as the region found it. -/
theorem W6_of_ne (c : Dev nD) (b : Ref sig .tc) (hb : ∀ w, Pipeline.arrRef spec1 w ≠ b) :
    W6 d0 d1 m c (Proc.devRef .tc b) = W5 d0 m c (Proc.devRef .tc b) := by
  unfold W6; exact Pipeline.withArrays_of_ne spec1 c _ _ b hb

end Cert.Kernel.Hand

end
-- ==== Proof.K.Run.lean ====
/-
  The entry function run from the launch to the return, for ANY two families of region proof data.

  The entry function is six items in order: three stretches of host operations, the first kernel region, a fourth
  stretch, the second kernel region. Between two items a TensorCore holds every unscoped buffer whole at the contents
  the fold W0 … W6 names, beside its generator register at some state and a record of owing nothing. A stretch of host
  operations moves the contents by its composed function. A region splits its windows' arrays out of the unscoped
  buffers, runs its pipeline, and puts the arrays back at what the write-backs left; the generator register and the
  scoped buffers no window stages pass through the region's invariant.

  What is asked of the two data families is exactly what that argument uses: the entry arrays are read off the entry
  contents, every input array is held at the full share, the body owes nothing at any point, the body obligation holds,
  and the invariant at the first and after the last point is interchangeable with the region class's invariant
  (the scoped rest and the generator register). The conclusion: every weakly fair execution terminates and every
  unscoped buffer of every core ends at W6. The nine argument arrays are then read back through the fold to the launch
  memory: no host operation writes an argument, and a region leaves an input window's array as it found it.
-/
import proofs.«403099_j88871463289481_2_alg».proof.Proof.K.Vals
import proofs.«403099_j88871463289481_2_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Run

variable (d0 : Data0 F) (d1 : Data1 F)
  (hA0 : ∀ (V : Entry F) (c : Dev nD) (w : Fin cfg0.W), (d0 V c).A w = V c (Pipeline.arrRef spec0 w))
  (hA1 : ∀ (V : Entry F) (c : Dev nD) (w : Fin cfg1.W), (d1 V c).A w = V c (Pipeline.arrRef spec1 w))
  (hq0 : ∀ (V : Entry F) (c : Dev nD) (w : Fin cfg0.W), (d0 V c).q w = fullShare)
  (hq1 : ∀ (V : Entry F) (c : Dev nD) (w : Fin cfg1.W), (d1 V c).q w = fullShare)
  (ho0 : ∀ (V : Entry F) (c : Dev nD) (t : Fin (cfg0.N + 1)), (d0 V c).owed t = 0)
  (ho1 : ∀ (V : Entry F) (c : Dev nD) (t : Fin (cfg1.N + 1)), (d1 V c).owed t = 0)
  (hb0 : ∀ (V : Entry F) (c : Dev nD), BodyObligation (d0 V c) (defs₀ (F := F)) Variants.none () Set.univ)
  (hb1 : ∀ (V : Entry F) (c : Dev nD), BodyObligation (d1 V c) (defs₀ (F := F)) Variants.none () Set.univ)
  (hin0 : ∀ (V : Entry F) (c : Dev nD), Pipeline.ΦA spec0 c ⊢ (d0 V c).Φ 0)
  (hout0 : ∀ (V : Entry F) (c : Dev nD), (d0 V c).Φ (Fin.last cfg0.N) ⊢ Pipeline.ΦA spec0 c)
  (hin1 : ∀ (V : Entry F) (c : Dev nD), Pipeline.ΦA spec1 c ⊢ (d1 V c).Φ 0)
  (hout1 : ∀ (V : Entry F) (c : Dev nD), (d1 V c).Φ (Fin.last cfg1.N) ⊢ Pipeline.ΦA spec1 c)
  (hr0 : ∀ (V : Entry F) (c : Dev nD), (d0 V c).recorded 0 = Set.univ)
  (hr1 : ∀ (V : Entry F) (c : Dev nD), (d1 V c).recorded 0 = Set.univ)
  (m : (ℓ : Loc nD τ sig) → Buf (Elt F) ℓ) (ρ : Dev nD → PrngReg)

/-! ## The arguments end as launched -/

/-- A buffer none of the first three stretches writes holds its launch contents when the first region is entered. -/
theorem W3_of_host (c : Dev nD) (b : Ref sig .tc) (h0 : b ∉ hostOps0_W) (h1 : b ∉ hostOps0_1_W) (h2 : b ∉ hostOps0_2_W) :
    W3 m c (Proc.devRef .tc b) = m ((c : Thread nD τ).loc b) :=
  calc W3 m c (Proc.devRef .tc b)
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-- A buffer the fourth stretch does not write is, when the second region is entered, as the first region left it. -/
theorem W5_of_host (c : Dev nD) (b : Ref sig .tc) (h : b ∉ hostOps1_W) :
    W5 d0 m c (Proc.devRef .tc b) = W4 d0 m c (Proc.devRef .tc b) :=
  StableHlo.after_of_writes_sub hostOps1 _ hostOps1_writes h

/-- A buffer that is no window's array of either region and that no stretch writes ends as launched. -/
theorem W6_of_untouched (c : Dev nD) (b : Ref sig .tc) (hr1 : ∀ w, Pipeline.arrRef spec1 w ≠ b) (hr0 : ∀ w, Pipeline.arrRef spec0 w ≠ b)
    (h0 : b ∉ hostOps0_W) (h1 : b ∉ hostOps0_1_W) (h2 : b ∉ hostOps0_2_W) (h3 : b ∉ hostOps1_W) :
    W6 d0 d1 m c (Proc.devRef .tc b) = m ((c : Thread nD τ).loc b) :=
  calc W6 d0 d1 m c (Proc.devRef .tc b)
    _ = W5 d0 m c (Proc.devRef .tc b) := W6_of_ne d0 d1 m c b hr1
    _ = W4 d0 m c (Proc.devRef .tc b) := W5_of_host d0 m c b h3
    _ = W3 m c (Proc.devRef .tc b) := W4_of_ne d0 m c b hr0
    _ = m ((c : Thread nD τ).loc b) := W3_of_host m c b h0 h1 h2

section Args
include hA0 hA1

/-- The first argument is the first region's first input window's array: the region leaves it as entered. -/
theorem W6_main_arg0 (c : Dev nD) : W6 d0 d1 m c (Proc.devRef .tc main_arg0) = m ((c : Thread nD τ).loc main_arg0) :=
  calc W6 d0 d1 m c (Proc.devRef .tc main_arg0)
    _ = W5 d0 m c (Proc.devRef .tc main_arg0) := W6_of_ne d0 d1 m c main_arg0 (by decide)
    _ = W4 d0 m c (Proc.devRef .tc main_arg0) := W5_of_host d0 m c main_arg0 (by decide)
    _ = W3 m c (Proc.devRef .tc main_arg0) :=
          (W4_arr d0 m c 0).trans (((d0 (V3 m) c).arrAt_in 0 rfl _).trans (hA0 (V3 m) c 0))
    _ = m ((c : Thread nD τ).loc main_arg0) := W3_of_host m c main_arg0 (by decide) (by decide) (by decide)

theorem W6_main_arg1 (c : Dev nD) : W6 d0 d1 m c (Proc.devRef .tc main_arg1) = m ((c : Thread nD τ).loc main_arg1) :=
  W6_of_untouched d0 d1 m c main_arg1 (by decide) (by decide) (by decide) (by decide) (by decide) (by decide)

/-- The third argument is the second region's second input window's array: the region leaves it as entered. -/
theorem W6_main_arg2 (c : Dev nD) : W6 d0 d1 m c (Proc.devRef .tc main_arg2) = m ((c : Thread nD τ).loc main_arg2) :=
  calc W6 d0 d1 m c (Proc.devRef .tc main_arg2)
    _ = W5 d0 m c (Proc.devRef .tc main_arg2) :=
          (W6_arr d0 d1 m c 1).trans (((d1 (V5 d0 m) c).arrAt_in 1 rfl _).trans (hA1 (V5 d0 m) c 1))
    _ = W4 d0 m c (Proc.devRef .tc main_arg2) := W5_of_host d0 m c main_arg2 (by decide)
    _ = W3 m c (Proc.devRef .tc main_arg2) := W4_of_ne d0 m c main_arg2 (by decide)
    _ = m ((c : Thread nD τ).loc main_arg2) := W3_of_host m c main_arg2 (by decide) (by decide) (by decide)

theorem W6_main_arg3 (c : Dev nD) : W6 d0 d1 m c (Proc.devRef .tc main_arg3) = m ((c : Thread nD τ).loc main_arg3) :=
  W6_of_untouched d0 d1 m c main_arg3 (by decide) (by decide) (by decide) (by decide) (by decide) (by decide)
theorem W6_main_arg4 (c : Dev nD) : W6 d0 d1 m c (Proc.devRef .tc main_arg4) = m ((c : Thread nD τ).loc main_arg4) :=
  W6_of_untouched d0 d1 m c main_arg4 (by decide) (by decide) (by decide) (by decide) (by decide) (by decide)
theorem W6_main_arg5 (c : Dev nD) : W6 d0 d1 m c (Proc.devRef .tc main_arg5) = m ((c : Thread nD τ).loc main_arg5) :=
  W6_of_untouched d0 d1 m c main_arg5 (by decide) (by decide) (by decide) (by decide) (by decide) (by decide)
theorem W6_main_arg6 (c : Dev nD) : W6 d0 d1 m c (Proc.devRef .tc main_arg6) = m ((c : Thread nD τ).loc main_arg6) :=
  W6_of_untouched d0 d1 m c main_arg6 (by decide) (by decide) (by decide) (by decide) (by decide) (by decide)
theorem W6_main_arg7 (c : Dev nD) : W6 d0 d1 m c (Proc.devRef .tc main_arg7) = m ((c : Thread nD τ).loc main_arg7) :=
  W6_of_untouched d0 d1 m c main_arg7 (by decide) (by decide) (by decide) (by decide) (by decide) (by decide)
theorem W6_main_arg8 (c : Dev nD) : W6 d0 d1 m c (Proc.devRef .tc main_arg8) = m ((c : Thread nD τ).loc main_arg8) :=
  W6_of_untouched d0 d1 m c main_arg8 (by decide) (by decide) (by decide) (by decide) (by decide) (by decide)

end Args

/-! ## The proof data family and the thread state -/

/-- The prefetched tables' admissible contents: neither region has a table. -/
abbrev tabs : (p : Fin 2) → (pcfgs (F := F) p).Adm := fun p => (cfgs p).toPCfg_adm

/-- Each region's proof data at the contents the region is entered with, by a literal case split on the region's
    index (so that the pinned configuration at a numeral reduces to the printed one). -/
def pdats : (p : Fin 2) → (c : Dev nD) → Dat τ (Elt F) Unit ℕ (UR sig nD τ) ℕ (Pipeline.pin (pcfgs (F := F)) tabs p) c
  | ⟨0, _⟩ => fun c => d0 (V3 m) c
  | ⟨1, _⟩ => fun c => d1 (V5 d0 m) c

/-- No variant is assigned, -/
abbrev 𝒱ₙ : Variants := Variants.none
/-- no core owes another anything, so no level is assigned. -/
abbrev Lₙ : GSem nD τ sig → Finset Unit := fun _ => ∅
abbrev lvₙ : GSem nD τ sig → Unit → ℕ := fun _ _ => 0

/-- What rides beside the buffers through every item: the generator register at some state, and owing nothing. -/
abbrev Ride (c : Dev nD) : sProp 𝕄 := iprop((∃ r, prngReg c r) ∗ ∃ W, owes (c : Thread nD τ) (0 : CellTallies nD τ sig Unit) W)

/-- A stretch of host operations as an item: over the unscoped references from the contents W, Ride beside them. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- The last thread state without the record of owing nothing: every unscoped buffer at W6, the generator register. -/
abbrev Last (c : Dev nD) : sProp 𝕄 :=
  iprop(StableHlo.held (c : Thread nD τ) (Pipeline.ucRefs τ sig) (W6 d0 d1 m c) ∗ ∃ r, prngReg c r)

/-- At each region's exit its arrays hold what the pipeline leaves, every other buffer what it held at entry. -/
theorem exitArr0 (c : Dev nD) (w : Fin cfg0.W) : (d0 (V3 m) c).arrAt w cfg0.N = W4 d0 m c (Pipeline.arrRef spec0 w) :=
  (W4_arr d0 m c w).symm
theorem exitRest0 (c : Dev nD) : ∀ b : Ref sig .tc, b ∉ Finset.univ.image (Pipeline.arrRef spec0) → W4 d0 m c b = V3 m c b :=
  fun b hb => W4_of_ne d0 m c b fun w e => hb (Finset.mem_image.mpr ⟨w, Finset.mem_univ _, e⟩)
theorem exitArr1 (c : Dev nD) (w : Fin cfg1.W) : (d1 (V5 d0 m) c).arrAt w cfg1.N = W6 d0 d1 m c (Pipeline.arrRef spec1 w) :=
  (W6_arr d0 d1 m c w).symm
theorem exitRest1 (c : Dev nD) : ∀ b : Ref sig .tc, b ∉ Finset.univ.image (Pipeline.arrRef spec1) → W6 d0 d1 m c b = V5 d0 m c b :=
  fun b hb => W6_of_ne d0 d1 m c b fun w e => hb (Finset.mem_image.mpr ⟨w, Finset.mem_univ _, e⟩)

/-! ## The regions as items -/

section Regs

set_option backward.isDefEq.respectTransparency.types false in
/-- The first region: entered from every unscoped buffer at W3, left at W4. -/
def reg0 : Pipeline.RegionSeg (pcfgs (F := F)) tabs (pdats d0 d1 m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (hb0 (V3 m) c).loose
  hwaits := Pipeline.hwaits_of_owed_zero _ _ _ _ Lₙ lvₙ 0 fun c t => ho0 (V3 m) c t
  pre c := iprop(StableHlo.held (c : Thread nD τ) (Pipeline.ucRefs τ sig) (W3 m c) ∗ Ride c)
  post c := iprop(StableHlo.held (c : Thread nD τ) (Pipeline.ucRefs τ sig) (W4 d0 m c) ∗ Ride c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) tabs (pdats d0 d1 m) launch0.win launch0.arr_whole c
      ((pdats d0 d1 m 0 c).share_full fun w => hq0 (V3 m) c w) (V3 m c) fun w => hA0 (V3 m) c w
    rw [Pipeline.unscopedBufs_held] at hsplit
    have e0 : (pdats d0 d1 m 0 c).owed 0 = 0 := ho0 (V3 m) c 0
    have er : (pdats d0 d1 m 0 c).recorded 0 = Set.univ := hr0 (V3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [e0, er]
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    unfold Pipeline.ΦA
    iintro ⟨Hp, -, Hr⟩
    isplitl [Hr]; · iexact Hr
    iexact Hp
  hout c := by
    rw [Pipeline.ownSems0_none]
    refine (hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats d0 d1 m) ((pdats d0 d1 m 0 c).share_full fun w => hq0 (V3 m) c w)
      (V3 m c) (fun b => W4 d0 m c b) ((pdats d0 d1 m 0 c).arrAt · cfg0.N) (exitArr0 d0 m c) (exitRest0 d0 m c)
    rw [Pipeline.unscopedBufs_held] at hjoin
    have eN : (pdats d0 d1 m 0 c).owed (Fin.last (Pipeline.pin (pcfgs (F := F)) tabs 0).N) = 0 := ho0 (V3 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- The second region: entered from every unscoped buffer at W5, left at W6 (what the launch reads at the end). -/
def reg1 : Pipeline.RegionSeg (pcfgs (F := F)) tabs (pdats d0 d1 m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (hb1 (V5 d0 m) c).loose
  hwaits := Pipeline.hwaits_of_owed_zero _ _ _ _ Lₙ lvₙ 1 fun c t => ho1 (V5 d0 m) c t
  pre c := iprop(StableHlo.held (c : Thread nD τ) (Pipeline.ucRefs τ sig) (W5 d0 m c) ∗ Ride c)
  post c := iprop(Last d0 d1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 d0 m c)
  hentry c := by
    rw [Pipeline.ownSems0_none]
    have hsplit := Pipeline.arrays_of_unscopedBufs (p := 1) (pcfgs (F := F)) tabs (pdats d0 d1 m) launch1.win launch1.arr_whole c
      ((pdats d0 d1 m 1 c).share_full fun w => hq1 (V5 d0 m) c w) (V5 d0 m c) fun w => hA1 (V5 d0 m) c w
    rw [Pipeline.unscopedBufs_held] at hsplit
    have e0 : (pdats d0 d1 m 1 c).owed 0 = 0 := ho1 (V5 d0 m) c 0
    have er : (pdats d0 d1 m 1 c).recorded 0 = Set.univ := hr1 (V5 d0 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [e0, er]
      icases HO with ⟨%W, HO⟩; iexists W; isplitr; · ipureintro; exact fun _ _ => Or.inl trivial
      iexact HO
    isplitl [Hp]; · iexact Hp
    iexact Hrest
  hin c := by
    refine BIBase.Entails.trans ?_ (hin1 (V5 d0 m) c)
    unfold Pipeline.ΦA
    iintro ⟨Hp, -, Hr⟩
    isplitl [Hr]; · iexact Hr
    iexact Hp
  hout c := by
    rw [Pipeline.ownSems0_none]
    refine (hout1 (V5 d0 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats d0 d1 m) ((pdats d0 d1 m 1 c).share_full fun w => hq1 (V5 d0 m) c w)
      (V5 d0 m c) (fun b => W6 d0 d1 m c b) ((pdats d0 d1 m 1 c).arrAt · cfg1.N) (exitArr1 d0 d1 m c) (exitRest1 d0 d1 m c)
    rw [Pipeline.unscopedBufs_held] at hjoin
    have eN : (pdats d0 d1 m 1 c).owed (Fin.last (Pipeline.pin (pcfgs (F := F)) tabs 1).N) = 0 := ho1 (V5 d0 m) c (Fin.last _)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [eN]
    icases HO with ⟨%W, -, HO⟩; iexists W; iexact HO

local notation "𝓡₀" => reg0 d0 d1 hA0 hq0 ho0 hb0 hin0 hout0 hr0 m
local notation "𝓡₁" => reg1 d0 d1 hA1 hq1 ho1 hb1 hin1 hout1 hr1 m

/-! ## The entry function as its items, and the launch -/

/-- The six items in order. -/
abbrev items : List (Pipeline.Seg (pcfgs (F := F)) tabs (pdats d0 d1 m) () defs₀ 𝒱ₙ Lₙ lvₙ) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region 𝓡₀,
    .host (stretch hostOps1 hostOps1_sub hostOps1_fresh (W4 d0 m)),
    .region 𝓡₁ ]

local notation "𝓘" => items d0 d1 hA0 hA1 hq0 hq1 ho0 ho1 hb0 hb1 hin0 hout0 hin1 hout1 hr0 hr1 m

include hA0 hA1 hq0 hq1 ho0 ho1 hb0 hb1 hin0 hout0 hin1 hout1 hr0 hr1 in
set_option backward.isDefEq.respectTransparency.types false in
/-- THE RUN. From any memory with zero counters, every weakly fair execution of the entry function on the TensorCores
    terminates, nothing faulting, and in every final state each core's every unscoped buffer holds W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 d0 d1 m c b) :=
  Pipeline.θ_run_regions_kit_dev (pcfgs (F := F)) tabs (pdats d0 d1 m) () cellOf_inj emb₁ defs₀ 𝒱ₙ Lₙ lvₙ m ρ main (fun _ => 𝓘)
    (fun c Q => by
      rewrite [main_chain c, Pipeline.Seg.run_eq_chain,
        show (𝓘).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Last d0 d1 m)
    (hch := fun c => ⟨.rfl, .rfl, .rfl, .rfl, .rfl, .rfl, .rfl⟩)
    (hinit := by
      refine Pipeline.initEach Lₙ lvₙ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 d0 d1 m c b)
    (hfin := fun c s' => by
      iintro ⟨⟨Hh, -⟩, HSI⟩
      unfold StableHlo.held
      imodintro
      iapply (pointsTo_read_all (Pipeline.ucRefs τ sig) (fun b => (((c : Thread nD τ)).1, b)) (W6 d0 d1 m c) s')
      isplitl [Hh] <;> iassumption)
    (hQ := fun s h c => h c)

end Regs

end Run

end Cert.Kernel.Hand

end
-- ==== Proof.K.Region0.lean ====
import proofs.«403099_j88871463289481_2_alg».proof.Proof.Gen.Kernel.Launch
import proofs.«403099_j88871463289481_2_alg».proof.Proof.Gen.Kernel.Skeleton
import proofs.«403099_j88871463289481_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the embedding kernel on its one grid point

The first kernel region has a grid of a single point. Its five windows are whole arrays: three inputs (the edge
context, the weight, the bias row) and two outputs (the head half and the tail half of the embedded rows). The
body reads the three inputs whole, and overwrites each output buffer whole with a payload of the three inputs.
Everything is stated at a parameter V: the contents of the core's buffers when the region is entered. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each the whole of its buffer -/

abbrev r0_a : Rect S1280x512 := Rect.unit (s := S1280x512) ![0, 0] S1280x512.size Gen.inb_S1280x512_S1280x512_0_0
abbrev r0_b : Rect S512x1024 := Rect.unit (s := S512x1024) ![0, 0] S512x1024.size Gen.inb_S512x1024_S512x1024_0_0
abbrev r0_c : Rect S1x1024 := Rect.unit (s := S1x1024) ![0, 0] S1x1024.size Gen.inb_S1x1024_S1x1024_0_0

/-! ## What the body leaves in each output window's buffer -/

/-- The head half's buffer after the body: one store of the whole buffer, its payload a function of the three
    inputs read whole. -/
def out0_3 (x0 : Vec F S1280x512 .f32) (x1 : Vec F S512x1024 .bf16) (x2 : Vec F S1x1024 .f32) : Vec F S1280x512 .bf16 :=
  View.canon [⟨r0_a, k0_pay2 (View.ld x0 r0_a) (View.ld x1 r0_b) (View.ld x2 r0_c)⟩]

/-- The tail half's buffer after the body, likewise. -/
def out0_4 (x0 : Vec F S1280x512 .f32) (x1 : Vec F S512x1024 .bf16) (x2 : Vec F S1x1024 .f32) : Vec F S1280x512 .bf16 :=
  View.canon [⟨r0_a, k0_pay3 (View.ld x0 r0_a) (View.ld x1 r0_b) (View.ld x2 r0_c)⟩]

/-! ## The pipeline's proof data -/

/-- The proof data of the region on core c: the arrays as the region finds them; after the body each input's
    buffer at its block and each output's at its payload of the input blocks; the invariant that of a region whose
    body touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The inputs' buffers hold their blocks -/

/-- An input window's current staging buffer holds its block at the point, fetched there or not, for any proof
    data whose array is the entry contents and whose body leaves the block in place: the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

/-- A single store of the whole buffer covers it. -/
theorem cover0 (p0 : Vec F S1280x512 .bf16) (y : S1280x512.Idx) :
    ∃ pc ∈ ([⟨r0_a, p0⟩] : List (View.Piece (Elt F) S1280x512 .bf16)), y ∈ pc.1.set :=
  View.cover_of_tiled [⟨r0_a, p0⟩] S1280x512.size (by rfl) y

set_option maxHeartbeats 1000000 in
/-- The body on whole staging memrefs, the inputs' at read contents and the outputs' at anything, runs to the
    continuation holding the inputs' as they were and each output's at its payload of the inputs. -/
theorem sound_kernel0 (c : Dev nD) (E : Set ℕ) (i : grid0.Coords)
    (arg1 : Memref sig .tc .vmem S1280x512 .f32) (harg1 : arg1.IsWhole)
    (arg2 : Memref sig .tc .vmem S512x1024 .bf16) (harg2 : arg2.IsWhole)
    (arg3 : Memref sig .tc .vmem S1x1024 .f32) (harg3 : arg3.IsWhole)
    (arg4 : Memref sig .tc .vmem S1280x512 .bf16) (harg4 : arg4.IsWhole)
    (arg5 : Memref sig .tc .vmem S1280x512 .bf16) (harg5 : arg5.IsWhole)
    (x0 : Vec F S1280x512 .f32) (x1 : Vec F S512x1024 .bf16) (x2 : Vec F S1x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)) -∗ K ⟨⟩))
      ⊢ wp frame (wpE (defs₀ (F := F)) Variants.none c none) E
          (cc0__post_emb_kernel i arg1 harg1 arg2 harg2 arg3 harg3 arg4 harg4 arg5 harg5) K := by
  simp only [cc0__post_emb_kernel_eq_skeleton]; unfold cc0__post_emb_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The body obligation, at the point -/

/-- What the body is called with at point t: the invariant, the dues, and each window's current staging buffer
    at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at the point: the inputs' memrefs hold their blocks, so the body's triple applies; the invariant
    and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Runs.lean ====
import proofs.«403099_j88871463289481_2_alg».proof.Proof.Gen.Kernel.Launch
import proofs.«403099_j88871463289481_2_alg».proof.Proof.Gen.Kernel.Skeleton
import proofs.«403099_j88871463289481_2_alg».proof.Proof.Gen.Kernel.Points
import Idealize.ShloMosaic.Lib.Pipeline.FrameBody
import Idealize.ShloMosaic.Lib.Ring
import Idealize.ShloMosaic.Lib.Tactic

/-! # The second region's body, run whole

The second region walks a grid of 256 × 2 points; point t has coordinates (t / 2, t % 2).
Its body has one conditional, on the second coordinate being zero. Where it is taken the body
fills a carried scratch of 256 × 1024 from the two index columns and the two tables (left half,
right half); in both cases it then reads the whole scratch, the column slices of the weights
and biases at the second coordinate, and the point's block of the second input, and stores the
product tile whole into the output block. So there are two runs: one in which the scratch is
written (and may start at anything), one in which it is only read (and is handed back as found). -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's condition -/

/-- The body's one condition: the second grid coordinate is zero (as the body computes it, on 32-bit words). -/
abbrev cond1_0 (i : grid1.Coords) : Prop := (Scalar.cmpi .ne (Scalar.extui (Scalar.cmpi .eq (BitVec.ofNat 32 (i 1).val) 0#32)) 0#32) = 1#1

/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-! ## The buffers the body is handed at a point -/

/-- Window 0's current staging buffer at a point, and that it is a whole buffer. -/
abbrev ms1_0 (t : Fin cfg1.N) : Memref sig .tc .vmem S256x2 .i32 := win1_0.stage (cfg1.slots t 0)
abbrev hs1_0 (t : Fin cfg1.N) : (ms1_0 t).IsWhole := hstage1_0 ((cfg1.slots t 0).cast nbuf1_0)
/-- Window 1's current staging buffer at a point, and that it is a whole buffer. -/
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
/-- Window 2's current staging buffer at a point, and that it is a whole buffer. -/
abbrev ms1_2 (t : Fin cfg1.N) : Memref sig .tc .vmem S1280x512 .bf16 := win1_2.stage (cfg1.slots t 2)
abbrev hs1_2 (t : Fin cfg1.N) : (ms1_2 t).IsWhole := hstage1_2 ((cfg1.slots t 2).cast nbuf1_2)
/-- Window 3's current staging buffer at a point, and that it is a whole buffer. -/
abbrev ms1_3 (t : Fin cfg1.N) : Memref sig .tc .vmem S1280x512 .bf16 := win1_3.stage (cfg1.slots t 3)
abbrev hs1_3 (t : Fin cfg1.N) : (ms1_3 t).IsWhole := hstage1_3 ((cfg1.slots t 3).cast nbuf1_3)
/-- Window 4's current staging buffer at a point, and that it is a whole buffer. -/
abbrev ms1_4 (t : Fin cfg1.N) : Memref sig .tc .vmem S1024x4096 .bf16 := win1_4.stage (cfg1.slots t 4)
abbrev hs1_4 (t : Fin cfg1.N) : (ms1_4 t).IsWhole := hstage1_4 ((cfg1.slots t 4).cast nbuf1_4)
/-- Window 5's current staging buffer at a point, and that it is a whole buffer. -/
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
/-- Window 6's current staging buffer at a point, and that it is a whole buffer. -/
abbrev ms1_6 (t : Fin cfg1.N) : Memref sig .tc .vmem S2048x4096 .bf16 := win1_6.stage (cfg1.slots t 6)
abbrev hs1_6 (t : Fin cfg1.N) : (ms1_6 t).IsWhole := hstage1_6 ((cfg1.slots t 6).cast nbuf1_6)
/-- Window 7's current staging buffer at a point, and that it is a whole buffer. -/
abbrev ms1_7 (t : Fin cfg1.N) : Memref sig .tc .vmem S1x4096 .f32 := win1_7.stage (cfg1.slots t 7)
abbrev hs1_7 (t : Fin cfg1.N) : (ms1_7 t).IsWhole := hstage1_7 ((cfg1.slots t 7).cast nbuf1_7)
/-- Window 8's current staging buffer at a point, and that it is a whole buffer. -/
abbrev ms1_8 (t : Fin cfg1.N) : Memref sig .tc .vmem S256x2048 .f32 := win1_8.stage (cfg1.slots t 8)
abbrev hs1_8 (t : Fin cfg1.N) : (ms1_8 t).IsWhole := hstage1_8 ((cfg1.slots t 8).cast nbuf1_8)

/-- The scratch: a whole buffer of the region's own, passed beside the windows and carried from point to point. -/
abbrev scM1_0 : Memref sig .tc .vmem S256x1024 .bf16 := Memref.whole cc1_scratch0
/-- The scratch as a view: what it holds is stated through it. -/
abbrev VS1_0 : View sig .tc .vmem S256x1024 .bf16 := scM1_0.view
/-- One staging buffer of the output window, through which its contents are stated (the choice does not matter). -/
abbrev VO1_8 : View sig .tc .vmem S256x2048 .f32 := (Memref.whole cc1_stg8_0 : Memref sig .tc .vmem S256x2048 .f32).view

/-- What the region's invariant owns beside the windows: the first region's five staging buffers at anything,
    the scratch at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The two runs -/

set_option maxHeartbeats 4000000 in
/-- The body where the condition holds (second coordinate zero). On whole buffers, the eight inputs' at their
    contents, the output's and the scratch at anything, the body runs to a continuation that holds the inputs'
    as they were, the output's with the pieces L8 written and the scratch with the pieces LS0 written. The
    pieces (last store first) are part of the statement: the run determines them. The scratch gets two pieces, its
    left and right halves; the output one piece, the whole tile. -/
noncomputable def kernelRun1_A (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) :
    Σ' (L8 : List (View.Piece (Elt F) S256x2048 .f32)), { LS0 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

set_option maxHeartbeats 4000000 in
/-- The body where the condition fails (second coordinate not zero): the scratch is only read. On whole buffers,
    the eight inputs' at their contents, the scratch at the contents xs0 the point before left, the output's at
    anything, the body runs to a continuation that holds the inputs' and the scratch as they were and the output's
    with the pieces L8 written (one piece, the whole tile). -/
noncomputable def kernelRun1_B (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (xs0 : Vec F S256x1024 .bf16) :
    { L8 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.Kernel.Hand

end
-- ==== Proof.K.Region1.lean ====
import proofs.«403099_j88871463289481_2_alg».proof.Proof.K.Region1Runs
import Idealize.ShloMosaic.Lib.Pipeline.FrameBody
import Idealize.ShloMosaic.Lib.Ring
import Idealize.ShloMosaic.Lib.Tactic

/-! # The second region at given entry contents

Everything here is stated at a parameter V: the buffers' contents when the region is entered. Each
input window's staging buffer holds, at every point, that window's block of its array at V. The
output window's buffer and the carried scratch after point n are given by a recursion over n: an
even point fills the scratch from the point's index block and the two tables and stores the product
tile; an odd point reads the scratch the point before left, leaves it as it is, and stores the
product tile. The region's invariant owns the scratch at exactly those contents. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data over the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data over the entry arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data over the entry arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data over the entry arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data over the entry arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data over the entry arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the
    block index has not moved), for any proof data over the entry arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, the
    block index has not moved), for any proof data over the entry arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves in the output block and in the scratch -/

/-- Where the condition holds, the pieces stored into the output block cover it (one piece, the whole tile). -/
theorem cover1_A_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (y : S256x2048.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).1 S256x2048.size (by sl_kernel_rfl) y

/-- What that case leaves in the output block: its pieces read back. -/
def out1_A_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) : Vec F S256x2048 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3 x4 x5 x6 x7).1)

/-- Where the condition holds, the pieces stored into the scratch cover it (two pieces: its left and right halves). -/
theorem scover1_A_0 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (y : S256x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).2.1 S256x512.size (by sl_kernel_rfl) y

/-- What that case leaves in the scratch: its pieces read back. -/
def sout1_A_0 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) : Vec F S256x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6 x7).2.1)

/-- Where the condition fails, the pieces stored into the output block cover it (one piece, the whole tile). -/
theorem cover1_B_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (xs0 : Vec F S256x1024 .bf16) (y : S256x2048.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 xs0).1 S256x2048.size (by sl_kernel_rfl) y

/-- What that case leaves in the output block, over the scratch contents it found: its pieces read back. -/
def out1_B_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (xs0 : Vec F S256x1024 .bf16) : Vec F S256x2048 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 x6 x7 xs0).1)

section Region1

variable (V : (c : Dev nD) → (b : Ref sig .tc) → Buf (Elt F) ((c : Thread nD τ).loc b))

/-! ## What the output block and the scratch hold after each point -/

/-- The output tile and the scratch after the body at position n. An even position fills the scratch from the
    point's blocks; an odd position computes over the scratch the position before left, and leaves it unchanged. -/
def outsAt1 (c : Dev nD) : (n : ℕ) → n < cfg1.N → Vec F S256x2048 .f32 × Vec F S256x1024 .bf16
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 2 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, (outsAt1 c n (Nat.lt_of_succ_lt hn)).2)

/-- At an even point: the scratch is filled from the point's blocks, and the tile computed over it. -/
theorem outsAt1_A (c : Dev nD) (t : Fin cfg1.N) (h : t.val % 2 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h).trans rfl

/-- At an odd point: the tile is computed over the scratch the point before left, which stays as it is. -/
theorem outsAt1_B (c : Dev nD) (t : Fin cfg1.N) (h : ¬t.val % 2 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h' => h ((hcond1_0 t).mp h')) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-! ## The region's invariant -/

/-- Before position n: at the start what the launch hands over (the scratch at anything); afterwards the first
    region's staging buffers at anything, the scratch at what the position before left, and the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core c: the arrays at the entry contents; after the body at point t
    each input's buffer at its block and the output's at the tile of that point; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4800000 in
/-- The body at any point. The inputs' buffers hold their blocks. At an even point the invariant hands the body
    the scratch (at anything at the first point, at what the point before left afterwards) and takes it back
    filled from the point's blocks; at an odd point it hands the scratch at what the point before left and takes
    it back unchanged. The first region's staging buffers, the generator register and the core's debts pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8]
  by_cases h0 : t.val % 2 = 0
  · rw [outsAt1_A V c t h0]
    unfold out1_A_8 sout1_A_0; (try dsimp only)
    by_cases hz : t.val = 0
    · rw [PhiS1_castSucc V c t, PhiS1_zero V c _ _ hz, PhiA1_eq]
      iintro ⟨⟨⟨Hg0, Hg1, Hg2, Hg3, Hg4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [Hg0 Hg1 Hg2 Hg3 Hg4 HS0 Hg]
      · isplitl [Hg0 Hg1 Hg2 Hg3 Hg4 HS0]
        · isplitl [Hg0]; · iexact Hg0
          isplitl [Hg1]; · iexact Hg1
          isplitl [Hg2]; · iexact Hg2
          isplitl [Hg3]; · iexact Hg3
          isplitl [Hg4]; · iexact Hg4
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
    · rw [PhiS1_castSucc V c t, PhiS1_pos V c _ _ hz]
      iintro ⟨⟨⟨Hg0, Hg1, Hg2, Hg3, Hg4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [Hg0 Hg1 Hg2 Hg3 Hg4 HS0 Hg]
      · isplitl [Hg0 Hg1 Hg2 Hg3 Hg4 HS0]
        · isplitl [Hg0]; · iexact Hg0
          isplitl [Hg1]; · iexact Hg1
          isplitl [Hg2]; · iexact Hg2
          isplitl [Hg3]; · iexact Hg3
          isplitl [Hg4]; · iexact Hg4
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
  · have hz : t.val ≠ 0 := fun e => h0 (by rw [e])
    rw [outsAt1_B V c t h0]
    unfold out1_B_8; (try dsimp only)
    rw [PhiS1_castSucc V c t, PhiS1_pos V c _ _ hz]
    iintro ⟨⟨⟨Hg0, Hg1, Hg2, Hg3, Hg4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, HS0⟩
    isplitl [Hg0 Hg1 Hg2 Hg3 Hg4 HS0 Hg]
    · isplitl [Hg0 Hg1 Hg2 Hg3 Hg4 HS0]
      · isplitl [Hg0]; · iexact Hg0
        isplitl [Hg1]; · iexact Hg1
        isplitl [Hg2]; · iexact Hg2
        isplitl [Hg3]; · iexact Hg3
        isplitl [Hg4]; · iexact Hg4
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hg0, Hg1, Hg2, Hg3, Hg4, HS0⟩, Hg⟩
  isplitl [Hg0 Hg1 Hg2 Hg3 Hg4 HS0]
  · isplitl [Hg0]; · iexact Hg0
    isplitl [Hg1]; · iexact Hg1
    isplitl [Hg2]; · iexact Hg2
    isplitl [Hg3]; · iexact Hg3
    isplitl [Hg4]; · iexact Hg4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Region1

end Cert.Kernel.Hand

end
-- ==== Proof.K.Frame.lean ====
/-
  The frame of the whole program at any float instance: run from any memory, every weakly fair execution terminates without a
  fault and each of the nine argument arrays ends as launched. It is the run over the six segments, instantiated at the two
  regions' proof data, with the final memory read at the arguments: no host operation writes an argument, and a region reads an
  argument through an input window or not at all.
-/
import proofs.«403099_j88871463289481_2_alg».proof.Proof.K.Run
import proofs.«403099_j88871463289481_2_alg».proof.Proof.K.Region0
import proofs.«403099_j88871463289481_2_alg».proof.Proof.K.Region1

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The first region's proof data as a function of its entry contents. -/
abbrev D0 : Data0 F := fun V c => dat0 V c
/-- The second region's. -/
abbrev D1 : Data1 F := fun V c => dat1 V c

/-- The run over the six segments at the two regions' proof data: every unscoped buffer ends at the last boundary's contents. -/
theorem run_data (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 D0 D1 m c b) :=
  run_all (F := F) D0 D1 (fun V c w => A_eq0 V c w) (fun V c w => A_eq1 V c w) (fun _ _ _ => rfl) (fun _ _ _ => rfl)
    (fun _ _ _ => rfl) (fun _ _ _ => rfl) (fun V c => body_obligation0 V c) (fun V c => body_obligation1 V c)
    (fun _ _ => .rfl) (fun _ _ => .rfl) (fun V c => hin1 V c) (fun V c => hout1 V c) (fun _ _ => rfl) (fun _ _ => rfl) m ρ

/-- The frame: the nine argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 D0 D1 (fun V c w => A_eq0 V c w) (fun V c w => A_eq1 V c w) m c),
     (h c _ (mem_uc main_arg1 (by decide))).trans (W6_main_arg1 D0 D1 (fun V c w => A_eq0 V c w) (fun V c w => A_eq1 V c w) m c),
     (h c _ (mem_uc main_arg2 (by decide))).trans (W6_main_arg2 D0 D1 (fun V c w => A_eq0 V c w) (fun V c w => A_eq1 V c w) m c),
     (h c _ (mem_uc main_arg3 (by decide))).trans (W6_main_arg3 D0 D1 (fun V c w => A_eq0 V c w) (fun V c w => A_eq1 V c w) m c),
     (h c _ (mem_uc main_arg4 (by decide))).trans (W6_main_arg4 D0 D1 (fun V c w => A_eq0 V c w) (fun V c w => A_eq1 V c w) m c),
     (h c _ (mem_uc main_arg5 (by decide))).trans (W6_main_arg5 D0 D1 (fun V c w => A_eq0 V c w) (fun V c w => A_eq1 V c w) m c),
     (h c _ (mem_uc main_arg6 (by decide))).trans (W6_main_arg6 D0 D1 (fun V c w => A_eq0 V c w) (fun V c w => A_eq1 V c w) m c),
     (h c _ (mem_uc main_arg7 (by decide))).trans (W6_main_arg7 D0 D1 (fun V c w => A_eq0 V c w) (fun V c w => A_eq1 V c w) m c),
     (h c _ (mem_uc main_arg8 (by decide))).trans (W6_main_arg8 D0 D1 (fun V c w => A_eq0 V c w) (fun V c w => A_eq1 V c w) m c)⟩)
    (run_data m ρ)

end Cert.Kernel.Hand

end
-- ==== Proof.KI.Vals.lean ====
/-
  What a TensorCore's buffers hold at each boundary between the items of the entry function, as a fold from the launch
  memory: three stretches of host operations (two constants; the clip of the index pairs; the conversion of the first
  weight matrix and the reshape of its bias), the first kernel region, a fourth stretch (the conversions of the two
  other weight matrices and the reshapes of their biases), the second kernel region. A stretch of host operations
  changes the contents by its operations' composed function; a region leaves each of its windows' arrays at what its
  write-backs leave and every other buffer as it found it. The regions' proof data are PARAMETERS here (one family per
  region, each a function of the contents the region is entered with), so that the run, the reading of the host
  stretches and the values can be stated against these names before the data are fixed.
-/
import proofs.«403099_j88871463289481_2_alg».proof.Proof.Gen.KernelIdeal.Launch
import Idealize.ShloMosaic.Lib.Pipeline.FrameBody
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The contents of every TensorCore's buffers at the moment a region is entered. -/
abbrev Entry (F : FTy → Type) [FloatOps F] : Type := (c : Dev nD) → (b : Ref sig .tc) → Buf (Elt F) ((c : Thread nD τ).loc b)

/-- A region's proof data as a function of the contents it is entered with: the first region's, -/
abbrev Data0 (F : FTy → Type) [FloatOps F] : Type := (V : Entry F) → (c : Dev nD) → Dat τ (Elt F) Unit ℕ (UR sig nD τ) ℕ cfg0 c
/-- and the second region's. -/
abbrev Data1 (F : FTy → Type) [FloatOps F] : Type := (V : Entry F) → (c : Dev nD) → Dat τ (Elt F) Unit ℕ (UR sig nD τ) ℕ cfg1 c

variable (d0 : Data0 F) (d1 : Data1 F) (m : (ℓ : Loc nD τ sig) → Buf (Elt F) ℓ)

/-- Core c's buffers at launch. -/
abbrev W0 (c : Dev nD) : Valuation τ sig (Elt F) := fun b => m (c, b)
/-- After the two constants. -/
abbrev W1 (c : Dev nD) : Valuation τ sig (Elt F) := StableHlo.after hostOps0 (W0 m c)
/-- After the clip of the index pairs. -/
abbrev W2 (c : Dev nD) : Valuation τ sig (Elt F) := StableHlo.after hostOps0_1 (W1 m c)
/-- After the conversion of the first weight matrix and the reshape of its bias: the first region's entry. -/
abbrev W3 (c : Dev nD) : Valuation τ sig (Elt F) := StableHlo.after hostOps0_2 (W2 m c)
/-- The same read at the TensorCore's references. -/
abbrev V3 : Entry F := fun c b => W3 m c b
/-- At the first region's exit: its arrays at what the pipeline leaves, every other buffer as entered. -/
def W4 (c : Dev nD) : Valuation τ sig (Elt F) :=
  Pipeline.withArrays spec0 c (W3 m c) fun w => (d0 (V3 m) c).arrAt w cfg0.N
/-- After the conversions of the two other weight matrices and the reshapes of their biases: the second region's entry. -/
abbrev W5 (c : Dev nD) : Valuation τ sig (Elt F) := StableHlo.after hostOps1 (W4 d0 m c)
/-- The same read at the TensorCore's references. -/
abbrev V5 : Entry F := fun c b => W5 d0 m c b
/-- At the second region's exit: its arrays at what the pipeline leaves, every other buffer as entered. -/
def W6 (c : Dev nD) : Valuation τ sig (Elt F) :=
  Pipeline.withArrays spec1 c (W5 d0 m c) fun w => (d1 (V5 d0 m) c).arrAt w cfg1.N

/-- A window's array of the first region after the region. -/
theorem W4_arr (c : Dev nD) (w : Fin cfg0.W) :
    W4 d0 m c (Proc.devRef .tc (Pipeline.arrRef spec0 w)) = (d0 (V3 m) c).arrAt w cfg0.N := by
  unfold W4; exact Pipeline.withArrays_arr spec0 launch0.win.arr_inj c _ _ w
/-- A buffer that is no window's array of the first region is as the region found it. -/
theorem W4_of_ne (c : Dev nD) (b : Ref sig .tc) (hb : ∀ w, Pipeline.arrRef spec0 w ≠ b) :
    W4 d0 m c (Proc.devRef .tc b) = W3 m c (Proc.devRef .tc b) := by
  unfold W4; exact Pipeline.withArrays_of_ne spec0 c _ _ b hb
/-- A window's array of the second region after the region. -/
theorem W6_arr (c : Dev nD) (w : Fin cfg1.W) :
    W6 d0 d1 m c (Proc.devRef .tc (Pipeline.arrRef spec1 w)) = (d1 (V5 d0 m) c).arrAt w cfg1.N := by
  unfold W6; exact Pipeline.withArrays_arr spec1 launch1.win.arr_inj c _ _ w
/-- A buffer that is no window's array of the second region is as the region found it. -/
theorem W6_of_ne (c : Dev nD) (b : Ref sig .tc) (hb : ∀ w, Pipeline.arrRef spec1 w ≠ b) :
    W6 d0 d1 m c (Proc.devRef .tc b) = W5 d0 m c (Proc.devRef .tc b) := by
  unfold W6; exact Pipeline.withArrays_of_ne spec1 c _ _ b hb

end Cert.KernelIdeal.Hand

end
-- ==== Proof.KI.Run.lean ====
/-
  The entry function run from the launch to the return, for ANY two families of region proof data.

  The entry function is six items in order: three stretches of host operations, the first kernel region, a fourth
  stretch, the second kernel region. Between two items a TensorCore holds every unscoped buffer whole at the contents
  the fold W0 … W6 names, beside its generator register at some state and a record of owing nothing. A stretch of host
  operations moves the contents by its composed function. A region splits its windows' arrays out of the unscoped
  buffers, runs its pipeline, and puts the arrays back at what the write-backs left; the generator register and the
  scoped buffers no window stages pass through the region's invariant.

  What is asked of the two data families is exactly what that argument uses: the entry arrays are read off the entry
  contents, every input array is held at the full share, the body owes nothing at any point, the body obligation holds,
  and the invariant at the first and after the last point is interchangeable with the region class's invariant
  (the scoped rest and the generator register). The conclusion: every weakly fair execution terminates and every
  unscoped buffer of every core ends at W6. The nine argument arrays are then read back through the fold to the launch
  memory: no host operation writes an argument, and a region leaves an input window's array as it found it.
-/
import proofs.«403099_j88871463289481_2_alg».proof.Proof.KI.Vals
import proofs.«403099_j88871463289481_2_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Run

variable (d0 : Data0 F) (d1 : Data1 F)
  (hA0 : ∀ (V : Entry F) (c : Dev nD) (w : Fin cfg0.W), (d0 V c).A w = V c (Pipeline.arrRef spec0 w))
  (hA1 : ∀ (V : Entry F) (c : Dev nD) (w : Fin cfg1.W), (d1 V c).A w = V c (Pipeline.arrRef spec1 w))
  (hq0 : ∀ (V : Entry F) (c : Dev nD) (w : Fin cfg0.W), (d0 V c).q w = fullShare)
  (hq1 : ∀ (V : Entry F) (c : Dev nD) (w : Fin cfg1.W), (d1 V c).q w = fullShare)
  (ho0 : ∀ (V : Entry F) (c : Dev nD) (t : Fin (cfg0.N + 1)), (d0 V c).owed t = 0)
  (ho1 : ∀ (V : Entry F) (c : Dev nD) (t : Fin (cfg1.N + 1)), (d1 V c).owed t = 0)
  (hb0 : ∀ (V : Entry F) (c : Dev nD), BodyObligation (d0 V c) (defs₀ (F := F)) Variants.none () Set.univ)
  (hb1 : ∀ (V : Entry F) (c : Dev nD), BodyObligation (d1 V c) (defs₀ (F := F)) Variants.none () Set.univ)
  (hin0 : ∀ (V : Entry F) (c : Dev nD), Pipeline.ΦA spec0 c ⊢ (d0 V c).Φ 0)
  (hout0 : ∀ (V : Entry F) (c : Dev nD), (d0 V c).Φ (Fin.last cfg0.N) ⊢ Pipeline.ΦA spec0 c)
  (hin1 : ∀ (V : Entry F) (c : Dev nD), Pipeline.ΦA spec1 c ⊢ (d1 V c).Φ 0)
  (hout1 : ∀ (V : Entry F) (c : Dev nD), (d1 V c).Φ (Fin.last cfg1.N) ⊢ Pipeline.ΦA spec1 c)
  (hr0 : ∀ (V : Entry F) (c : Dev nD), (d0 V c).recorded 0 = Set.univ)
  (hr1 : ∀ (V : Entry F) (c : Dev nD), (d1 V c).recorded 0 = Set.univ)
  (m : (ℓ : Loc nD τ sig) → Buf (Elt F) ℓ) (ρ : Dev nD → PrngReg)

/-! ## The arguments end as launched -/

/-- A buffer none of the first three stretches writes holds its launch contents when the first region is entered. -/
theorem W3_of_host (c : Dev nD) (b : Ref sig .tc) (h0 : b ∉ hostOps0_W) (h1 : b ∉ hostOps0_1_W) (h2 : b ∉ hostOps0_2_W) :
    W3 m c (Proc.devRef .tc b) = m ((c : Thread nD τ).loc b) :=
  calc W3 m c (Proc.devRef .tc b)
    _ = W2 m c (Proc.devRef .tc b) := StableHlo.after_of_writes_sub hostOps0_2 _ hostOps0_2_writes h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-- A buffer the fourth stretch does not write is, when the second region is entered, as the first region left it. -/
theorem W5_of_host (c : Dev nD) (b : Ref sig .tc) (h : b ∉ hostOps1_W) :
    W5 d0 m c (Proc.devRef .tc b) = W4 d0 m c (Proc.devRef .tc b) :=
  StableHlo.after_of_writes_sub hostOps1 _ hostOps1_writes h

/-- A buffer that is no window's array of either region and that no stretch writes ends as launched. -/
theorem W6_of_untouched (c : Dev nD) (b : Ref sig .tc) (hr1 : ∀ w, Pipeline.arrRef spec1 w ≠ b) (hr0 : ∀ w, Pipeline.arrRef spec0 w ≠ b)
    (h0 : b ∉ hostOps0_W) (h1 : b ∉ hostOps0_1_W) (h2 : b ∉ hostOps0_2_W) (h3 : b ∉ hostOps1_W) :
    W6 d0 d1 m c (Proc.devRef .tc b) = m ((c : Thread nD τ).loc b) :=
  calc W6 d0 d1 m c (Proc.devRef .tc b)
    _ = W5 d0 m c (Proc.devRef .tc b) := W6_of_ne d0 d1 m c b hr1
    _ = W4 d0 m c (Proc.devRef .tc b) := W5_of_host d0 m c b h3
    _ = W3 m c (Proc.devRef .tc b) := W4_of_ne d0 m c b hr0
    _ = m ((c : Thread nD τ).loc b) := W3_of_host m c b h0 h1 h2

section Args
include hA0 hA1

/-- The first argument is the first region's first input window's array: the region leaves it as entered. -/
theorem W6_main_arg0 (c : Dev nD) : W6 d0 d1 m c (Proc.devRef .tc main_arg0) = m ((c : Thread nD τ).loc main_arg0) :=
  calc W6 d0 d1 m c (Proc.devRef .tc main_arg0)
    _ = W5 d0 m c (Proc.devRef .tc main_arg0) := W6_of_ne d0 d1 m c main_arg0 (by decide)
    _ = W4 d0 m c (Proc.devRef .tc main_arg0) := W5_of_host d0 m c main_arg0 (by decide)
    _ = W3 m c (Proc.devRef .tc main_arg0) :=
          (W4_arr d0 m c 0).trans (((d0 (V3 m) c).arrAt_in 0 rfl _).trans (hA0 (V3 m) c 0))
    _ = m ((c : Thread nD τ).loc main_arg0) := W3_of_host m c main_arg0 (by decide) (by decide) (by decide)

theorem W6_main_arg1 (c : Dev nD) : W6 d0 d1 m c (Proc.devRef .tc main_arg1) = m ((c : Thread nD τ).loc main_arg1) :=
  W6_of_untouched d0 d1 m c main_arg1 (by decide) (by decide) (by decide) (by decide) (by decide) (by decide)

/-- The third argument is the second region's second input window's array: the region leaves it as entered. -/
theorem W6_main_arg2 (c : Dev nD) : W6 d0 d1 m c (Proc.devRef .tc main_arg2) = m ((c : Thread nD τ).loc main_arg2) :=
  calc W6 d0 d1 m c (Proc.devRef .tc main_arg2)
    _ = W5 d0 m c (Proc.devRef .tc main_arg2) :=
          (W6_arr d0 d1 m c 1).trans (((d1 (V5 d0 m) c).arrAt_in 1 rfl _).trans (hA1 (V5 d0 m) c 1))
    _ = W4 d0 m c (Proc.devRef .tc main_arg2) := W5_of_host d0 m c main_arg2 (by decide)
    _ = W3 m c (Proc.devRef .tc main_arg2) := W4_of_ne d0 m c main_arg2 (by decide)
    _ = m ((c : Thread nD τ).loc main_arg2) := W3_of_host m c main_arg2 (by decide) (by decide) (by decide)

theorem W6_main_arg3 (c : Dev nD) : W6 d0 d1 m c (Proc.devRef .tc main_arg3) = m ((c : Thread nD τ).loc main_arg3) :=
  W6_of_untouched d0 d1 m c main_arg3 (by decide) (by decide) (by decide) (by decide) (by decide) (by decide)
theorem W6_main_arg4 (c : Dev nD) : W6 d0 d1 m c (Proc.devRef .tc main_arg4) = m ((c : Thread nD τ).loc main_arg4) :=
  W6_of_untouched d0 d1 m c main_arg4 (by decide) (by decide) (by decide) (by decide) (by decide) (by decide)
theorem W6_main_arg5 (c : Dev nD) : W6 d0 d1 m c (Proc.devRef .tc main_arg5) = m ((c : Thread nD τ).loc main_arg5) :=
  W6_of_untouched d0 d1 m c main_arg5 (by decide) (by decide) (by decide) (by decide) (by decide) (by decide)
theorem W6_main_arg6 (c : Dev nD) : W6 d0 d1 m c (Proc.devRef .tc main_arg6) = m ((c : Thread nD τ).loc main_arg6) :=
  W6_of_untouched d0 d1 m c main_arg6 (by decide) (by decide) (by decide) (by decide) (by decide) (by decide)
theorem W6_main_arg7 (c : Dev nD) : W6 d0 d1 m c (Proc.devRef .tc main_arg7) = m ((c : Thread nD τ).loc main_arg7) :=
  W6_of_untouched d0 d1 m c main_arg7 (by decide) (by decide) (by decide) (by decide) (by decide) (by decide)
theorem W6_main_arg8 (c : Dev nD) : W6 d0 d1 m c (Proc.devRef .tc main_arg8) = m ((c : Thread nD τ).loc main_arg8) :=
  W6_of_untouched d0 d1 m c main_arg8 (by decide) (by decide) (by decide) (by decide) (by decide) (by decide)

end Args

/-! ## The proof data family and the thread state -/

/-- The prefetched tables' admissible contents: neither region has a table. -/
abbrev tabs : (p : Fin 2) → (pcfgs (F := F) p).Adm := fun p => (cfgs p).toPCfg_adm

/-- Each region's proof data at the contents the region is entered with, by a literal case split on the region's
    index (so that the pinned configuration at a numeral reduces to the printed one). -/
def pdats : (p : Fin 2) → (c : Dev nD) → Dat τ (Elt F) Unit ℕ (UR sig nD τ) ℕ (Pipeline.pin (pcfgs (F := F)) tabs p) c
  | ⟨0, _⟩ => fun c => d0 (V3 m) c
  | ⟨1, _⟩ => fun c => d1 (V5 d0 m) c

/-- No variant is assigned, -/
abbrev 𝒱ₙ : Variants := Variants.none
/-- no core owes another anything, so no level is assigned. -/
abbrev Lₙ : GSem nD τ sig → Finset Unit := fun _ => ∅
abbrev lvₙ : GSem nD τ sig → Unit → ℕ := fun _ _ => 0

/-- What rides beside the buffers through every item: the generator register at some state, and owing nothing. -/
abbrev Ride (c : Dev nD) : sProp 𝕄 := iprop((∃ r, prngReg c r) ∗ ∃ W, owes (c : Thread nD τ) (0 : CellTallies nD τ sig Unit) W)

/-- A stretch of host operations as an item: over the unscoped references from the contents W, Ride beside them. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- The last thread state without the record of owing nothing: every unscoped buffer at W6, the generator register. -/
abbrev Last (c : Dev nD) : sProp 𝕄 :=
  iprop(StableHlo.held (c : Thread nD τ) (Pipeline.ucRefs τ sig) (W6 d0 d1 m c) ∗ ∃ r, prngReg c r)

/-- At each region's exit its arrays hold what the pipeline leaves, every other buffer what it held at entry. -/
theorem exitArr0 (c : Dev nD) (w : Fin cfg0.W) : (d0 (V3 m) c).arrAt w cfg0.N = W4 d0 m c (Pipeline.arrRef spec0 w) :=
  (W4_arr d0 m c w).symm
theorem exitRest0 (c : Dev nD) : ∀ b : Ref sig .tc, b ∉ Finset.univ.image (Pipeline.arrRef spec0) → W4 d0 m c b = V3 m c b :=
  fun b hb => W4_of_ne d0 m c b fun w e => hb (Finset.mem_image.mpr ⟨w, Finset.mem_univ _, e⟩)
theorem exitArr1 (c : Dev nD) (w : Fin cfg1.W) : (d1 (V5 d0 m) c).arrAt w cfg1.N = W6 d0 d1 m c (Pipeline.arrRef spec1 w) :=
  (W6_arr d0 d1 m c w).symm
theorem exitRest1 (c : Dev nD) : ∀ b : Ref sig .tc, b ∉ Finset.univ.image (Pipeline.arrRef spec1) → W6 d0 d1 m c b = V5 d0 m c b :=
  fun b hb => W6_of_ne d0 d1 m c b fun w e => hb (Finset.mem_image.mpr ⟨w, Finset.mem_univ _, e⟩)

/-! ## The regions as items -/

section Regs

set_option backward.isDefEq.respectTransparency.types false in
/-- The first region: entered from every unscoped buffer at W3, left at W4. -/
def reg0 : Pipeline.RegionSeg (pcfgs (F := F)) tabs (pdats d0 d1 m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (hb0 (V3 m) c).loose
  hwaits := Pipeline.hwaits_of_owed_zero _ _ _ _ Lₙ lvₙ 0 fun c t => ho0 (V3 m) c t
  pre c := iprop(StableHlo.held (c : Thread nD τ) (Pipeline.ucRefs τ sig) (W3 m c) ∗ Ride c)
  post c := iprop(StableHlo.held (c : Thread nD τ) (Pipeline.ucRefs τ sig) (W4 d0 m c) ∗ Ride c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) tabs (pdats d0 d1 m) launch0.win launch0.arr_whole c
      ((pdats d0 d1 m 0 c).share_full fun w => hq0 (V3 m) c w) (V3 m c) fun w => hA0 (V3 m) c w
    rw [Pipeline.unscopedBufs_held] at hsplit
    have e0 : (pdats d0 d1 m 0 c).owed 0 = 0 := ho0 (V3 m) c 0
    have er : (pdats d0 d1 m 0 c).recorded 0 = Set.univ := hr0 (V3 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [e0, er]
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    unfold Pipeline.ΦA
    iintro ⟨Hp, -, Hr⟩
    isplitl [Hr]; · iexact Hr
    iexact Hp
  hout c := by
    rw [Pipeline.ownSems0_none]
    refine (hout0 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats d0 d1 m) ((pdats d0 d1 m 0 c).share_full fun w => hq0 (V3 m) c w)
      (V3 m c) (fun b => W4 d0 m c b) ((pdats d0 d1 m 0 c).arrAt · cfg0.N) (exitArr0 d0 m c) (exitRest0 d0 m c)
    rw [Pipeline.unscopedBufs_held] at hjoin
    have eN : (pdats d0 d1 m 0 c).owed (Fin.last (Pipeline.pin (pcfgs (F := F)) tabs 0).N) = 0 := ho0 (V3 m) c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- The second region: entered from every unscoped buffer at W5, left at W6 (what the launch reads at the end). -/
def reg1 : Pipeline.RegionSeg (pcfgs (F := F)) tabs (pdats d0 d1 m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (hb1 (V5 d0 m) c).loose
  hwaits := Pipeline.hwaits_of_owed_zero _ _ _ _ Lₙ lvₙ 1 fun c t => ho1 (V5 d0 m) c t
  pre c := iprop(StableHlo.held (c : Thread nD τ) (Pipeline.ucRefs τ sig) (W5 d0 m c) ∗ Ride c)
  post c := iprop(Last d0 d1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 d0 m c)
  hentry c := by
    rw [Pipeline.ownSems0_none]
    have hsplit := Pipeline.arrays_of_unscopedBufs (p := 1) (pcfgs (F := F)) tabs (pdats d0 d1 m) launch1.win launch1.arr_whole c
      ((pdats d0 d1 m 1 c).share_full fun w => hq1 (V5 d0 m) c w) (V5 d0 m c) fun w => hA1 (V5 d0 m) c w
    rw [Pipeline.unscopedBufs_held] at hsplit
    have e0 : (pdats d0 d1 m 1 c).owed 0 = 0 := ho1 (V5 d0 m) c 0
    have er : (pdats d0 d1 m 1 c).recorded 0 = Set.univ := hr1 (V5 d0 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [e0, er]
      icases HO with ⟨%W, HO⟩; iexists W; isplitr; · ipureintro; exact fun _ _ => Or.inl trivial
      iexact HO
    isplitl [Hp]; · iexact Hp
    iexact Hrest
  hin c := by
    refine BIBase.Entails.trans ?_ (hin1 (V5 d0 m) c)
    unfold Pipeline.ΦA
    iintro ⟨Hp, -, Hr⟩
    isplitl [Hr]; · iexact Hr
    iexact Hp
  hout c := by
    rw [Pipeline.ownSems0_none]
    refine (hout1 (V5 d0 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats d0 d1 m) ((pdats d0 d1 m 1 c).share_full fun w => hq1 (V5 d0 m) c w)
      (V5 d0 m c) (fun b => W6 d0 d1 m c b) ((pdats d0 d1 m 1 c).arrAt · cfg1.N) (exitArr1 d0 d1 m c) (exitRest1 d0 d1 m c)
    rw [Pipeline.unscopedBufs_held] at hjoin
    have eN : (pdats d0 d1 m 1 c).owed (Fin.last (Pipeline.pin (pcfgs (F := F)) tabs 1).N) = 0 := ho1 (V5 d0 m) c (Fin.last _)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [eN]
    icases HO with ⟨%W, -, HO⟩; iexists W; iexact HO

local notation "𝓡₀" => reg0 d0 d1 hA0 hq0 ho0 hb0 hin0 hout0 hr0 m
local notation "𝓡₁" => reg1 d0 d1 hA1 hq1 ho1 hb1 hin1 hout1 hr1 m

/-! ## The entry function as its items, and the launch -/

/-- The six items in order. -/
abbrev items : List (Pipeline.Seg (pcfgs (F := F)) tabs (pdats d0 d1 m) () defs₀ 𝒱ₙ Lₙ lvₙ) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region 𝓡₀,
    .host (stretch hostOps1 hostOps1_sub hostOps1_fresh (W4 d0 m)),
    .region 𝓡₁ ]

local notation "𝓘" => items d0 d1 hA0 hA1 hq0 hq1 ho0 ho1 hb0 hb1 hin0 hout0 hin1 hout1 hr0 hr1 m

include hA0 hA1 hq0 hq1 ho0 ho1 hb0 hb1 hin0 hout0 hin1 hout1 hr0 hr1 in
set_option backward.isDefEq.respectTransparency.types false in
/-- THE RUN. From any memory with zero counters, every weakly fair execution of the entry function on the TensorCores
    terminates, nothing faulting, and in every final state each core's every unscoped buffer holds W6. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 d0 d1 m c b) :=
  Pipeline.θ_run_regions_kit_dev (pcfgs (F := F)) tabs (pdats d0 d1 m) () cellOf_inj emb₁ defs₀ 𝒱ₙ Lₙ lvₙ m ρ main (fun _ => 𝓘)
    (fun c Q => by
      rewrite [main_chain c, Pipeline.Seg.run_eq_chain,
        show (𝓘).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Last d0 d1 m)
    (hch := fun c => ⟨.rfl, .rfl, .rfl, .rfl, .rfl, .rfl, .rfl⟩)
    (hinit := by
      refine Pipeline.initEach Lₙ lvₙ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 d0 d1 m c b)
    (hfin := fun c s' => by
      iintro ⟨⟨Hh, -⟩, HSI⟩
      unfold StableHlo.held
      imodintro
      iapply (pointsTo_read_all (Pipeline.ucRefs τ sig) (fun b => (((c : Thread nD τ)).1, b)) (W6 d0 d1 m c) s')
      isplitl [Hh] <;> iassumption)
    (hQ := fun s h c => h c)

end Regs

end Run

end Cert.KernelIdeal.Hand

end
-- ==== Proof.KI.Region0.lean ====
import proofs.«403099_j88871463289481_2_alg».proof.Proof.Gen.KernelIdeal.Launch
import proofs.«403099_j88871463289481_2_alg».proof.Proof.Gen.KernelIdeal.Skeleton
import proofs.«403099_j88871463289481_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the embedding kernel on its one grid point

The first kernel region has a grid of a single point. Its five windows are whole arrays: three inputs (the edge
context, the weight, the bias row) and two outputs (the head half and the tail half of the embedded rows). The
body reads the three inputs whole, and overwrites each output buffer whole with a payload of the three inputs.
Everything is stated at a parameter V: the contents of the core's buffers when the region is entered. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each the whole of its buffer -/

abbrev r0_a : Rect S1280x512 := Rect.unit (s := S1280x512) ![0, 0] S1280x512.size Gen.inb_S1280x512_S1280x512_0_0
abbrev r0_b : Rect S512x1024 := Rect.unit (s := S512x1024) ![0, 0] S512x1024.size Gen.inb_S512x1024_S512x1024_0_0
abbrev r0_c : Rect S1x1024 := Rect.unit (s := S1x1024) ![0, 0] S1x1024.size Gen.inb_S1x1024_S1x1024_0_0

/-! ## What the body leaves in each output window's buffer -/

/-- The head half's buffer after the body: one store of the whole buffer, its payload a function of the three
    inputs read whole. -/
def out0_3 (x0 : Vec F S1280x512 .f32) (x1 : Vec F S512x1024 .bf16) (x2 : Vec F S1x1024 .f32) : Vec F S1280x512 .bf16 :=
  View.canon [⟨r0_a, k0_pay2 (View.ld x0 r0_a) (View.ld x1 r0_b) (View.ld x2 r0_c)⟩]

/-- The tail half's buffer after the body, likewise. -/
def out0_4 (x0 : Vec F S1280x512 .f32) (x1 : Vec F S512x1024 .bf16) (x2 : Vec F S1x1024 .f32) : Vec F S1280x512 .bf16 :=
  View.canon [⟨r0_a, k0_pay3 (View.ld x0 r0_a) (View.ld x1 r0_b) (View.ld x2 r0_c)⟩]

/-! ## The pipeline's proof data -/

/-- The proof data of the region on core c: the arrays as the region finds them; after the body each input's
    buffer at its block and each output's at its payload of the input blocks; the invariant that of a region whose
    body touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The inputs' buffers hold their blocks -/

/-- An input window's current staging buffer holds its block at the point, fetched there or not, for any proof
    data whose array is the entry contents and whose body leaves the block in place: the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

/-- A single store of the whole buffer covers it. -/
theorem cover0 (p0 : Vec F S1280x512 .bf16) (y : S1280x512.Idx) :
    ∃ pc ∈ ([⟨r0_a, p0⟩] : List (View.Piece (Elt F) S1280x512 .bf16)), y ∈ pc.1.set :=
  View.cover_of_tiled [⟨r0_a, p0⟩] S1280x512.size (by rfl) y

set_option maxHeartbeats 1000000 in
/-- The body on whole staging memrefs, the inputs' at read contents and the outputs' at anything, runs to the
    continuation holding the inputs' as they were and each output's at its payload of the inputs. -/
theorem sound_kernel0 (c : Dev nD) (E : Set ℕ) (i : grid0.Coords)
    (arg1 : Memref sig .tc .vmem S1280x512 .f32) (harg1 : arg1.IsWhole)
    (arg2 : Memref sig .tc .vmem S512x1024 .bf16) (harg2 : arg2.IsWhole)
    (arg3 : Memref sig .tc .vmem S1x1024 .f32) (harg3 : arg3.IsWhole)
    (arg4 : Memref sig .tc .vmem S1280x512 .bf16) (harg4 : arg4.IsWhole)
    (arg5 : Memref sig .tc .vmem S1280x512 .bf16) (harg5 : arg5.IsWhole)
    (x0 : Vec F S1280x512 .f32) (x1 : Vec F S512x1024 .bf16) (x2 : Vec F S1x1024 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)) -∗ K ⟨⟩))
      ⊢ wp frame (wpE (defs₀ (F := F)) Variants.none c none) E
          (cc0__post_emb_kernel i arg1 harg1 arg2 harg2 arg3 harg3 arg4 harg4 arg5 harg5) K := by
  simp only [cc0__post_emb_kernel_eq_skeleton]; unfold cc0__post_emb_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The body obligation, at the point -/

/-- What the body is called with at point t: the invariant, the dues, and each window's current staging buffer
    at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at the point: the inputs' memrefs hold their blocks, so the body's triple applies; the invariant
    and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Runs.lean ====
import proofs.«403099_j88871463289481_2_alg».proof.Proof.Gen.KernelIdeal.Launch
import proofs.«403099_j88871463289481_2_alg».proof.Proof.Gen.KernelIdeal.Skeleton
import proofs.«403099_j88871463289481_2_alg».proof.Proof.Gen.KernelIdeal.Points
import Idealize.ShloMosaic.Lib.Pipeline.FrameBody
import Idealize.ShloMosaic.Lib.Ring
import Idealize.ShloMosaic.Lib.Tactic

/-! # The second region's body, run whole

The second region walks a grid of 256 × 2 points; point t has coordinates (t / 2, t % 2).
Its body has one conditional, on the second coordinate being zero. Where it is taken the body
fills a carried scratch of 256 × 1024 from the two index columns and the two tables (left half,
right half); in both cases it then reads the whole scratch, the column slices of the weights
and biases at the second coordinate, and the point's block of the second input, and stores the
product tile whole into the output block. So there are two runs: one in which the scratch is
written (and may start at anything), one in which it is only read (and is handed back as found). -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's condition -/

/-- The body's one condition: the second grid coordinate is zero (as the body computes it, on 32-bit words). -/
abbrev cond1_0 (i : grid1.Coords) : Prop := (Scalar.cmpi .ne (Scalar.extui (Scalar.cmpi .eq (BitVec.ofNat 32 (i 1).val) 0#32)) 0#32) = 1#1

/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-! ## The buffers the body is handed at a point -/

/-- Window 0's current staging buffer at a point, and that it is a whole buffer. -/
abbrev ms1_0 (t : Fin cfg1.N) : Memref sig .tc .vmem S256x2 .i32 := win1_0.stage (cfg1.slots t 0)
abbrev hs1_0 (t : Fin cfg1.N) : (ms1_0 t).IsWhole := hstage1_0 ((cfg1.slots t 0).cast nbuf1_0)
/-- Window 1's current staging buffer at a point, and that it is a whole buffer. -/
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
/-- Window 2's current staging buffer at a point, and that it is a whole buffer. -/
abbrev ms1_2 (t : Fin cfg1.N) : Memref sig .tc .vmem S1280x512 .bf16 := win1_2.stage (cfg1.slots t 2)
abbrev hs1_2 (t : Fin cfg1.N) : (ms1_2 t).IsWhole := hstage1_2 ((cfg1.slots t 2).cast nbuf1_2)
/-- Window 3's current staging buffer at a point, and that it is a whole buffer. -/
abbrev ms1_3 (t : Fin cfg1.N) : Memref sig .tc .vmem S1280x512 .bf16 := win1_3.stage (cfg1.slots t 3)
abbrev hs1_3 (t : Fin cfg1.N) : (ms1_3 t).IsWhole := hstage1_3 ((cfg1.slots t 3).cast nbuf1_3)
/-- Window 4's current staging buffer at a point, and that it is a whole buffer. -/
abbrev ms1_4 (t : Fin cfg1.N) : Memref sig .tc .vmem S1024x4096 .bf16 := win1_4.stage (cfg1.slots t 4)
abbrev hs1_4 (t : Fin cfg1.N) : (ms1_4 t).IsWhole := hstage1_4 ((cfg1.slots t 4).cast nbuf1_4)
/-- Window 5's current staging buffer at a point, and that it is a whole buffer. -/
abbrev ms1_5 (t : Fin cfg1.N) : Memref sig .tc .vmem S1x4096 .f32 := win1_5.stage (cfg1.slots t 5)
abbrev hs1_5 (t : Fin cfg1.N) : (ms1_5 t).IsWhole := hstage1_5 ((cfg1.slots t 5).cast nbuf1_5)
/-- Window 6's current staging buffer at a point, and that it is a whole buffer. -/
abbrev ms1_6 (t : Fin cfg1.N) : Memref sig .tc .vmem S2048x4096 .bf16 := win1_6.stage (cfg1.slots t 6)
abbrev hs1_6 (t : Fin cfg1.N) : (ms1_6 t).IsWhole := hstage1_6 ((cfg1.slots t 6).cast nbuf1_6)
/-- Window 7's current staging buffer at a point, and that it is a whole buffer. -/
abbrev ms1_7 (t : Fin cfg1.N) : Memref sig .tc .vmem S1x4096 .f32 := win1_7.stage (cfg1.slots t 7)
abbrev hs1_7 (t : Fin cfg1.N) : (ms1_7 t).IsWhole := hstage1_7 ((cfg1.slots t 7).cast nbuf1_7)
/-- Window 8's current staging buffer at a point, and that it is a whole buffer. -/
abbrev ms1_8 (t : Fin cfg1.N) : Memref sig .tc .vmem S256x2048 .f32 := win1_8.stage (cfg1.slots t 8)
abbrev hs1_8 (t : Fin cfg1.N) : (ms1_8 t).IsWhole := hstage1_8 ((cfg1.slots t 8).cast nbuf1_8)

/-- The scratch: a whole buffer of the region's own, passed beside the windows and carried from point to point. -/
abbrev scM1_0 : Memref sig .tc .vmem S256x1024 .bf16 := Memref.whole cc1_scratch0
/-- The scratch as a view: what it holds is stated through it. -/
abbrev VS1_0 : View sig .tc .vmem S256x1024 .bf16 := scM1_0.view
/-- One staging buffer of the output window, through which its contents are stated (the choice does not matter). -/
abbrev VO1_8 : View sig .tc .vmem S256x2048 .f32 := (Memref.whole cc1_stg8_0 : Memref sig .tc .vmem S256x2048 .f32).view

/-- What the region's invariant owns beside the windows: the first region's five staging buffers at anything,
    the scratch at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scM1_0 fullShare d)) ∗ (∃ r, prngReg c r)) := by
  unfold Pipeline.ΦA; rw [scopedRest1_eq]; simp only [scM1_0, owns_whole]; try rfl

/-! ## The two runs -/

set_option maxHeartbeats 4000000 in
/-- The body where the condition holds (second coordinate zero). On whole buffers, the eight inputs' at their
    contents, the output's and the scratch at anything, the body runs to a continuation that holds the inputs'
    as they were, the output's with the pieces L8 written and the scratch with the pieces LS0 written. The
    pieces (last store first) are part of the statement: the run determines them. The scratch gets two pieces, its
    left and right halves; the output one piece, the whole tile. -/
noncomputable def kernelRun1_A (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) :
    Σ' (L8 : List (View.Piece (Elt F) S256x2048 .f32)), { LS0 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

set_option maxHeartbeats 4000000 in
/-- The body where the condition fails (second coordinate not zero): the scratch is only read. On whole buffers,
    the eight inputs' at their contents, the scratch at the contents xs0 the point before left, the output's at
    anything, the body runs to a continuation that holds the inputs' and the scratch as they were and the output's
    with the pieces L8 written (one piece, the whole tile). -/
noncomputable def kernelRun1_B (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (xs0 : Vec F S256x1024 .bf16) :
    { L8 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.KernelIdeal.Hand

end
-- ==== Proof.KI.Region1.lean ====
import proofs.«403099_j88871463289481_2_alg».proof.Proof.KI.Region1Runs
import Idealize.ShloMosaic.Lib.Pipeline.FrameBody
import Idealize.ShloMosaic.Lib.Ring
import Idealize.ShloMosaic.Lib.Tactic

/-! # The second region at given entry contents

Everything here is stated at a parameter V: the buffers' contents when the region is entered. Each
input window's staging buffer holds, at every point, that window's block of its array at V. The
output window's buffer and the carried scratch after point n are given by a recursion over n: an
even point fills the scratch from the point's index block and the two tables and stores the product
tile; an odd point reads the scratch the point before left, leaves it as it is, and stores the
product tile. The region's invariant owns the scratch at exactly those contents. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data over the entry arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data over the entry arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data over the entry arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data over the entry arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data over the entry arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, the
    block index has not moved), for any proof data over the entry arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not (unfetched, the
    block index has not moved), for any proof data over the entry arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not (unfetched, the
    block index has not moved), for any proof data over the entry arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves in the output block and in the scratch -/

/-- Where the condition holds, the pieces stored into the output block cover it (one piece, the whole tile). -/
theorem cover1_A_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (y : S256x2048.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).1 S256x2048.size (by sl_kernel_rfl) y

/-- What that case leaves in the output block: its pieces read back. -/
def out1_A_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) : Vec F S256x2048 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3 x4 x5 x6 x7).1)

/-- Where the condition holds, the pieces stored into the scratch cover it (two pieces: its left and right halves). -/
theorem scover1_A_0 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (y : S256x1024.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).2.1 S256x512.size (by sl_kernel_rfl) y

/-- What that case leaves in the scratch: its pieces read back. -/
def sout1_A_0 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) : Vec F S256x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6 x7).2.1)

/-- Where the condition fails, the pieces stored into the output block cover it (one piece, the whole tile). -/
theorem cover1_B_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (xs0 : Vec F S256x1024 .bf16) (y : S256x2048.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 xs0).1 S256x2048.size (by sl_kernel_rfl) y

/-- What that case leaves in the output block, over the scratch contents it found: its pieces read back. -/
def out1_B_8 (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i)
    (x0 : Vec F S256x2 .i32) (x1 : Vec F S256x2048 .f32) (x2 : Vec F S1280x512 .bf16) (x3 : Vec F S1280x512 .bf16) (x4 : Vec F S1024x4096 .bf16) (x5 : Vec F S1x4096 .f32) (x6 : Vec F S2048x4096 .bf16) (x7 : Vec F S1x4096 .f32) (xs0 : Vec F S256x1024 .bf16) : Vec F S256x2048 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 x6 x7 xs0).1)

section Region1

variable (V : (c : Dev nD) → (b : Ref sig .tc) → Buf (Elt F) ((c : Thread nD τ).loc b))

/-! ## What the output block and the scratch hold after each point -/

/-- The output tile and the scratch after the body at position n. An even position fills the scratch from the
    point's blocks; an odd position computes over the scratch the position before left, and leaves it unchanged. -/
def outsAt1 (c : Dev nD) : (n : ℕ) → n < cfg1.N → Vec F S256x2048 .f32 × Vec F S256x1024 .bf16
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 2 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, (outsAt1 c n (Nat.lt_of_succ_lt hn)).2)

/-- At an even point: the scratch is filled from the point's blocks, and the tile computed over it. -/
theorem outsAt1_A (c : Dev nD) (t : Fin cfg1.N) (h : t.val % 2 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h).trans rfl

/-- At an odd point: the tile is computed over the scratch the point before left, which stays as it is. -/
theorem outsAt1_B (c : Dev nD) (t : Fin cfg1.N) (h : ¬t.val % 2 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h' => h ((hcond1_0 t).mp h')) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h); exact absurd (Nat.zero_mod _) h)
  | succ n => exact (dif_neg h).trans rfl

/-! ## The region's invariant -/

/-- Before position n: at the start what the launch hands over (the scratch at anything); afterwards the first
    region's staging buffers at anything, the scratch at what the position before left, and the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core c: the arrays at the entry contents; after the body at point t
    each input's buffer at its block and the output's at the tile of that point; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4800000 in
/-- The body at any point. The inputs' buffers hold their blocks. At an even point the invariant hands the body
    the scratch (at anything at the first point, at what the point before left afterwards) and takes it back
    filled from the point's blocks; at an odd point it hands the scratch at what the point before left and takes
    it back unchanged. The first region's staging buffers, the generator register and the core's debts pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8]
  by_cases h0 : t.val % 2 = 0
  · rw [outsAt1_A V c t h0]
    unfold out1_A_8 sout1_A_0; (try dsimp only)
    by_cases hz : t.val = 0
    · rw [PhiS1_castSucc V c t, PhiS1_zero V c _ _ hz, PhiA1_eq]
      iintro ⟨⟨⟨Hg0, Hg1, Hg2, Hg3, Hg4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [Hg0 Hg1 Hg2 Hg3 Hg4 HS0 Hg]
      · isplitl [Hg0 Hg1 Hg2 Hg3 Hg4 HS0]
        · isplitl [Hg0]; · iexact Hg0
          isplitl [Hg1]; · iexact Hg1
          isplitl [Hg2]; · iexact Hg2
          isplitl [Hg3]; · iexact Hg3
          isplitl [Hg4]; · iexact Hg4
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
    · rw [PhiS1_castSucc V c t, PhiS1_pos V c _ _ hz]
      iintro ⟨⟨⟨Hg0, Hg1, Hg2, Hg3, Hg4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [Hg0 Hg1 Hg2 Hg3 Hg4 HS0 Hg]
      · isplitl [Hg0 Hg1 Hg2 Hg3 Hg4 HS0]
        · isplitl [Hg0]; · iexact Hg0
          isplitl [Hg1]; · iexact Hg1
          isplitl [Hg2]; · iexact Hg2
          isplitl [Hg3]; · iexact Hg3
          isplitl [Hg4]; · iexact Hg4
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
  · have hz : t.val ≠ 0 := fun e => h0 (by rw [e])
    rw [outsAt1_B V c t h0]
    unfold out1_B_8; (try dsimp only)
    rw [PhiS1_castSucc V c t, PhiS1_pos V c _ _ hz]
    iintro ⟨⟨⟨Hg0, Hg1, Hg2, Hg3, Hg4, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, HS0⟩
    isplitl [Hg0 Hg1 Hg2 Hg3 Hg4 HS0 Hg]
    · isplitl [Hg0 Hg1 Hg2 Hg3 Hg4 HS0]
      · isplitl [Hg0]; · iexact Hg0
        isplitl [Hg1]; · iexact Hg1
        isplitl [Hg2]; · iexact Hg2
        isplitl [Hg3]; · iexact Hg3
        isplitl [Hg4]; · iexact Hg4
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hg0, Hg1, Hg2, Hg3, Hg4, HS0⟩, Hg⟩
  isplitl [Hg0 Hg1 Hg2 Hg3 Hg4 HS0]
  · isplitl [Hg0]; · iexact Hg0
    isplitl [Hg1]; · iexact Hg1
    isplitl [Hg2]; · iexact Hg2
    isplitl [Hg3]; · iexact Hg3
    isplitl [Hg4]; · iexact Hg4
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Region1

end Cert.KernelIdeal.Hand

end
-- ==== Proof.KI.Frame.lean ====
/-
  The frame of the whole program at any float instance: run from any memory, every weakly fair execution terminates without a
  fault and each of the nine argument arrays ends as launched. It is the run over the six segments, instantiated at the two
  regions' proof data, with the final memory read at the arguments: no host operation writes an argument, and a region reads an
  argument through an input window or not at all.
-/
import proofs.«403099_j88871463289481_2_alg».proof.Proof.KI.Run
import proofs.«403099_j88871463289481_2_alg».proof.Proof.KI.Region0
import proofs.«403099_j88871463289481_2_alg».proof.Proof.KI.Region1

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The first region's proof data as a function of its entry contents. -/
abbrev D0 : Data0 F := fun V c => dat0 V c
/-- The second region's. -/
abbrev D1 : Data1 F := fun V c => dat1 V c

/-- The run over the six segments at the two regions' proof data: every unscoped buffer ends at the last boundary's contents. -/
theorem run_data (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W6 D0 D1 m c b) :=
  run_all (F := F) D0 D1 (fun V c w => A_eq0 V c w) (fun V c w => A_eq1 V c w) (fun _ _ _ => rfl) (fun _ _ _ => rfl)
    (fun _ _ _ => rfl) (fun _ _ _ => rfl) (fun V c => body_obligation0 V c) (fun V c => body_obligation1 V c)
    (fun _ _ => .rfl) (fun _ _ => .rfl) (fun V c => hin1 V c) (fun V c => hout1 V c) (fun _ _ => rfl) (fun _ _ => rfl) m ρ

/-- The frame: the nine argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 D0 D1 (fun V c w => A_eq0 V c w) (fun V c w => A_eq1 V c w) m c),
     (h c _ (mem_uc main_arg1 (by decide))).trans (W6_main_arg1 D0 D1 (fun V c w => A_eq0 V c w) (fun V c w => A_eq1 V c w) m c),
     (h c _ (mem_uc main_arg2 (by decide))).trans (W6_main_arg2 D0 D1 (fun V c w => A_eq0 V c w) (fun V c w => A_eq1 V c w) m c),
     (h c _ (mem_uc main_arg3 (by decide))).trans (W6_main_arg3 D0 D1 (fun V c w => A_eq0 V c w) (fun V c w => A_eq1 V c w) m c),
     (h c _ (mem_uc main_arg4 (by decide))).trans (W6_main_arg4 D0 D1 (fun V c w => A_eq0 V c w) (fun V c w => A_eq1 V c w) m c),
     (h c _ (mem_uc main_arg5 (by decide))).trans (W6_main_arg5 D0 D1 (fun V c w => A_eq0 V c w) (fun V c w => A_eq1 V c w) m c),
     (h c _ (mem_uc main_arg6 (by decide))).trans (W6_main_arg6 D0 D1 (fun V c w => A_eq0 V c w) (fun V c w => A_eq1 V c w) m c),
     (h c _ (mem_uc main_arg7 (by decide))).trans (W6_main_arg7 D0 D1 (fun V c w => A_eq0 V c w) (fun V c w => A_eq1 V c w) m c),
     (h c _ (mem_uc main_arg8 (by decide))).trans (W6_main_arg8 D0 D1 (fun V c w => A_eq0 V c w) (fun V c w => A_eq1 V c w) m c)⟩)
    (run_data m ρ)

end Cert.KernelIdeal.Hand

end
-- ==== Proof.Spec.lean ====
/-
  The mathematics both programs compute, index by index over the extended reals, stated once and over no program.

  emb e w b r c is entry (r, c) of relu(e · w + b): the 1280 × 1024 table whose left half (columns below 512) is the
  head representation of an object and whose right half its tail representation. rowOf v reads an index word as a row
  of that table. pairRow is, for one relation, the head half of its subject's row followed by the tail half of its
  object's row: the concatenated feature of length 1024. fusedAt is one entry of the result: the concatenated feature
  times a column of the first weight matrix plus its bias, multiplied by the relation's own feature row times the same
  column of the second weight matrix plus its bias.

  The same functions are also given over the two half tables held apart (pairRowOf, fusedOf), which is how the second of
  the two kernels sees them; pairRow_eq joins the two spellings.
-/
import Idealize.ShloMosaic.PureOps.Ideal
import Idealize.ShloMosaic.Lib.ValueIdx

noncomputable section

namespace Cert.Spec

open Idealize.ShloMosaic Idealize.ShloMosaic.ValueIdx

/-- Arrays of extended reals and of index words over a literal two-axis shape. -/
abbrev RArr (a b : Nat) : Type := (⟨2, ![a, b]⟩ : Shape).Idx → EReal
abbrev WArr (a b : Nat) : Type := (⟨2, ![a, b]⟩ : Shape).Idx → BitVec 32

/-- Entry (r, c) of relu(e · w + b). -/
def emb (e : RArr 1280 512) (w : RArr 512 1024) (b : Fin 1024 → EReal) (r : Fin 1280) (c : Fin 1024) : EReal :=
  max ((∑ k : Fin 512, e (ix2 r k) * w (ix2 k c)) + b c) 0

/-- An index word read as a row of a 1280-row table (the word itself when it is below 1280). -/
def rowOf (v : BitVec 32) : Fin 1280 := ⟨v.toNat % 1280, Nat.mod_lt _ (by decide)⟩

theorem rowOf_val {v : BitVec 32} (h : v.toNat < 1280) : (rowOf v).val = v.toNat := Nat.mod_eq_of_lt h

/-- Column k of a 1024-wide row as a column of its left half, when k is below 512. -/
def lo (k : Fin 1024) (h : k.val < 512) : Fin 512 := ⟨k.val, h⟩
/-- Column k of a 1024-wide row as a column of its right half, when k is not below 512. -/
def hi (k : Fin 1024) (h : ¬ k.val < 512) : Fin 512 := ⟨k.val - 512, by have := k.isLt; omega⟩
/-- Column q of the right half as a column of the whole row. -/
def up (q : Fin 512) : Fin 1024 := ⟨q.val + 512, by have := q.isLt; omega⟩
/-- Column q of the left half as a column of the whole row. -/
def dn (q : Fin 512) : Fin 1024 := ⟨q.val, by have := q.isLt; omega⟩

/-- The concatenated feature of a relation over the two half tables: head half of row i0, then tail half of row i1. -/
def pairRowOf (H T : RArr 1280 512) (i0 i1 : Fin 1280) (k : Fin 1024) : EReal :=
  if h : k.val < 512 then H (ix2 i0 (lo k h)) else T (ix2 i1 (hi k h))

/-- The same over the whole table. -/
def pairRow (E : Fin 1280 → Fin 1024 → EReal) (i0 i1 : Fin 1280) (k : Fin 1024) : EReal :=
  if k.val < 512 then E i0 k else E i1 k

/-- The two spellings agree when the half tables are the halves of the table. -/
theorem pairRow_eq (E : Fin 1280 → Fin 1024 → EReal) (H T : RArr 1280 512)
    (hH : ∀ r q, H (ix2 r q) = E r (dn q)) (hT : ∀ r q, T (ix2 r q) = E r (up q)) (i0 i1 : Fin 1280) (k : Fin 1024) :
    pairRowOf H T i0 i1 k = pairRow E i0 i1 k := by
  unfold pairRowOf pairRow
  by_cases h : k.val < 512
  · rw [dif_pos h, if_pos h, hH]; rfl
  · rw [dif_neg h, if_neg h, hT]
    congr 1
    apply Fin.ext
    show k.val - 512 + 512 = k.val
    omega

/-- One entry of the result from a relation's concatenated feature x, its own feature row, the two weight matrices and
    their biases. -/
def fusedAt (x : Fin 1024 → EReal) (u : RArr 65536 2048) (wc : RArr 1024 4096) (bc : Fin 4096 → EReal)
    (wu : RArr 2048 4096) (bu : Fin 4096 → EReal) (r : Fin 65536) (c : Fin 4096) : EReal :=
  ((∑ k : Fin 1024, x k * wc (ix2 k c)) + bc c) * ((∑ k : Fin 2048, u (ix2 r k) * wu (ix2 k c)) + bu c)

/-- Entry (r, c) of the result over the two half tables (what the second kernel computes from its operands). -/
def fusedOf (idx : WArr 65536 2) (u : RArr 65536 2048) (H T : RArr 1280 512) (wc : RArr 1024 4096) (bc : Fin 4096 → EReal)
    (wu : RArr 2048 4096) (bu : Fin 4096 → EReal) (r : Fin 65536) (c : Fin 4096) : EReal :=
  fusedAt (pairRowOf H T (rowOf (idx (ix2 r 0))) (rowOf (idx (ix2 r 1)))) u wc bc wu bu r c

/-- Entry (r, c) of the result as a function of the nine argument arrays (what the reference computes, and the two
    kernels together). -/
def fused (e : RArr 1280 512) (idx : WArr 65536 2) (u : RArr 65536 2048) (w : RArr 512 1024) (b : Fin 1024 → EReal)
    (wc : RArr 1024 4096) (bc : Fin 4096 → EReal) (wu : RArr 2048 4096) (bu : Fin 4096 → EReal)
    (r : Fin 65536) (c : Fin 4096) : EReal :=
  fusedAt (pairRow (emb e w b) (rowOf (idx (ix2 r 0))) (rowOf (idx (ix2 r 1)))) u wc bc wu bu r c

/-- The result array. -/
def result (e : RArr 1280 512) (idx : WArr 65536 2) (u : RArr 65536 2048) (w : RArr 512 1024) (b : Fin 1024 → EReal)
    (wc : RArr 1024 4096) (bc : Fin 4096 → EReal) (wu : RArr 2048 4096) (bu : Fin 4096 → EReal) : RArr 65536 4096 :=
  fun j => fused e idx u w b wc bc wu bu (j 0) (j 1)

/-- The index words all name a row of the table. -/
def InRange (idx : WArr 65536 2) : Prop := ∀ j, (idx j).toNat < 1280

end Cert.Spec

end
-- ==== Proof.KI.HostValue.lean ====
/-
  What the stretches of host operations leave in the buffers the two kernel regions read, over the extended reals.

  Before the first region: two constants (0 and 1279), the clip of the index pairs to [0, 1279], the conversion of the
  first weight matrix to the narrower format and the recast of its bias as one row. Before the second region: the
  conversions of the two other weight matrices and the recasts of their biases. Over the extended reals a conversion of
  format is the identity; a one-axis array recast as one row reads, in that row, the array at the column; and clipping
  to [0, 1279] a word that is already at least 0 and below 1280 (signed) leaves the word. A buffer no stretch writes and
  no region's window covers holds what it was launched with; the two tables the first region writes are, at the second
  region's entry, what its write-backs left.
-/
import proofs.«403099_j88871463289481_2_alg».proof.Proof.KI.Vals
import proofs.«403099_j88871463289481_2_alg».proof.Proof.Spec
import proofs.«403099_j88871463289481_2_alg».proof.Proof.Gen.KernelIdeal.Regions
import Idealize.ShloMosaic.Lib.Pipeline.Value
import Idealize.ShloMosaic.Lib.ValueLayout
import Idealize.ShloMosaic.Lib.IdealHost
import Idealize.ShloMosaic.PureOps.Ideal

noncomputable section

namespace Cert.KernelIdeal.HandValue

open Idealize.ShloMosaic Idealize.ShloMosaic.TcCoe Idealize.ShloMosaic.ValueIdx
open Idealize.ShloMosaic.Pipeline (Dat Cfg Window)
open Cert.KernelIdeal Cert.KernelIdeal.Hand
open Cert.KernelIdeal.Gen hiding V0 V1 V2 V3 V4 V5 V6

/-- Clipping a word that already names a row to the rows' range leaves it. -/
theorem clip_word (w : BitVec 32) (h : w.toNat < 1280) : IntOp.minsi 1279#32 (IntOp.maxsi 0#32 w) = w := by
  have e := BitVec.toInt_eq_toNat_cond w
  have h0 : (0#32 : BitVec 32).toInt = 0 := by decide
  have h1 : (1279#32 : BitVec 32).toInt = 1279 := by decide
  have hs0 : ¬ (w.slt 0#32 = true) := by
    rw [BitVec.slt_iff_toInt_lt, h0]; omega
  have hs1 : ¬ ((1279#32 : BitVec 32).slt w = true) := by
    rw [BitVec.slt_iff_toInt_lt, h1]; omega
  unfold IntOp.maxsi; rw [if_neg hs0]; unfold IntOp.minsi; rw [if_neg hs1]

section Stretches

variable (X : Valuation τ sig (Elt Ideal))

theorem s2_v1 : (StableHlo.after hostOps0_2 X (Proc.devRef .tc main_v1) : S512x1024.Idx → EReal)
    = (X (Proc.devRef .tc main_arg3) : S512x1024.Idx → EReal) := by
  dsimp only [hostOps0_2]; after_results; rfl

theorem s2_v2 : (StableHlo.after hostOps0_2 X (Proc.devRef .tc main_v2) : S1x1024.Idx → EReal)
    = shapeCast S1x1024 (X (Proc.devRef .tc main_arg4) : S1024.Idx → EReal) shapeCasts_S1024_S1x1024 := by
  dsimp only [hostOps0_2]; after_results; rfl

end Stretches

section Stretches2

variable (X : Valuation τ sig (Elt Ideal))

theorem s0_c : (StableHlo.after hostOps0 X (Proc.devRef .tc main_c) : S_.Idx → BitVec 32) = constantI S_ 32 0#32 := by
  dsimp only [hostOps0]; after_results

theorem s0_c0 : (StableHlo.after hostOps0 X (Proc.devRef .tc main_c_0) : S_.Idx → BitVec 32) = constantI S_ 32 1279#32 := by
  dsimp only [hostOps0]; after_results

theorem s1_v0 : (StableHlo.after hostOps0_1 X (Proc.devRef .tc main_v0) : S65536x2.Idx → BitVec 32)
    = minsi (broadcastInDim S65536x2 ![] bcast_S_S65536x2 (X (Proc.devRef .tc main_c_0) : S_.Idx → BitVec 32))
        (maxsi (broadcastInDim S65536x2 ![] bcast_S_S65536x2 (X (Proc.devRef .tc main_c) : S_.Idx → BitVec 32))
          (X (Proc.devRef .tc main_arg1) : S65536x2.Idx → BitVec 32)) := by
  dsimp only [hostOps0_1]; after_results; rfl

theorem s4_v4 : (StableHlo.after hostOps1 X (Proc.devRef .tc main_v4) : S1024x4096.Idx → EReal)
    = (X (Proc.devRef .tc main_arg5) : S1024x4096.Idx → EReal) := by
  dsimp only [hostOps1]; after_results; rfl

theorem s4_v5 : (StableHlo.after hostOps1 X (Proc.devRef .tc main_v5) : S1x4096.Idx → EReal)
    = shapeCast S1x4096 (X (Proc.devRef .tc main_arg6) : S4096.Idx → EReal) shapeCasts_S4096_S1x4096 := by
  dsimp only [hostOps1]; after_results; rfl

theorem s4_v6 : (StableHlo.after hostOps1 X (Proc.devRef .tc main_v6) : S2048x4096.Idx → EReal)
    = (X (Proc.devRef .tc main_arg7) : S2048x4096.Idx → EReal) := by
  dsimp only [hostOps1]; after_results; rfl

theorem s4_v7 : (StableHlo.after hostOps1 X (Proc.devRef .tc main_v7) : S1x4096.Idx → EReal)
    = shapeCast S1x4096 (X (Proc.devRef .tc main_arg8) : S4096.Idx → EReal) shapeCasts_S4096_S1x4096 := by
  dsimp only [hostOps1]; after_results; rfl

end Stretches2

/-- A one-axis array recast as a single row, read in that row, is the array read at the column. -/
theorem shapeCast_row {n : Nat} (x : (⟨1, ![n]⟩ : Shape).Idx → EReal)
    (h : (⟨1, ![n]⟩ : Shape).ShapeCasts (⟨2, ![1, n]⟩ : Shape)) (q : Fin n) :
    shapeCast (⟨2, ![1, n]⟩ : Shape) x h (ix2 0 q) = x (ix1 q) :=
  shapeCast_apply x h (ix2 0 q) (ix1 q) (by
    rw [Shape.rowMajor_val_one, Shape.rowMajor_val_two]
    show q.val = 0 * n + q.val
    omega)

section Entry

variable (d0 : Data0 Ideal) (m : (ℓ : Loc nD τ sig) → Buf (Elt Ideal) ℓ) (c : Dev nD)

/-- A buffer the first stretch does not write holds its launch contents after it. -/
theorem W1_launch (b : Ref sig .tc) (h0 : b ∉ hostOps0_W) : W1 m c (Proc.devRef .tc b) = m (c, Proc.devRef .tc b) :=
  StableHlo.after_of_writes_sub hostOps0 _ hostOps0_writes h0

/-- A buffer the first two stretches do not write holds its launch contents after them. -/
theorem W2_launch (b : Ref sig .tc) (h1 : b ∉ hostOps0_1_W) (h0 : b ∉ hostOps0_W) :
    W2 m c (Proc.devRef .tc b) = m (c, Proc.devRef .tc b) :=
  (StableHlo.after_of_writes_sub hostOps0_1 _ hostOps0_1_writes h1).trans (W1_launch m c b h0)

/-- A buffer none of the first three stretches writes holds its launch contents when the first region is entered. -/
theorem W3_launch (b : Ref sig .tc) (h2 : b ∉ hostOps0_2_W) (h1 : b ∉ hostOps0_1_W) (h0 : b ∉ hostOps0_W) :
    W3 m c (Proc.devRef .tc b) = m (c, Proc.devRef .tc b) :=
  (StableHlo.after_of_writes_sub hostOps0_2 _ hostOps0_2_writes h2).trans (W2_launch m c b h1 h0)

/-- Such a buffer that is no window's array of the first region holds its launch contents at the region's exit, -/
theorem W4_launch (b : Ref sig .tc) (hb : ∀ w, Pipeline.arrRef spec0 w ≠ b)
    (h2 : b ∉ hostOps0_2_W) (h1 : b ∉ hostOps0_1_W) (h0 : b ∉ hostOps0_W) :
    W4 d0 m c (Proc.devRef .tc b) = m (c, Proc.devRef .tc b) :=
  (W4_of_ne d0 m c b hb).trans (W3_launch m c b h2 h1 h0)

/-- and, when the fourth stretch does not write it either, when the second region is entered. -/
theorem W5_launch (b : Ref sig .tc) (h4 : b ∉ hostOps1_W) (hb : ∀ w, Pipeline.arrRef spec0 w ≠ b)
    (h2 : b ∉ hostOps0_2_W) (h1 : b ∉ hostOps0_1_W) (h0 : b ∉ hostOps0_W) :
    W5 d0 m c (Proc.devRef .tc b) = m (c, Proc.devRef .tc b) :=
  (StableHlo.after_of_writes_sub hostOps1 _ hostOps1_writes h4).trans (W4_launch d0 m c b hb h2 h1 h0)

/-! ### The first region's entry -/

/-- The object features are as launched. -/
theorem entry0_arg0 : V3 m c main_arg0 = m (c, main_arg0) :=
  W3_launch m c main_arg0 (by decide) (by decide) (by decide)

/-- The first weight matrix, converted, is the launched one (a conversion of format is the identity on extended reals). -/
theorem entry0_w_fun : (V3 m c main_v1 : S512x1024.Idx → EReal) = (m (c, main_arg3) : S512x1024.Idx → EReal) :=
  (s2_v1 (W2 m c)).trans (W2_launch m c main_arg3 (by decide) (by decide))

theorem entry0_w (j : S512x1024.Idx) :
    (V3 m c main_v1 : S512x1024.Idx → EReal) j = (m (c, main_arg3) : S512x1024.Idx → EReal) j :=
  congrFun (entry0_w_fun m c) j

/-- Its bias, recast as one row, read in that row. -/
theorem entry0_b_fun : (V3 m c main_v2 : S1x1024.Idx → EReal)
    = shapeCast S1x1024 (m (c, main_arg4) : S1024.Idx → EReal) shapeCasts_S1024_S1x1024 :=
  (s2_v2 (W2 m c)).trans
    (congrArg (fun x : S1024.Idx → EReal => shapeCast S1x1024 x shapeCasts_S1024_S1x1024)
      (W2_launch m c main_arg4 (by decide) (by decide)))

theorem entry0_b (q : Fin 1024) :
    (V3 m c main_v2 : S1x1024.Idx → EReal) (ix2 0 q) = (m (c, main_arg4) : S1024.Idx → EReal) (ix1 q) := by
  rw [entry0_b_fun m c]
  exact shapeCast_row (n := 1024) (m (c, main_arg4)) shapeCasts_S1024_S1x1024 q

/-- The clipped index pairs are the launched ones when every word already names a row. -/
theorem entry0_idx (h : Cert.Spec.InRange (m (c, main_arg1))) :
    (V3 m c main_v0 : S65536x2.Idx → BitVec 32) = (m (c, main_arg1) : S65536x2.Idx → BitVec 32) := by
  have a0 : (W1 m c (Proc.devRef .tc main_c_0) : S_.Idx → BitVec 32) = constantI S_ 32 1279#32 := s0_c0 (W0 m c)
  have a1 : (W1 m c (Proc.devRef .tc main_c) : S_.Idx → BitVec 32) = constantI S_ 32 0#32 := s0_c (W0 m c)
  have a2 : (W1 m c (Proc.devRef .tc main_arg1) : S65536x2.Idx → BitVec 32) = m (c, main_arg1) :=
    W1_launch m c main_arg1 (by decide)
  refine (StableHlo.after_of_writes_sub hostOps0_2 _ hostOps0_2_writes (by decide)).trans ?_
  refine (s1_v0 (W1 m c)).trans ?_
  rw [a0, a1, a2]
  funext j
  show IntOp.minsi 1279#32 (IntOp.maxsi 0#32 ((m (c, main_arg1) : S65536x2.Idx → BitVec 32) j)) = _
  exact clip_word _ (h j)

/-! ### The second region's entry -/

/-- The clipped index pairs are those the first region was entered with. -/
theorem entry1_idx : V5 d0 m c main_v0 = V3 m c main_v0 :=
  (StableHlo.after_of_writes_sub hostOps1 _ hostOps1_writes (by decide)).trans (W4_of_ne d0 m c main_v0 (by decide))

/-- The relation features are as launched. -/
theorem entry1_u : V5 d0 m c main_arg2 = m (c, main_arg2) :=
  W5_launch d0 m c main_arg2 (by decide) (by decide) (by decide) (by decide) (by decide)

/-- The head and tail tables are what the first region's write-backs left. -/
theorem entry1_head : V5 d0 m c main_v3_0 = (d0 (V3 m) c).arrAt 3 cfg0.N :=
  (StableHlo.after_of_writes_sub hostOps1 _ hostOps1_writes (by decide)).trans (W4_arr d0 m c 3)

theorem entry1_tail : V5 d0 m c main_v3_1 = (d0 (V3 m) c).arrAt 4 cfg0.N :=
  (StableHlo.after_of_writes_sub hostOps1 _ hostOps1_writes (by decide)).trans (W4_arr d0 m c 4)

/-- The two other weight matrices, converted, are the launched ones. -/
theorem entry1_wc_fun : (V5 d0 m c main_v4 : S1024x4096.Idx → EReal) = (m (c, main_arg5) : S1024x4096.Idx → EReal) :=
  (s4_v4 (W4 d0 m c)).trans (W4_launch d0 m c main_arg5 (by decide) (by decide) (by decide) (by decide))

theorem entry1_wc (j : S1024x4096.Idx) :
    (V5 d0 m c main_v4 : S1024x4096.Idx → EReal) j = (m (c, main_arg5) : S1024x4096.Idx → EReal) j :=
  congrFun (entry1_wc_fun d0 m c) j

theorem entry1_wu_fun : (V5 d0 m c main_v6 : S2048x4096.Idx → EReal) = (m (c, main_arg7) : S2048x4096.Idx → EReal) :=
  (s4_v6 (W4 d0 m c)).trans (W4_launch d0 m c main_arg7 (by decide) (by decide) (by decide) (by decide))

theorem entry1_wu (j : S2048x4096.Idx) :
    (V5 d0 m c main_v6 : S2048x4096.Idx → EReal) j = (m (c, main_arg7) : S2048x4096.Idx → EReal) j :=
  congrFun (entry1_wu_fun d0 m c) j

/-- Their biases, each recast as one row, read in that row. -/
theorem entry1_bc_fun : (V5 d0 m c main_v5 : S1x4096.Idx → EReal)
    = shapeCast S1x4096 (m (c, main_arg6) : S4096.Idx → EReal) shapeCasts_S4096_S1x4096 :=
  (s4_v5 (W4 d0 m c)).trans
    (congrArg (fun x : S4096.Idx → EReal => shapeCast S1x4096 x shapeCasts_S4096_S1x4096)
      (W4_launch d0 m c main_arg6 (by decide) (by decide) (by decide) (by decide)))

theorem entry1_bc (q : Fin 4096) :
    (V5 d0 m c main_v5 : S1x4096.Idx → EReal) (ix2 0 q) = (m (c, main_arg6) : S4096.Idx → EReal) (ix1 q) := by
  rw [entry1_bc_fun d0 m c]
  exact shapeCast_row (n := 4096) (m (c, main_arg6)) shapeCasts_S4096_S1x4096 q

theorem entry1_bu_fun : (V5 d0 m c main_v7 : S1x4096.Idx → EReal)
    = shapeCast S1x4096 (m (c, main_arg8) : S4096.Idx → EReal) shapeCasts_S4096_S1x4096 :=
  (s4_v7 (W4 d0 m c)).trans
    (congrArg (fun x : S4096.Idx → EReal => shapeCast S1x4096 x shapeCasts_S4096_S1x4096)
      (W4_launch d0 m c main_arg8 (by decide) (by decide) (by decide) (by decide)))

theorem entry1_bu (q : Fin 4096) :
    (V5 d0 m c main_v7 : S1x4096.Idx → EReal) (ix2 0 q) = (m (c, main_arg8) : S4096.Idx → EReal) (ix1 q) := by
  rw [entry1_bu_fun d0 m c]
  exact shapeCast_row (n := 4096) (m (c, main_arg8)) shapeCasts_S4096_S1x4096 q

/-- The launch memory read at a TensorCore's buffer is spelt the same through the core's thread. -/
theorem launch_loc (b : Ref sig .tc) : m (c, Proc.devRef .tc b) = m ((c.tc : Thread nD τ).loc b) := rfl

end Entry

end Cert.KernelIdeal.HandValue

end
-- ==== Proof.KI.Region0Value.lean ====
import proofs.«403099_j88871463289481_2_alg».proof.Proof.KI.Region0
import proofs.«403099_j88871463289481_2_alg».proof.Proof.Spec
import Idealize.ShloMosaic.Lib.Pipeline.Value
import Idealize.ShloMosaic.Lib.ValueIdx
import Idealize.ShloMosaic.PureOps.Ideal.Laws

/-! # Region 0 read at the extended reals

At the extended reals every change of float format is the identity and the matrix product into a zero accumulator
is the exact sum, so the embedding kernel's two payloads are the two halves of the table relu(e · w + b): the
head half its columns below 512, the tail half the columns from 512 on. The region's grid has one point whose
blocks are the whole arrays, so after the region each output array holds its half of the table computed from the
arrays as the region found them. -/

set_option maxRecDepth 16384

noncomputable section

namespace Cert.KernelIdeal.HandValue

open Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The matrix product's operand indices -/

theorem emb_lhs_0 (i : S1280x1024.Idx) (q : dot_S1280x512_S512x1024_S1280x1024_1_0_0_1_n_n.contr.Idx) :
    (dot_S1280x512_S512x1024_S1280x1024_1_0_0_1_n_n.lhsIdx i q 0).val = (i 0).val := by
  unfold DotDims.lhsIdx
  rw [dif_neg (show ¬(0 : Fin S1280x512.rank) ∈ dot_S1280x512_S512x1024_S1280x1024_1_0_0_1_n_n.lhsBatch by decide), dif_pos (show (0 : Fin S1280x512.rank) ∈ dot_S1280x512_S512x1024_S1280x1024_1_0_0_1_n_n.lhsNonContracting by decide)]
  rfl
theorem emb_lhs_1 (i : S1280x1024.Idx) (q : dot_S1280x512_S512x1024_S1280x1024_1_0_0_1_n_n.contr.Idx) :
    (dot_S1280x512_S512x1024_S1280x1024_1_0_0_1_n_n.lhsIdx i q 1).val = (q ⟨0, by decide⟩).val :=
  dot_S1280x512_S512x1024_S1280x1024_1_0_0_1_n_n.lhsIdx_val_of_single rfl i q
theorem emb_rhs_0 (i : S1280x1024.Idx) (q : dot_S1280x512_S512x1024_S1280x1024_1_0_0_1_n_n.contr.Idx) :
    (dot_S1280x512_S512x1024_S1280x1024_1_0_0_1_n_n.rhsIdx i q 0).val = (q ⟨0, by decide⟩).val :=
  dot_S1280x512_S512x1024_S1280x1024_1_0_0_1_n_n.rhsIdx_val_of_single rfl i q
theorem emb_rhs_1 (i : S1280x1024.Idx) (q : dot_S1280x512_S512x1024_S1280x1024_1_0_0_1_n_n.contr.Idx) :
    (dot_S1280x512_S512x1024_S1280x1024_1_0_0_1_n_n.rhsIdx i q 1).val = (i 1).val := by
  unfold DotDims.rhsIdx
  rw [dif_neg (show ¬(1 : Fin S512x1024.rank) ∈ dot_S1280x512_S512x1024_S1280x1024_1_0_0_1_n_n.rhsBatch by decide), dif_pos (show (1 : Fin S512x1024.rank) ∈ dot_S1280x512_S512x1024_S1280x1024_1_0_0_1_n_n.rhsNonContracting by decide)]
  rfl

/-! ## The payloads at an index -/

/-- The product of the edge context and the weight into a zero accumulator, at row p and column c, is the sum over
    the 512 shared coordinates. -/
theorem emb_matmul_apply (a : FVec Ideal S1280x512 .bf16) (w : FVec Ideal S512x1024 .bf16) (p : Fin 1280) (c : Fin 1024) :
    matmul dot_S1280x512_S512x1024_S1280x1024_1_0_0_1_n_n none a w (constant (F := Ideal) S1280x1024 .f32 0x00000000#32) (ix2 p c)
      = ∑ k : Fin 512, a (ix2 p k) * w (ix2 k c) := by
  simp only [matmul]
  rw [Ideal.matmul_constant_zero_apply, ← Equiv.sum_comp (ValueIdx.contrEquiv1 dot_S1280x512_S512x1024_S1280x1024_1_0_0_1_n_n 512 rfl rfl).symm]
  refine Finset.sum_congr rfl fun k _ => ?_
  have hk := ValueIdx.contrEquiv1_symm_val dot_S1280x512_S512x1024_S1280x1024_1_0_0_1_n_n 512 rfl rfl k
  have el : dot_S1280x512_S512x1024_S1280x1024_1_0_0_1_n_n.lhsIdx (ix2 p c) ((ValueIdx.contrEquiv1 dot_S1280x512_S512x1024_S1280x1024_1_0_0_1_n_n 512 rfl rfl).symm k) = ix2 p k := funext fun x => Fin.ext (by
    match x with
    | ⟨0, _⟩ => exact emb_lhs_0 _ _
    | ⟨1, _⟩ => exact (emb_lhs_1 _ _).trans hk)
  have er : dot_S1280x512_S512x1024_S1280x1024_1_0_0_1_n_n.rhsIdx (ix2 p c) ((ValueIdx.contrEquiv1 dot_S1280x512_S512x1024_S1280x1024_1_0_0_1_n_n 512 rfl rfl).symm k) = ix2 k c := funext fun x => Fin.ext (by
    match x with
    | ⟨0, _⟩ => exact (emb_rhs_0 _ _).trans hk
    | ⟨1, _⟩ => exact emb_rhs_1 _ _)
  rw [el, er]

/-- The bias row broadcast over the rows, at row p and column c, is the bias at column c. -/
theorem emb_bias_apply (b : FVec Ideal S1x1024 .f32) (p : Fin 1280) (c : Fin 1024) :
    broadcastTo S1280x1024 b Gen.broadcasts_S1x1024_S1280x1024 (ix2 p c) = b (ix2 0 c) :=
  broadcastTo_apply b Gen.broadcasts_S1x1024_S1280x1024 (ix2 p c) (ix2 0 c) (fun x => match x with
    | ⟨0, _⟩ => by show 0 = if (1 : Nat) = 1 then 0 else _; rw [if_pos rfl]
    | ⟨1, _⟩ => by show c.val = if (1024 : Nat) = 1 then 0 else c.val; rw [if_neg (by decide)])

/-- The whole table before it is split: entry (p, c) of relu(e · w + b). -/
theorem emb_pay_full (v0 : Vec Ideal S1280x512 .f32) (v2 : Vec Ideal S512x1024 .bf16) (v5 : Vec Ideal S1x1024 .f32) (p : Fin 1280) (c : Fin 1024) :
    k0_pay1 (F := Ideal) v0 v2 v5 (ix2 p c) = Cert.Spec.emb v0 v2 (fun c => v5 (ix2 0 c)) p c := by
  unfold k0_pay1 Cert.Spec.emb
  dsimp only
  rw [shapeCast_self, shapeCast_self]
  rw [truncf_apply, maximumf_apply, addf_apply, broadcast_apply, emb_matmul_apply, emb_bias_apply]
  show max _ (Ideal.ofBits .f32 0x00000000#32) = _
  rw [Ideal.ofBits_zero_f32]
  rfl

/-- The head half's payload: the table's columns below 512. -/
theorem emb_pay_lo (v0 : Vec Ideal S1280x512 .f32) (v2 : Vec Ideal S512x1024 .bf16) (v5 : Vec Ideal S1x1024 .f32) (p : Fin 1280) (q : Fin 512) :
    k0_pay2 (F := Ideal) v0 v2 v5 (ix2 p q) = Cert.Spec.emb v0 v2 (fun c => v5 (ix2 0 c)) p (Cert.Spec.dn q) := by
  unfold k0_pay2
  refine (extractStridedSlice_apply ![0, 0] (k0_pay1 (F := Ideal) v0 v2 v5) Gen.slices_S1280x1024_o0_0_S1280x512 (ix2 p q) (ix2 p (Cert.Spec.dn q)) (fun x => match x with
    | ⟨0, _⟩ => by show p.val = 0 + p.val; omega
    | ⟨1, _⟩ => by show q.val = 0 + q.val; omega)).trans ?_
  exact emb_pay_full v0 v2 v5 p (Cert.Spec.dn q)

/-- The tail half's payload: the table's columns from 512 on. -/
theorem emb_pay_hi (v0 : Vec Ideal S1280x512 .f32) (v2 : Vec Ideal S512x1024 .bf16) (v5 : Vec Ideal S1x1024 .f32) (p : Fin 1280) (q : Fin 512) :
    k0_pay3 (F := Ideal) v0 v2 v5 (ix2 p q) = Cert.Spec.emb v0 v2 (fun c => v5 (ix2 0 c)) p (Cert.Spec.up q) := by
  unfold k0_pay3
  refine (extractStridedSlice_apply ![0, 512] (k0_pay1 (F := Ideal) v0 v2 v5) Gen.slices_S1280x1024_o0_512_S1280x512 (ix2 p q) (ix2 p (Cert.Spec.up q)) (fun x => match x with
    | ⟨0, _⟩ => by show p.val = 0 + p.val; omega
    | ⟨1, _⟩ => by show q.val + 512 = 512 + q.val; omega)).trans ?_
  exact emb_pay_full v0 v2 v5 p (Cert.Spec.up q)

/-! ## The arrays after the region -/

section Arrays

variable (V : (c : Dev nD) → (b : Ref sig .tc) → Buf (Elt Ideal) ((c : Thread nD τ).loc b))

theorem hz : (![0, 0] : Fin 2 → Nat) = fun _ => 0 := funext fun a => by fin_cases a <;> rfl

/-- Every window's one block sits at block index zero on both axes. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The head half of the table computed from the arrays as the region finds them. -/
abbrev embLo (c : Dev nD) : S1280x512.Idx → EReal :=
  fun j => Cert.Spec.emb (V c main_arg0) (V c main_v1) (fun q => V c main_v2 (ix2 0 q)) (j 0) (Cert.Spec.dn (j 1))
/-- The tail half. -/
abbrev embHi (c : Dev nD) : S1280x512.Idx → EReal :=
  fun j => Cert.Spec.emb (V c main_arg0) (V c main_v1) (fun q => V c main_v2 (ix2 0 q)) (j 0) (Cert.Spec.up (j 1))

/-- Each input window's one block is its whole array. -/
theorem blk0_eq (c : Dev nD) (t : Fin cfg0.N) :
    (iblk0 V c 0 t : Vec Ideal S1280x512 .f32) = (V c main_arg0 : S1280x512.Idx → Elt Ideal .f32) := by
  obtain ⟨h0, h1, -⟩ := idx_zero t
  funext y
  unfold iblk0
  rw [View.read_apply]
  refine congrArg (V c main_arg0 : S1280x512.Idx → Elt Ideal .f32) (funext fun a => Fin.ext ?_)
  match a with
  | ⟨0, _⟩ => show win0_0.index t (0 : Fin 2) * 1280 + 1 * (y 0).val = (y 0).val; rw [h0]; omega
  | ⟨1, _⟩ => show win0_0.index t (1 : Fin 2) * 512 + 1 * (y 1).val = (y 1).val; rw [h1]; omega
theorem blk1_eq (c : Dev nD) (t : Fin cfg0.N) :
    (iblk0 V c 1 t : Vec Ideal S512x1024 .bf16) = (V c main_v1 : S512x1024.Idx → Elt Ideal .bf16) := by
  obtain ⟨-, -, h0, h1, -⟩ := idx_zero t
  funext y
  unfold iblk0
  rw [View.read_apply]
  refine congrArg (V c main_v1 : S512x1024.Idx → Elt Ideal .bf16) (funext fun a => Fin.ext ?_)
  match a with
  | ⟨0, _⟩ => show win0_1.index t (0 : Fin 2) * 512 + 1 * (y 0).val = (y 0).val; rw [h0]; omega
  | ⟨1, _⟩ => show win0_1.index t (1 : Fin 2) * 1024 + 1 * (y 1).val = (y 1).val; rw [h1]; omega
theorem blk2_eq (c : Dev nD) (t : Fin cfg0.N) :
    (iblk0 V c 2 t : Vec Ideal S1x1024 .f32) = (V c main_v2 : S1x1024.Idx → Elt Ideal .f32) := by
  obtain ⟨-, -, -, -, h0, h1, -⟩ := idx_zero t
  funext y
  unfold iblk0
  rw [View.read_apply]
  refine congrArg (V c main_v2 : S1x1024.Idx → Elt Ideal .f32) (funext fun a => Fin.ext ?_)
  match a with
  | ⟨0, _⟩ => show win0_2.index t (0 : Fin 2) * 1 + 1 * (y 0).val = (y 0).val; rw [h0]; omega
  | ⟨1, _⟩ => show win0_2.index t (1 : Fin 2) * 1024 + 1 * (y 1).val = (y 1).val; rw [h1]; omega

/-- What the body leaves in the head half's buffer, from blocks equal to given arrays, is the head half of the table
    of those arrays; -/
theorem lo_of_blocks (x0 a0 : Vec Ideal S1280x512 .f32) (x1 a1 : Vec Ideal S512x1024 .bf16) (x2 a2 : Vec Ideal S1x1024 .f32)
    (h0 : x0 = a0) (h1 : x1 = a1) (h2 : x2 = a2) :
    out0_3 x0 x1 x2 = fun j : S1280x512.Idx => Cert.Spec.emb a0 a1 (fun q => a2 (ix2 0 q)) (j 0) (Cert.Spec.dn (j 1)) := by
  subst h0 h1 h2
  unfold out0_3
  rw [View.canon_unit_zero hz]
  simp only [View.ld_unit_zero (S := S1280x512) hz, View.ld_unit_zero (S := S512x1024) hz, View.ld_unit_zero (S := S1x1024) hz]
  funext j
  obtain ⟨p, q, rfl⟩ : ∃ (p : Fin 1280) (q : Fin 512), j = ix2 p q := ⟨j 0, j 1, eq_ix2 j⟩
  exact emb_pay_lo x0 x1 x2 p q
/-- and in the tail half's buffer, the tail half. -/
theorem hi_of_blocks (x0 a0 : Vec Ideal S1280x512 .f32) (x1 a1 : Vec Ideal S512x1024 .bf16) (x2 a2 : Vec Ideal S1x1024 .f32)
    (h0 : x0 = a0) (h1 : x1 = a1) (h2 : x2 = a2) :
    out0_4 x0 x1 x2 = fun j : S1280x512.Idx => Cert.Spec.emb a0 a1 (fun q => a2 (ix2 0 q)) (j 0) (Cert.Spec.up (j 1)) := by
  subst h0 h1 h2
  unfold out0_4
  rw [View.canon_unit_zero hz]
  simp only [View.ld_unit_zero (S := S1280x512) hz, View.ld_unit_zero (S := S512x1024) hz, View.ld_unit_zero (S := S1x1024) hz]
  funext j
  obtain ⟨p, q, rfl⟩ : ∃ (p : Fin 1280) (q : Fin 512), j = ix2 p q := ⟨j 0, j 1, eq_ix2 j⟩
  exact emb_pay_hi x0 x1 x2 p q

/-- The one block of an output window, read off a whole-array contents, is those contents. -/
theorem oblk3_emb (t : Fin cfg0.N) (y : S1280x512.Idx) : ((cfg0.win 3).blk t).view.emb y = y := by
  obtain ⟨-, -, -, -, -, -, h0, h1, -⟩ := idx_zero t
  funext a
  apply Fin.ext
  match a with
  | ⟨0, _⟩ => show win0_3.index t (0 : Fin 2) * 1280 + 1 * (y 0).val = (y 0).val; rw [h0]; omega
  | ⟨1, _⟩ => show win0_3.index t (1 : Fin 2) * 512 + 1 * (y 1).val = (y 1).val; rw [h1]; omega
theorem oblk4_emb (t : Fin cfg0.N) (y : S1280x512.Idx) : ((cfg0.win 4).blk t).view.emb y = y := by
  obtain ⟨-, -, -, -, -, -, -, -, h0, h1⟩ := idx_zero t
  funext a
  apply Fin.ext
  match a with
  | ⟨0, _⟩ => show win0_4.index t (0 : Fin 2) * 1280 + 1 * (y 0).val = (y 0).val; rw [h0]; omega
  | ⟨1, _⟩ => show win0_4.index t (1 : Fin 2) * 512 + 1 * (y 1).val = (y 1).val; rw [h1]; omega

/-- What the point writes back to the head half's array is the block of the head half of the table. -/
theorem flushed3_eq (c : Dev nD) (t : Fin cfg0.N) :
    (dat0 (F := Ideal) V c).flushed 3 t = ((cfg0.win 3).blk t).view.read (Elt Ideal) (embLo V c) := by
  show (cfg0.win 3).cut (grid0.coords t) ((dat0 V c).after 3 t) = _
  rw [after0_3]
  funext y
  show out0_3 (iblk0 V c 0 t) (iblk0 V c 1 t) (iblk0 V c 2 t) y = embLo V c (((cfg0.win 3).blk t).view.emb y)
  refine (congrFun (lo_of_blocks (iblk0 V c 0 t) (V c main_arg0) (iblk0 V c 1 t) (V c main_v1) (iblk0 V c 2 t) (V c main_v2)
    (blk0_eq V c t) (blk1_eq V c t) (blk2_eq V c t)) y).trans ?_
  exact (congrArg (embLo V c) (oblk3_emb t y)).symm
theorem flushed4_eq (c : Dev nD) (t : Fin cfg0.N) :
    (dat0 (F := Ideal) V c).flushed 4 t = ((cfg0.win 4).blk t).view.read (Elt Ideal) (embHi V c) := by
  show (cfg0.win 4).cut (grid0.coords t) ((dat0 V c).after 4 t) = _
  rw [after0_4]
  funext y
  show out0_4 (iblk0 V c 0 t) (iblk0 V c 1 t) (iblk0 V c 2 t) y = embHi V c (((cfg0.win 4).blk t).view.emb y)
  refine (congrFun (hi_of_blocks (iblk0 V c 0 t) (V c main_arg0) (iblk0 V c 1 t) (V c main_v1) (iblk0 V c 2 t) (V c main_v2)
    (blk0_eq V c t) (blk1_eq V c t) (blk2_eq V c t)) y).trans ?_
  exact (congrArg (embHi V c) (oblk4_emb t y)).symm

/-- An index of the array is in the point's block iff each coordinate is in the block's range on its axis. -/
theorem mem_blk3 (t : Fin cfg0.N) (i : S1280x512.Idx) :
    i ∈ ((cfg0.win 3).blk t).view.set ↔ ∀ a : Fin 2, win0_3.index t a * S1280x512.size a ≤ (i a).val ∧ (i a).val < win0_3.index t a * S1280x512.size a + S1280x512.size a := by
  show i ∈ ((View.whole main_v3_0).slice (win0_3.rect t)).set ↔ _
  rw [View.set_slice_whole, Rect.mem_set_unit]
  exact Iff.rfl
theorem mem_blk4 (t : Fin cfg0.N) (i : S1280x512.Idx) :
    i ∈ ((cfg0.win 4).blk t).view.set ↔ ∀ a : Fin 2, win0_4.index t a * S1280x512.size a ≤ (i a).val ∧ (i a).val < win0_4.index t a * S1280x512.size a + S1280x512.size a := by
  show i ∈ ((View.whole main_v3_1).slice (win0_4.rect t)).set ↔ _
  rw [View.set_slice_whole, Rect.mem_set_unit]
  exact Iff.rfl

/-- The one point's block is the whole array. -/
theorem cover3 (i : S1280x512.Idx) : ∃ t : Fin cfg0.N, (cfg0.win 3).flush t = true ∧ i ∈ ((cfg0.win 3).blk t).view.set := by
  refine ⟨t0_0, flush0_3 t0_0, ?_⟩
  rw [mem_blk3]
  obtain ⟨-, -, -, -, -, -, h0, h1, -⟩ := idx_zero t0_0
  have hi0 : (i 0).val < 1280 := (i 0).isLt
  have hi1 : (i 1).val < 512 := (i 1).isLt
  intro a
  match a with
  | ⟨0, _⟩ => show win0_3.index t0_0 (0 : Fin 2) * 1280 ≤ (i 0).val ∧ (i 0).val < win0_3.index t0_0 (0 : Fin 2) * 1280 + 1280; rw [h0]; omega
  | ⟨1, _⟩ => show win0_3.index t0_0 (1 : Fin 2) * 512 ≤ (i 1).val ∧ (i 1).val < win0_3.index t0_0 (1 : Fin 2) * 512 + 512; rw [h1]; omega
theorem cover4 (i : S1280x512.Idx) : ∃ t : Fin cfg0.N, (cfg0.win 4).flush t = true ∧ i ∈ ((cfg0.win 4).blk t).view.set := by
  refine ⟨t0_0, flush0_4 t0_0, ?_⟩
  rw [mem_blk4]
  obtain ⟨-, -, -, -, -, -, -, -, h0, h1⟩ := idx_zero t0_0
  have hi0 : (i 0).val < 1280 := (i 0).isLt
  have hi1 : (i 1).val < 512 := (i 1).isLt
  intro a
  match a with
  | ⟨0, _⟩ => show win0_4.index t0_0 (0 : Fin 2) * 1280 ≤ (i 0).val ∧ (i 0).val < win0_4.index t0_0 (0 : Fin 2) * 1280 + 1280; rw [h0]; omega
  | ⟨1, _⟩ => show win0_4.index t0_0 (1 : Fin 2) * 512 ≤ (i 1).val ∧ (i 1).val < win0_4.index t0_0 (1 : Fin 2) * 512 + 512; rw [h1]; omega

/-- After the region the head half's array holds the table's columns below 512, computed from the edge context,
    the weight and the bias row as the region found them, whatever those were; -/
theorem arr3_eq (c : Dev nD) :
    (dat0 (F := Ideal) V c).arrAt 3 cfg0.N
      = fun j : S1280x512.Idx => Cert.Spec.emb (V c main_arg0) (V c main_v1) (fun q => V c main_v2 (ix2 0 q)) (j 0) (Cert.Spec.dn (j 1)) :=
  (dat0 (F := Ideal) V c).arrAt_eq_of_cover 3 (embLo V c) (fun t _ => flushed3_eq V c t) cover3
/-- and the tail half's array the columns from 512 on. -/
theorem arr4_eq (c : Dev nD) :
    (dat0 (F := Ideal) V c).arrAt 4 cfg0.N
      = fun j : S1280x512.Idx => Cert.Spec.emb (V c main_arg0) (V c main_v1) (fun q => V c main_v2 (ix2 0 q)) (j 0) (Cert.Spec.up (j 1)) :=
  (dat0 (F := Ideal) V c).arrAt_eq_of_cover 4 (embHi V c) (fun t _ => flushed4_eq V c t) cover4

end Arrays

end Cert.KernelIdeal.HandValue

end
-- ==== Proof.KI.Region1Blocks.lean ====
import proofs.«403099_j88871463289481_2_alg».proof.Proof.KI.Region1
import Idealize.ShloMosaic.Lib.Pipeline.Value
import Idealize.ShloMosaic.Lib.ValueIdx

/-! # Region 1's blocks, read off the entry contents

The second region's grid has 256 × 2 points; point t has coordinates (t / 2, t % 2). The index column pair and the
relation features are cut into 256 row tiles, tile t / 2 staged at point t; the two half tables, the two weight
matrices and the two bias rows are staged whole; the result is cut into 256 × 2 tiles of 256 × 2048, tile
(t / 2, t % 2) written back at point t. Here each input block is read at an index as an entry of its array, the
output tile's indices are placed in the result array, and the tiles are shown to cover it: so a function whose
tile at every point is what that point writes back is what the array holds after the region. -/

set_option maxRecDepth 16384

noncomputable section

namespace Cert.KernelIdeal.HandValue

open Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The grid's coordinates and the printed index maps, decided over the 512 points -/

/-- Point t has coordinates (t / 2, t % 2). -/
theorem r1_coords : ∀ t : Fin cfg1.N, ((grid1.coords t) 0).val = t.val / 2 ∧ ((grid1.coords t) 1).val = t.val % 2 :=
  (by decide +kernel : ∀ t : Fin grid1.N, ((grid1.coords t) 0).val = t.val / 2 ∧ ((grid1.coords t) 1).val = t.val % 2)

/-- The two row-tiled inputs are at row tile t / 2. -/
theorem r1_idx_in : ∀ t : Fin cfg1.N, win1_0.index t (0 : Fin 2) = t.val / 2 ∧ win1_0.index t (1 : Fin 2) = 0
    ∧ win1_1.index t (0 : Fin 2) = t.val / 2 ∧ win1_1.index t (1 : Fin 2) = 0 :=
  (by decide +kernel : ∀ t : Fin grid1.N, _)

/-- The six inputs staged whole are at block index zero. -/
theorem r1_idx_whole : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The output is at tile (t / 2, t % 2). -/
theorem r1_idx_out : ∀ t : Fin cfg1.N, win1_8.index t (0 : Fin 2) = t.val / 2 ∧ win1_8.index t (1 : Fin 2) = t.val % 2 :=
  (by decide +kernel : ∀ t : Fin grid1.N, _)

section Blocks

variable (V : (c : Dev nD) → (b : Ref sig .tc) → Buf (Elt Ideal) ((c : Thread nD τ).loc b))

/-! ## The input blocks at an index -/

/-- Row p of the index columns' block at point t is row 256 · (t / 2) + p of the array. -/
theorem r1_blk0_apply (c : Dev nD) (t : Fin cfg1.N) (p : Fin 256) (a : Fin 2) :
    (iblk1 V c 0 t : Vec Ideal S256x2 .i32) (ix2 p a)
      = (V c main_v0 : Vec Ideal S65536x2 .i32) (ix2 (⟨256 * (t.val / 2) + p.val, by have := p.isLt; have := t.isLt; have : cfg1.N = 512 := N_1; omega⟩ : Fin 65536) a) := by
  obtain ⟨h0, h1, -⟩ := r1_idx_in t
  unfold iblk1
  rw [View.read_apply]
  refine congrArg (V c main_v0 : S65536x2.Idx → Elt Ideal .i32) (funext fun x => Fin.ext ?_)
  match x with
  | ⟨0, _⟩ => show win1_0.index t (0 : Fin 2) * 256 + 1 * p.val = 256 * (t.val / 2) + p.val; rw [h0]; omega
  | ⟨1, _⟩ => show win1_0.index t (1 : Fin 2) * 2 + 1 * a.val = a.val; rw [h1]; omega

/-- Row p of the relation features' block at point t is row 256 · (t / 2) + p of the array. -/
theorem r1_blk1_apply (c : Dev nD) (t : Fin cfg1.N) (p : Fin 256) (k : Fin 2048) :
    (iblk1 V c 1 t : Vec Ideal S256x2048 .f32) (ix2 p k)
      = (V c main_arg2 : Vec Ideal S65536x2048 .f32) (ix2 (⟨256 * (t.val / 2) + p.val, by have := p.isLt; have := t.isLt; have : cfg1.N = 512 := N_1; omega⟩ : Fin 65536) k) := by
  obtain ⟨-, -, h0, h1⟩ := r1_idx_in t
  unfold iblk1
  rw [View.read_apply]
  refine congrArg (V c main_arg2 : S65536x2048.Idx → Elt Ideal .f32) (funext fun x => Fin.ext ?_)
  match x with
  | ⟨0, _⟩ => show win1_1.index t (0 : Fin 2) * 256 + 1 * p.val = 256 * (t.val / 2) + p.val; rw [h0]; omega
  | ⟨1, _⟩ => show win1_1.index t (1 : Fin 2) * 2048 + 1 * k.val = k.val; rw [h1]; omega

/-- Each input staged whole: its one block is its array, at every point. -/
theorem r1_blk2_eq (c : Dev nD) (t : Fin cfg1.N) :
    (iblk1 V c 2 t : Vec Ideal S1280x512 .bf16) = (V c main_v3_0 : Vec Ideal S1280x512 .bf16) := by
  have hw := r1_idx_whole t
  funext y
  unfold iblk1
  rw [View.read_apply]
  refine congrArg (V c main_v3_0 : S1280x512.Idx → Elt Ideal .bf16) (funext fun x => Fin.ext ?_)
  match x with
  | ⟨0, _⟩ => show win1_2.index t (0 : Fin 2) * 1280 + 1 * (y 0).val = (y 0).val; rw [hw.1]; omega
  | ⟨1, _⟩ => show win1_2.index t (1 : Fin 2) * 512 + 1 * (y 1).val = (y 1).val; rw [hw.2.1]; omega
theorem r1_blk3_eq (c : Dev nD) (t : Fin cfg1.N) :
    (iblk1 V c 3 t : Vec Ideal S1280x512 .bf16) = (V c main_v3_1 : Vec Ideal S1280x512 .bf16) := by
  have hw := r1_idx_whole t
  funext y
  unfold iblk1
  rw [View.read_apply]
  refine congrArg (V c main_v3_1 : S1280x512.Idx → Elt Ideal .bf16) (funext fun x => Fin.ext ?_)
  match x with
  | ⟨0, _⟩ => show win1_3.index t (0 : Fin 2) * 1280 + 1 * (y 0).val = (y 0).val; rw [hw.2.2.1]; omega
  | ⟨1, _⟩ => show win1_3.index t (1 : Fin 2) * 512 + 1 * (y 1).val = (y 1).val; rw [hw.2.2.2.1]; omega
theorem r1_blk4_eq (c : Dev nD) (t : Fin cfg1.N) :
    (iblk1 V c 4 t : Vec Ideal S1024x4096 .bf16) = (V c main_v4 : Vec Ideal S1024x4096 .bf16) := by
  have hw := r1_idx_whole t
  funext y
  unfold iblk1
  rw [View.read_apply]
  refine congrArg (V c main_v4 : S1024x4096.Idx → Elt Ideal .bf16) (funext fun x => Fin.ext ?_)
  match x with
  | ⟨0, _⟩ => show win1_4.index t (0 : Fin 2) * 1024 + 1 * (y 0).val = (y 0).val; rw [hw.2.2.2.2.1]; omega
  | ⟨1, _⟩ => show win1_4.index t (1 : Fin 2) * 4096 + 1 * (y 1).val = (y 1).val; rw [hw.2.2.2.2.2.1]; omega
theorem r1_blk5_eq (c : Dev nD) (t : Fin cfg1.N) :
    (iblk1 V c 5 t : Vec Ideal S1x4096 .f32) = (V c main_v5 : Vec Ideal S1x4096 .f32) := by
  have hw := r1_idx_whole t
  funext y
  unfold iblk1
  rw [View.read_apply]
  refine congrArg (V c main_v5 : S1x4096.Idx → Elt Ideal .f32) (funext fun x => Fin.ext ?_)
  match x with
  | ⟨0, _⟩ => show win1_5.index t (0 : Fin 2) * 1 + 1 * (y 0).val = (y 0).val; rw [hw.2.2.2.2.2.2.1]; omega
  | ⟨1, _⟩ => show win1_5.index t (1 : Fin 2) * 4096 + 1 * (y 1).val = (y 1).val; rw [hw.2.2.2.2.2.2.2.1]; omega
theorem r1_blk6_eq (c : Dev nD) (t : Fin cfg1.N) :
    (iblk1 V c 6 t : Vec Ideal S2048x4096 .bf16) = (V c main_v6 : Vec Ideal S2048x4096 .bf16) := by
  have hw := r1_idx_whole t
  funext y
  unfold iblk1
  rw [View.read_apply]
  refine congrArg (V c main_v6 : S2048x4096.Idx → Elt Ideal .bf16) (funext fun x => Fin.ext ?_)
  match x with
  | ⟨0, _⟩ => show win1_6.index t (0 : Fin 2) * 2048 + 1 * (y 0).val = (y 0).val; rw [hw.2.2.2.2.2.2.2.2.1]; omega
  | ⟨1, _⟩ => show win1_6.index t (1 : Fin 2) * 4096 + 1 * (y 1).val = (y 1).val; rw [hw.2.2.2.2.2.2.2.2.2.1]; omega
theorem r1_blk7_eq (c : Dev nD) (t : Fin cfg1.N) :
    (iblk1 V c 7 t : Vec Ideal S1x4096 .f32) = (V c main_v7 : Vec Ideal S1x4096 .f32) := by
  have hw := r1_idx_whole t
  funext y
  unfold iblk1
  rw [View.read_apply]
  refine congrArg (V c main_v7 : S1x4096.Idx → Elt Ideal .f32) (funext fun x => Fin.ext ?_)
  match x with
  | ⟨0, _⟩ => show win1_7.index t (0 : Fin 2) * 1 + 1 * (y 0).val = (y 0).val; rw [hw.2.2.2.2.2.2.2.2.2.2.1]; omega
  | ⟨1, _⟩ => show win1_7.index t (1 : Fin 2) * 4096 + 1 * (y 1).val = (y 1).val; rw [hw.2.2.2.2.2.2.2.2.2.2.2]; omega

/-! ## The output tile in the result array -/

/-- Entry (p, q) of the tile written back at point t is entry (256 · (t / 2) + p, 2048 · (t % 2) + q) of the result. -/
theorem r1_oblk8_emb (t : Fin cfg1.N) (p : Fin 256) (q : Fin 2048) :
    ((cfg1.win 8).blk t).view.emb (ix2 p q)
      = (ix2 (⟨256 * (t.val / 2) + p.val, by have := p.isLt; have := t.isLt; have : cfg1.N = 512 := N_1; omega⟩ : Fin 65536) (⟨2048 * (t.val % 2) + q.val, by have := q.isLt; have := t.isLt; have : cfg1.N = 512 := N_1; omega⟩ : Fin 4096) : S65536x4096.Idx) := by
  obtain ⟨h0, h1⟩ := r1_idx_out t
  funext x
  apply Fin.ext
  match x with
  | ⟨0, _⟩ => show win1_8.index t (0 : Fin 2) * 256 + 1 * p.val = 256 * (t.val / 2) + p.val; rw [h0]; omega
  | ⟨1, _⟩ => show win1_8.index t (1 : Fin 2) * 2048 + 1 * q.val = 2048 * (t.val % 2) + q.val; rw [h1]; omega

/-- An index of the result is in point t's tile iff each coordinate is in the tile's range on its axis. -/
theorem r1_mem_blk8 (t : Fin cfg1.N) (i : S65536x4096.Idx) :
    i ∈ ((cfg1.win 8).blk t).view.set ↔ ∀ a : Fin 2, win1_8.index t a * S256x2048.size a ≤ (i a).val ∧ (i a).val < win1_8.index t a * S256x2048.size a + S256x2048.size a := by
  show i ∈ ((View.whole main_v8).slice (win1_8.rect t)).set ↔ _
  rw [View.set_slice_whole, Rect.mem_set_unit]
  exact Iff.rfl

/-- The 512 tiles cover the result: entry (r, s) is in the tile of point 2 · (r / 256) + s / 2048. -/
theorem r1_cover8 (i : S65536x4096.Idx) : ∃ t : Fin cfg1.N, (cfg1.win 8).flush t = true ∧ i ∈ ((cfg1.win 8).blk t).view.set := by
  have hi0 : (i 0).val < 65536 := (i 0).isLt
  have hi1 : (i 1).val < 4096 := (i 1).isLt
  have hN : cfg1.N = 512 := N_1
  obtain ⟨t, ht⟩ : ∃ t : Fin cfg1.N, t.val = 2 * ((i 0).val / 256) + (i 1).val / 2048 := ⟨⟨2 * ((i 0).val / 256) + (i 1).val / 2048, by omega⟩, rfl⟩
  refine ⟨t, flush1_8 t, ?_⟩
  rw [r1_mem_blk8]
  obtain ⟨h0, h1⟩ := r1_idx_out t
  intro a
  match a with
  | ⟨0, _⟩ => show win1_8.index t (0 : Fin 2) * 256 ≤ (i 0).val ∧ (i 0).val < win1_8.index t (0 : Fin 2) * 256 + 256; rw [h0, ht]; omega
  | ⟨1, _⟩ => show win1_8.index t (1 : Fin 2) * 2048 ≤ (i 1).val ∧ (i 1).val < win1_8.index t (1 : Fin 2) * 2048 + 2048; rw [h1, ht]; omega

/-! ## The result array from its tiles -/

/-- If what every point writes back is its tile of one function G of the result's indices, the result array holds G
    after the region. -/
theorem r1_arr8_of_flushed (c : Dev nD) (G : S65536x4096.Idx → EReal)
    (hG : ∀ t : Fin cfg1.N, (dat1 (F := Ideal) V c).flushed 8 t = ((cfg1.win 8).blk t).view.read (Elt Ideal) G) :
    (dat1 (F := Ideal) V c).arrAt 8 cfg1.N = G :=
  (dat1 (F := Ideal) V c).arrAt_eq_of_cover 8 G (fun t _ => hG t) r1_cover8

/-- The same, entry by entry of the tile the body leaves at each point. -/
theorem r1_arr8_of_tiles (c : Dev nD) (G : S65536x4096.Idx → EReal)
    (h : ∀ (t : Fin cfg1.N) (p : Fin 256) (q : Fin 2048), (outsAt1 V c t.val t.isLt).1 (ix2 p q)
      = G (ix2 (⟨256 * (t.val / 2) + p.val, by have := p.isLt; have := t.isLt; have : cfg1.N = 512 := N_1; omega⟩ : Fin 65536) (⟨2048 * (t.val % 2) + q.val, by have := q.isLt; have := t.isLt; have : cfg1.N = 512 := N_1; omega⟩ : Fin 4096))) :
    (dat1 (F := Ideal) V c).arrAt 8 cfg1.N = G :=
  r1_arr8_of_flushed V c G fun t => by
    show (cfg1.win 8).cut (grid1.coords t) ((dat1 V c).after 8 t) = _
    rw [after1_8]
    funext y
    obtain ⟨p, q, rfl⟩ : ∃ (p : Fin 256) (q : Fin 2048), y = ix2 p q := ⟨y 0, y 1, eq_ix2 y⟩
    show (outsAt1 V c t.val t.isLt).1 (ix2 p q) = G (((cfg1.win 8).blk t).view.emb (ix2 p q))
    rw [r1_oblk8_emb]
    exact h t p q

end Blocks

end Cert.KernelIdeal.HandValue

end
-- ==== Proof.KI.Pay.lean ====
/-
  The payloads of the second kernel read at one index, over the extended reals.

  The gather is a product with a matrix of zeros and ones: row p of that matrix has its one in the column named by the
  index word of relation p, so the product's row p is that row of the table. Zero times anything is zero on the
  extended reals, infinities included, so nothing about the table's entries is assumed. The third payload is the two
  products, each with its bias row added, multiplied entry by entry.
-/
import proofs.«403099_j88871463289481_2_alg».proof.Proof.Gen.KernelIdeal.Skeleton
import proofs.«403099_j88871463289481_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

/-! ## The three products as sums over the contracted coordinate -/

theorem lhs_gath_0 (i : S256x512.Idx) (q : dot_S256x1280_S1280x512_S256x512_1_0_0_1_n_n.contr.Idx) :
    (dot_S256x1280_S1280x512_S256x512_1_0_0_1_n_n.lhsIdx i q 0).val = (i 0).val := by
  unfold DotDims.lhsIdx
  rw [dif_neg (show ¬(0 : Fin S256x1280.rank) ∈ dot_S256x1280_S1280x512_S256x512_1_0_0_1_n_n.lhsBatch by decide), dif_pos (show (0 : Fin S256x1280.rank) ∈ dot_S256x1280_S1280x512_S256x512_1_0_0_1_n_n.lhsNonContracting by decide)]
  rfl
theorem lhs_gath_1 (i : S256x512.Idx) (q : dot_S256x1280_S1280x512_S256x512_1_0_0_1_n_n.contr.Idx) :
    (dot_S256x1280_S1280x512_S256x512_1_0_0_1_n_n.lhsIdx i q 1).val = (q ⟨0, by decide⟩).val :=
  dot_S256x1280_S1280x512_S256x512_1_0_0_1_n_n.lhsIdx_val_of_single rfl i q
theorem rhs_gath_0 (i : S256x512.Idx) (q : dot_S256x1280_S1280x512_S256x512_1_0_0_1_n_n.contr.Idx) :
    (dot_S256x1280_S1280x512_S256x512_1_0_0_1_n_n.rhsIdx i q 0).val = (q ⟨0, by decide⟩).val :=
  dot_S256x1280_S1280x512_S256x512_1_0_0_1_n_n.rhsIdx_val_of_single rfl i q
theorem rhs_gath_1 (i : S256x512.Idx) (q : dot_S256x1280_S1280x512_S256x512_1_0_0_1_n_n.contr.Idx) :
    (dot_S256x1280_S1280x512_S256x512_1_0_0_1_n_n.rhsIdx i q 1).val = (i 1).val := by
  unfold DotDims.rhsIdx
  rw [dif_neg (show ¬(1 : Fin S1280x512.rank) ∈ dot_S256x1280_S1280x512_S256x512_1_0_0_1_n_n.rhsBatch by decide), dif_pos (show (1 : Fin S1280x512.rank) ∈ dot_S256x1280_S1280x512_S256x512_1_0_0_1_n_n.rhsNonContracting by decide)]
  rfl

/-- The 256 × 1280 by 1280 × 512 product into a zero accumulator, entry (p, q). -/
theorem gath_apply (x : FVec Ideal S256x1280 .bf16) (y : FVec Ideal S1280x512 .bf16) (p : Fin 256) (q : Fin 512) :
    matmul (F := Ideal) dot_S256x1280_S1280x512_S256x512_1_0_0_1_n_n none x y (constant S256x512 .f32 0x00000000#32) (ix2 p q)
      = ∑ k : Fin 1280, x (ix2 p k) * y (ix2 k q) := by
  simp only [matmul]
  rw [Ideal.matmul_constant_zero_apply, ← Equiv.sum_comp (contrEquiv1 dot_S256x1280_S1280x512_S256x512_1_0_0_1_n_n 1280 rfl rfl).symm]
  refine Finset.sum_congr rfl fun k _ => ?_
  have hk := contrEquiv1_symm_val dot_S256x1280_S1280x512_S256x512_1_0_0_1_n_n 1280 rfl rfl k
  have el : dot_S256x1280_S1280x512_S256x512_1_0_0_1_n_n.lhsIdx (ix2 p q) ((contrEquiv1 dot_S256x1280_S1280x512_S256x512_1_0_0_1_n_n 1280 rfl rfl).symm k) = ix2 p k := funext fun a => Fin.ext (by
    match a with
    | ⟨0, _⟩ => exact lhs_gath_0 _ _
    | ⟨1, _⟩ => exact (lhs_gath_1 _ _).trans hk)
  have er : dot_S256x1280_S1280x512_S256x512_1_0_0_1_n_n.rhsIdx (ix2 p q) ((contrEquiv1 dot_S256x1280_S1280x512_S256x512_1_0_0_1_n_n 1280 rfl rfl).symm k) = ix2 k q := funext fun a => Fin.ext (by
    match a with
    | ⟨0, _⟩ => exact (rhs_gath_0 _ _).trans hk
    | ⟨1, _⟩ => exact rhs_gath_1 _ _)
  rw [el, er]

theorem lhs_cat_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_cat_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_cat_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_cat_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The 256 × 1024 by 1024 × 2048 product into a zero accumulator, entry (p, q). -/
theorem cat_apply (x : FVec Ideal S256x1024 .bf16) (y : FVec Ideal S1024x2048 .bf16) (p : Fin 256) (q : Fin 2048) :
    matmul (F := Ideal) dot_S256x1024_S1024x2048_S256x2048_1_0_0_1_n_n none x y (constant S256x2048 .f32 0x00000000#32) (ix2 p q)
      = ∑ k : Fin 1024, x (ix2 p k) * y (ix2 k q) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p q) ((contrEquiv1 dot_S256x1024_S1024x2048_S256x2048_1_0_0_1_n_n 1024 rfl rfl).symm k) = ix2 p k := funext fun a => Fin.ext (by
    match a with
    | ⟨0, _⟩ => exact lhs_cat_0 _ _
    | ⟨1, _⟩ => exact (lhs_cat_1 _ _).trans hk)
  have er : dot_S256x1024_S1024x2048_S256x2048_1_0_0_1_n_n.rhsIdx (ix2 p q) ((contrEquiv1 dot_S256x1024_S1024x2048_S256x2048_1_0_0_1_n_n 1024 rfl rfl).symm k) = ix2 k q := funext fun a => Fin.ext (by
    match a with
    | ⟨0, _⟩ => exact (rhs_cat_0 _ _).trans hk
    | ⟨1, _⟩ => exact rhs_cat_1 _ _)
  rw [el, er]

theorem lhs_uni_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_uni_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_uni_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_uni_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The 256 × 2048 by 2048 × 2048 product into a zero accumulator, entry (p, q). -/
theorem uni_apply (x : FVec Ideal S256x2048 .bf16) (y : FVec Ideal S2048x2048 .bf16) (p : Fin 256) (q : Fin 2048) :
    matmul (F := Ideal) dot_S256x2048_S2048x2048_S256x2048_1_0_0_1_n_n none x y (constant S256x2048 .f32 0x00000000#32) (ix2 p q)
      = ∑ k : Fin 2048, x (ix2 p k) * y (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun a => Fin.ext (by
    match a with
    | ⟨0, _⟩ => exact lhs_uni_0 _ _
    | ⟨1, _⟩ => exact (lhs_uni_1 _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun a => Fin.ext (by
    match a with
    | ⟨0, _⟩ => exact (rhs_uni_0 _ _).trans hk
    | ⟨1, _⟩ => exact rhs_uni_1 _ _)
  rw [el, er]

/-! ## The matrix of zeros and ones -/

/-- The comparison bit of two words, widened and read as a signed integer, is one when the words agree and zero otherwise. -/
theorem oneHot_word (w k : BitVec 32) :
    (((((IntOp.cmpi .eq w k).setWidth 32).toInt : ℝ) : EReal)) = if w = k then 1 else 0 := by
  by_cases h : w = k
  · subst h
    rw [if_pos rfl]
    simp [IntOp.cmpi]
  · rw [if_neg h]
    have hb : (w == k) = false := by simpa using h
    simp [IntOp.cmpi, hb]

/-- Entry (p, k) of the matrix the kernel builds from a column of index words: one when the word of row p is k. -/
theorem oneHot_apply (v : Vec Ideal S256x1 .i32) (p : Fin 256) (k : Fin 1280) :
    (truncf (F := Ideal) .bf16 (sitofp (F := Ideal) .f32 (extui 32 (cmpi .eq
        (broadcastTo S256x1280 v broadcasts_S256x1_S256x1280)
        (broadcastTo S256x1280 (iota .tc S1x1280 32 [1] iota_S1x1280_d1_w32) broadcasts_S1x1280_S256x1280)) natLt_1_32)) bitsLt_bf16_f32
      : FVec Ideal S256x1280 .bf16) (ix2 p k)
      = if v (ix2 p 0) = BitVec.ofNat 32 k.val then 1 else 0 := by
  rw [truncf_apply, sitofp_apply, extui_apply]
  show ((((IntOp.cmpi .eq _ _).setWidth 32).toInt : ℝ) : EReal) = _
  rw [oneHot_word, broadcastTo_1b_ab_apply, iota_single_apply]
  have e : broadcastTo S256x1280 v broadcasts_S256x1_S256x1280 (ix2 p k) = v (ix2 p 0) :=
    broadcastTo_apply v broadcasts_S256x1_S256x1280 (ix2 p k) (ix2 p 0) fun a => by
      match a with
      | ⟨0, _⟩ => rfl
      | ⟨1, _⟩ => rfl
  rw [e]

/-- A sum against a row of that matrix picks the term its one names. -/
theorem sum_oneHot (w : BitVec 32) (h : w.toNat < 1280) (f : Fin 1280 → EReal) :
    (∑ k : Fin 1280, (if w = BitVec.ofNat 32 k.val then (1 : EReal) else 0) * f k) = f (Cert.Spec.rowOf w) := by
  rw [Finset.sum_eq_single (Cert.Spec.rowOf w)]
  · have e : w = BitVec.ofNat 32 (Cert.Spec.rowOf w).val := by
      apply BitVec.eq_of_toNat_eq
      rw [BitVec.toNat_ofNat, Cert.Spec.rowOf_val h]
      exact (Nat.mod_eq_of_lt w.isLt).symm
    rw [if_pos e, one_mul]
  · intro k _ hk
    have ne : ¬ w = BitVec.ofNat 32 k.val := by
      intro e
      apply hk
      apply Fin.ext
      rw [Cert.Spec.rowOf_val h, e, BitVec.toNat_ofNat]
      have := k.isLt
      omega
    rw [if_neg ne, zero_mul]
  · intro hn; exact absurd (Finset.mem_univ _) hn

/-! ## The payloads -/

/-- The head half gathered: row p is the row of the table named by the first index word of relation p. -/
theorem pay1_apply (v28 : Vec Ideal S256x1 .i32) (v45 : Vec Ideal S1280x512 .bf16) (p : Fin 256) (q : Fin 512)
    (h : (v28 (ix2 p 0)).toNat < 1280) :
    k1_pay1 (F := Ideal) v28 v45 (ix2 p q) = v45 (ix2 (Cert.Spec.rowOf (v28 (ix2 p 0))) q) := by
  unfold k1_pay1
  rw [shapeCast_self, truncf_apply, gath_apply]
  simp only [shapeCast_self]
  refine (Finset.sum_congr rfl fun k _ => ?_).trans (sum_oneHot (v28 (ix2 p 0)) h fun k => v45 (ix2 k q))
  exact congrArg (· * v45 (ix2 k q)) (oneHot_apply v28 p k)

/-- The tail half gathered: row p is the row of the table named by the second index word of relation p. -/
theorem pay2_apply (v30 : Vec Ideal S256x1 .i32) (v49 : Vec Ideal S1280x512 .bf16) (p : Fin 256) (q : Fin 512)
    (h : (v30 (ix2 p 0)).toNat < 1280) :
    k1_pay2 (F := Ideal) v30 v49 (ix2 p q) = v49 (ix2 (Cert.Spec.rowOf (v30 (ix2 p 0))) q) := by
  unfold k1_pay2
  rw [shapeCast_self, truncf_apply, gath_apply]
  simp only [shapeCast_self]
  refine (Finset.sum_congr rfl fun k _ => ?_).trans (sum_oneHot (v30 (ix2 p 0)) h fun k => v49 (ix2 k q))
  exact congrArg (· * v49 (ix2 k q)) (oneHot_apply v30 p k)

/-- The output tile: the concatenated features times the first weight block plus its bias row, multiplied by the
    relation features times the second weight block plus its bias row. -/
theorem pay3_apply (v6 : Vec Ideal S1024x2048 .bf16) (v9 : Vec Ideal S1x2048 .f32) (v12 : Vec Ideal S2048x2048 .bf16)
    (v15 : Vec Ideal S1x2048 .f32) (v17 : Vec Ideal S256x1024 .bf16) (v21 : Vec Ideal S256x2048 .f32) (p : Fin 256) (q : Fin 2048) :
    k1_pay3 (F := Ideal) v6 v9 v12 v15 v17 v21 (ix2 p q)
      = ((∑ k : Fin 1024, v17 (ix2 p k) * v6 (ix2 k q)) + v9 (ix2 0 q))
        * ((∑ k : Fin 2048, v21 (ix2 p k) * v12 (ix2 k q)) + v15 (ix2 0 q)) := by
  unfold k1_pay3
  rw [mulf_apply, addf_apply, addf_apply, cat_apply, uni_apply]
  simp only [shapeCast_self, broadcastTo_1b_ab_apply, truncf_apply]

end Cert.KernelIdeal.HandValue

end
-- ==== Proof.KI.Region1Value.lean ====
/-
  The second kernel's output array after its region, over the extended reals.

  The region walks 512 points; point t works on the 256 relations of row tile t / 2 and on the 2048 columns of column
  tile t % 2. A carried scratch holds, for each of the 256 relations, the concatenated feature: the head half of the
  table row named by the relation's first index word, then the tail half of the row named by its second. An even
  point fills the scratch by two products with matrices of zeros and ones (one per half), an odd point finds it as
  the even point before left it: both points of a row tile have the same relations. Every point then stores the tile
  (scratch times a column slice of the first weight matrix plus its bias) times (relation features times the same
  slice of the second weight matrix plus its bias). The 512 tiles cover the 65536 × 4096 array, so the array ends
  holding the fused result entry by entry. The index words must name rows of the table (below 1280): that is what
  makes the product with the zeros-and-ones matrix a row of the table.
-/
import proofs.«403099_j88871463289481_2_alg».proof.Proof.KI.Region1
import proofs.«403099_j88871463289481_2_alg».proof.Proof.KI.Region1Blocks
import proofs.«403099_j88871463289481_2_alg».proof.Proof.KI.Pay
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## Reading a block of an array -/

/-- A load through a rectangle of consecutive coordinates reads the array at the offset plus the local coordinate. -/
theorem ld_unit_apply {S : Shape} {e : EltTy} (X : S.Idx → Elt Ideal e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  rw [hk a]
  show (Rect.unit off size inb).off a + (Rect.unit off size inb).stride a * (y a).val = _
  rw [Rect.off_unit, Rect.stride_unit, Nat.one_mul]

/-! ## The concatenated features of a block of relations -/

/-- Entries of the left half of a concatenated feature come from the head table. -/
theorem pairRowOf_dn (H T : Cert.Spec.RArr 1280 512) (i0 i1 : Fin 1280) (q : Fin 512) :
    Cert.Spec.pairRowOf H T i0 i1 (Cert.Spec.dn q) = H (ix2 i0 q) := by
  unfold Cert.Spec.pairRowOf
  rw [dif_pos (show (Cert.Spec.dn q).val < 512 from q.isLt)]
  rfl

/-- Entries of the right half come from the tail table. -/
theorem pairRowOf_up (H T : Cert.Spec.RArr 1280 512) (i0 i1 : Fin 1280) (q : Fin 512) :
    Cert.Spec.pairRowOf H T i0 i1 (Cert.Spec.up q) = T (ix2 i1 q) := by
  unfold Cert.Spec.pairRowOf
  rw [dif_neg (show ¬ (Cert.Spec.up q).val < 512 from by show ¬ q.val + 512 < 512; omega)]
  refine congrArg T (congrArg (ix2 i1) (Fin.ext ?_))
  show q.val + 512 - 512 = q.val
  omega

/-- The concatenated features of the 256 relations whose index words are the rows of x0: row p is the head half of
    the row its first word names, then the tail half of the row its second word names. -/
def pairBlock (x0 : Vec Ideal S256x2 .i32) (x2 x3 : Vec Ideal S1280x512 .bf16) : Vec Ideal S256x1024 .bf16 :=
  fun y => Cert.Spec.pairRowOf x2 x3 (Cert.Spec.rowOf (x0 (ix2 (y 0) 0))) (Cert.Spec.rowOf (x0 (ix2 (y 0) 1))) (y 1)

theorem pairBlock_apply (x0 : Vec Ideal S256x2 .i32) (x2 x3 : Vec Ideal S1280x512 .bf16) (p : Fin 256) (k : Fin 1024) :
    pairBlock x0 x2 x3 (ix2 p k)
      = Cert.Spec.pairRowOf x2 x3 (Cert.Spec.rowOf (x0 (ix2 p 0))) (Cert.Spec.rowOf (x0 (ix2 p 1))) k := rfl

/-- The two stores that fill the scratch: the left half with the head rows gathered, the right half with the tail rows. -/
abbrev rLeft : Rect S256x1024 := Rect.unit (s := S256x1024) ![0, 0] S256x512.size inb_S256x1024_S256x512_0_0
abbrev rRight : Rect S256x1024 := Rect.unit (s := S256x1024) ![0, 512] S256x512.size inb_S256x1024_S256x512_0_512
abbrev rCol0 : Rect S256x2 := Rect.unit (s := S256x2) ![0, 0] S256x1.size inb_S256x2_S256x1_0_0
abbrev rCol1 : Rect S256x2 := Rect.unit (s := S256x2) ![0, 1] S256x1.size inb_S256x2_S256x1_0_1
abbrev rTab : Rect S1280x512 := Rect.unit (s := S1280x512) ![0, 0] S1280x512.size inb_S1280x512_S1280x512_0_0

theorem hz2 : (![0, 0] : Fin 2 → Nat) = fun _ => 0 := funext fun a => by fin_cases a <;> rfl

/-- The left store's payload at (p, q) is the pair block at (p, q). -/
theorem left_piece (x0 : Vec Ideal S256x2 .i32) (x2 x3 : Vec Ideal S1280x512 .bf16) (hin : ∀ j, (x0 j).toNat < 1280)
    (x : rLeft.shape.Idx) :
    k1_pay1 (F := Ideal) (View.ld x0 rCol0) (View.ld x2 rTab) x = pairBlock x0 x2 x3 (rLeft.emb x) := by
  obtain ⟨p, q, rfl⟩ : ∃ (p : Fin 256) (q : Fin 512), x = ix2 p q := ⟨x 0, x 1, eq_ix2 x⟩
  have e0 : View.ld x0 rCol0 (ix2 p 0) = x0 (ix2 p 0) :=
    ld_unit_apply x0 _ _ _ (ix2 p 0) (ix2 p 0) fun a => by
      match a with
      | ⟨0, _⟩ => show p.val = 0 + p.val; omega
      | ⟨1, _⟩ => show 0 = 0 + 0; rfl
  rw [pay1_apply _ _ p q (by rw [e0]; exact hin _), e0, View.ld_unit_zero (S := S1280x512) hz2]
  have ee : rLeft.emb (ix2 p q) = ix2 p (Cert.Spec.dn q) := funext fun a => Fin.ext (by
    match a with
    | ⟨0, _⟩ => show 0 + 1 * p.val = p.val; omega
    | ⟨1, _⟩ => show 0 + 1 * q.val = q.val; omega)
  rw [ee, pairBlock_apply, pairRowOf_dn]

/-- The right store's payload at (p, q) is the pair block at (p, 512 + q). -/
theorem right_piece (x0 : Vec Ideal S256x2 .i32) (x2 x3 : Vec Ideal S1280x512 .bf16) (hin : ∀ j, (x0 j).toNat < 1280)
    (x : rRight.shape.Idx) :
    k1_pay2 (F := Ideal) (View.ld x0 rCol1) (View.ld x3 rTab) x = pairBlock x0 x2 x3 (rRight.emb x) := by
  obtain ⟨p, q, rfl⟩ : ∃ (p : Fin 256) (q : Fin 512), x = ix2 p q := ⟨x 0, x 1, eq_ix2 x⟩
  have e1 : View.ld x0 rCol1 (ix2 p 0) = x0 (ix2 p 1) :=
    ld_unit_apply x0 _ _ _ (ix2 p 0) (ix2 p 1) fun a => by
      match a with
      | ⟨0, _⟩ => show p.val = 0 + p.val; omega
      | ⟨1, _⟩ => show 1 = 1 + 0; rfl
  rw [pay2_apply _ _ p q (by rw [e1]; exact hin _), e1, View.ld_unit_zero (S := S1280x512) hz2]
  have ee : rRight.emb (ix2 p q) = ix2 p (Cert.Spec.up q) := funext fun a => Fin.ext (by
    match a with
    | ⟨0, _⟩ => show 0 + 1 * p.val = p.val; omega
    | ⟨1, _⟩ => show 512 + 1 * q.val = q.val + 512; omega)
  rw [ee, pairBlock_apply, pairRowOf_up]

/-- Every entry of the scratch is in the left or in the right half. -/
theorem halves_cover (y : S256x1024.Idx) (a b : rLeft.shape.Idx → Elt Ideal .bf16) :
    ∃ pc ∈ ([⟨rRight, b⟩, ⟨rLeft, a⟩] : List (View.Piece (Elt Ideal) S256x1024 .bf16)), y ∈ pc.1.set := by
  have h0 : (y 0).val < 256 := (y 0).isLt
  have h1 : (y 1).val < 1024 := (y 1).isLt
  by_cases h : (y 1).val < 512
  · refine ⟨⟨rLeft, a⟩, by simp, ?_⟩
    show y ∈ rLeft.set
    rw [Rect.mem_set_unit]
    intro ax
    match ax with
    | ⟨0, _⟩ => show 0 ≤ (y 0).val ∧ (y 0).val < 0 + 256; omega
    | ⟨1, _⟩ => show 0 ≤ (y 1).val ∧ (y 1).val < 0 + 512; omega
  · refine ⟨⟨rRight, b⟩, by simp, ?_⟩
    show y ∈ rRight.set
    rw [Rect.mem_set_unit]
    intro ax
    match ax with
    | ⟨0, _⟩ => show 0 ≤ (y 0).val ∧ (y 0).val < 0 + 256; omega
    | ⟨1, _⟩ => show 512 ≤ (y 1).val ∧ (y 1).val < 512 + 512; omega

/-- So the two stores leave the pair block in the scratch. -/
theorem scratch_canon (x0 : Vec Ideal S256x2 .i32) (x2 x3 : Vec Ideal S1280x512 .bf16) (hin : ∀ j, (x0 j).toNat < 1280) :
    View.canon ([⟨rRight, k1_pay2 (F := Ideal) (View.ld x0 rCol1) (View.ld x3 rTab)⟩,
        ⟨rLeft, k1_pay1 (F := Ideal) (View.ld x0 rCol0) (View.ld x2 rTab)⟩] : List (View.Piece (Elt Ideal) S256x1024 .bf16))
      = pairBlock x0 x2 x3 := by
  funext y
  refine View.canon_apply_of_pieces (pairBlock x0 x2 x3) _ ?_ y (halves_cover y _ _)
  intro pc hpc x
  rcases List.mem_cons.mp hpc with rfl | hpc
  · exact right_piece x0 x2 x3 hin x
  · rcases List.mem_cons.mp hpc with rfl | hpc
    · exact left_piece x0 x2 x3 hin x
    · exact absurd hpc List.not_mem_nil

/-! ## The output tile of a point -/

/-- The tile a point stores: the scratch times the point's column slice of the first weight matrix plus the slice of
    its bias row, multiplied by the point's relation features times the same slice of the second weight matrix plus
    the slice of its bias row. The slices start at column 2048 times the point's second coordinate. -/
def tileOf (i : grid1.Coords) (x1 : Vec Ideal S256x2048 .f32) (x4 : Vec Ideal S1024x4096 .bf16) (x5 : Vec Ideal S1x4096 .f32)
    (x6 : Vec Ideal S2048x4096 .bf16) (x7 : Vec Ideal S1x4096 .f32) (sc : Vec Ideal S256x1024 .bf16) : Vec Ideal S256x2048 .f32 :=
  k1_pay3 (F := Ideal) (View.ld x4 (Rect.unit (k1_off1 i) S1024x2048.size (k1_off1_inb i)))
    (View.ld x5 (Rect.unit (k1_off2 i) S1x2048.size (k1_off2_inb i)))
    (View.ld x6 (Rect.unit (k1_off3 i) S2048x2048.size (k1_off3_inb i)))
    (View.ld x7 (Rect.unit (k1_off2 i) S1x2048.size (k1_off2_inb i))) sc x1

/-! ## What each case of the body leaves, as values -/

/-- Where the scratch is filled, it is left holding the pair block of the point's index words and the two tables. -/
theorem sout_A_eq (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i) (x0 : Vec Ideal S256x2 .i32) (x1 : Vec Ideal S256x2048 .f32) (x2 : Vec Ideal S1280x512 .bf16) (x3 : Vec Ideal S1280x512 .bf16) (x4 : Vec Ideal S1024x4096 .bf16) (x5 : Vec Ideal S1x4096 .f32) (x6 : Vec Ideal S2048x4096 .bf16) (x7 : Vec Ideal S1x4096 .f32)
    (hin : ∀ j, (x0 j).toNat < 1280) :
    sout1_A_0 (F := Ideal) c i arg2 harg2 arg3 harg3 arg4 harg4 arg5 harg5 arg6 harg6 arg7 harg7 arg8 harg8 arg9 harg9 arg10 harg10 arg11 harg11 hc0 x0 x1 x2 x3 x4 x5 x6 x7 = pairBlock x0 x2 x3 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun1_A
  dsimp only
  sl_unfold_words
  simp only [View.readAt_eq_ld, harg2.read_unread, harg4.read_unread, harg5.read_unread]
  exact scratch_canon x0 x2 x3 hin

/-- Where the scratch is filled, the tile is computed over the filled scratch. -/
theorem out_A_eq (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : cond1_0 i) (x0 : Vec Ideal S256x2 .i32) (x1 : Vec Ideal S256x2048 .f32) (x2 : Vec Ideal S1280x512 .bf16) (x3 : Vec Ideal S1280x512 .bf16) (x4 : Vec Ideal S1024x4096 .bf16) (x5 : Vec Ideal S1x4096 .f32) (x6 : Vec Ideal S2048x4096 .bf16) (x7 : Vec Ideal S1x4096 .f32)
    (hin : ∀ j, (x0 j).toNat < 1280) :
    out1_A_8 (F := Ideal) c i arg2 harg2 arg3 harg3 arg4 harg4 arg5 harg5 arg6 harg6 arg7 harg7 arg8 harg8 arg9 harg9 arg10 harg10 arg11 harg11 hc0 x0 x1 x2 x3 x4 x5 x6 x7 = tileOf i x1 x4 x5 x6 x7 (pairBlock x0 x2 x3) := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun1_A
  dsimp only
  sl_unfold_words
  rw [View.canon_unit_zero hz2]
  rw [View.readCov_eq_canon_ld _ _ _ (fun y => halves_cover y _ _)]
  simp only [View.readAt_eq_ld, harg2.read_unread, harg3.read_unread, harg4.read_unread, harg5.read_unread, harg6.read_unread,
    harg7.read_unread, harg8.read_unread, harg9.read_unread, View.ld_unit_zero (S := S256x2048) hz2,
    View.ld_unit_zero (S := S256x1024) hz2]
  rw [scratch_canon x0 x2 x3 hin]
  rfl

/-- Where the scratch is only read, the tile is computed over what it held. -/
theorem out_B_eq (c : Dev nD) (i : grid1.Coords) (arg2 : Memref sig .tc .vmem S256x2 .i32) (harg2 : arg2.IsWhole) (arg3 : Memref sig .tc .vmem S256x2048 .f32) (harg3 : arg3.IsWhole) (arg4 : Memref sig .tc .vmem S1280x512 .bf16) (harg4 : arg4.IsWhole) (arg5 : Memref sig .tc .vmem S1280x512 .bf16) (harg5 : arg5.IsWhole) (arg6 : Memref sig .tc .vmem S1024x4096 .bf16) (harg6 : arg6.IsWhole) (arg7 : Memref sig .tc .vmem S1x4096 .f32) (harg7 : arg7.IsWhole) (arg8 : Memref sig .tc .vmem S2048x4096 .bf16) (harg8 : arg8.IsWhole) (arg9 : Memref sig .tc .vmem S1x4096 .f32) (harg9 : arg9.IsWhole) (arg10 : Memref sig .tc .vmem S256x2048 .f32) (harg10 : arg10.IsWhole) (arg11 : Memref sig .tc .vmem S256x1024 .bf16) (harg11 : arg11.IsWhole) (hc0 : ¬cond1_0 i) (x0 : Vec Ideal S256x2 .i32) (x1 : Vec Ideal S256x2048 .f32) (x2 : Vec Ideal S1280x512 .bf16) (x3 : Vec Ideal S1280x512 .bf16) (x4 : Vec Ideal S1024x4096 .bf16) (x5 : Vec Ideal S1x4096 .f32) (x6 : Vec Ideal S2048x4096 .bf16) (x7 : Vec Ideal S1x4096 .f32)
    (xs0 : Vec Ideal S256x1024 .bf16) :
    out1_B_8 (F := Ideal) c i arg2 harg2 arg3 harg3 arg4 harg4 arg5 harg5 arg6 harg6 arg7 harg7 arg8 harg8 arg9 harg9 arg10 harg10 arg11 harg11 hc0 x0 x1 x2 x3 x4 x5 x6 x7 xs0 = tileOf i x1 x4 x5 x6 x7 xs0 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun1_B
  dsimp only
  sl_unfold_words
  rw [View.canon_unit_zero hz2]
  simp only [View.readAt_eq_ld, harg3.read_unread, harg6.read_unread, harg7.read_unread, harg8.read_unread, harg9.read_unread,
    harg11.read_unread, View.ld_unit_zero (S := S256x2048) hz2, View.ld_unit_zero (S := S256x1024) hz2]
  rfl

/-! ## The tile at an entry -/

/-- Entry (p, q) of a point's tile: column q of the tile is column C of the weight matrices, C being 2048 times the
    point's second coordinate plus q. -/
theorem tileOf_apply (i : grid1.Coords) (x1 : Vec Ideal S256x2048 .f32) (x4 : Vec Ideal S1024x4096 .bf16) (x5 : Vec Ideal S1x4096 .f32)
    (x6 : Vec Ideal S2048x4096 .bf16) (x7 : Vec Ideal S1x4096 .f32) (sc : Vec Ideal S256x1024 .bf16) (p : Fin 256) (q : Fin 2048)
    (C : Fin 4096) (hC : C.val = 2048 * (i 1).val + q.val) :
    tileOf i x1 x4 x5 x6 x7 sc (ix2 p q)
      = ((∑ k : Fin 1024, sc (ix2 p k) * x4 (ix2 k C)) + x5 (ix2 0 C))
        * ((∑ k : Fin 2048, x1 (ix2 p k) * x6 (ix2 k C)) + x7 (ix2 0 C)) := by
  unfold tileOf
  rw [pay3_apply]
  have e4 : ∀ k : Fin 1024, View.ld x4 (Rect.unit (k1_off1 i) S1024x2048.size (k1_off1_inb i)) (ix2 k q) = x4 (ix2 k C) := fun k =>
    ld_unit_apply x4 _ _ _ (ix2 k q) (ix2 k C) fun a => by
      match a with
      | ⟨0, _⟩ => show k.val = k1_off1 i 0 + k.val; rw [show k1_off1 i 0 = 0 from congrFun (k1_off1_eq i) 0]; omega
      | ⟨1, _⟩ => show C.val = k1_off1 i 1 + q.val; rw [show k1_off1 i 1 = 2048 * (i 1).val from congrFun (k1_off1_eq i) 1]; exact hC
  have e6 : ∀ k : Fin 2048, View.ld x6 (Rect.unit (k1_off3 i) S2048x2048.size (k1_off3_inb i)) (ix2 k q) = x6 (ix2 k C) := fun k =>
    ld_unit_apply x6 _ _ _ (ix2 k q) (ix2 k C) fun a => by
      match a with
      | ⟨0, _⟩ => show k.val = k1_off3 i 0 + k.val; rw [show k1_off3 i 0 = 0 from congrFun (k1_off3_eq i) 0]; omega
      | ⟨1, _⟩ => show C.val = k1_off3 i 1 + q.val; rw [show k1_off3 i 1 = 2048 * (i 1).val from congrFun (k1_off3_eq i) 1]; exact hC
  have e5 : View.ld x5 (Rect.unit (k1_off2 i) S1x2048.size (k1_off2_inb i)) (ix2 0 q) = x5 (ix2 0 C) :=
    ld_unit_apply x5 _ _ _ (ix2 0 q) (ix2 0 C) fun a => by
      match a with
      | ⟨0, _⟩ => show 0 = k1_off2 i 0 + 0; rw [show k1_off2 i 0 = 0 from congrFun (k1_off2_eq i) 0]
      | ⟨1, _⟩ => show C.val = k1_off2 i 1 + q.val; rw [show k1_off2 i 1 = 2048 * (i 1).val from congrFun (k1_off2_eq i) 1]; exact hC
  have e7 : View.ld x7 (Rect.unit (k1_off2 i) S1x2048.size (k1_off2_inb i)) (ix2 0 q) = x7 (ix2 0 C) :=
    ld_unit_apply x7 _ _ _ (ix2 0 q) (ix2 0 C) fun a => by
      match a with
      | ⟨0, _⟩ => show 0 = k1_off2 i 0 + 0; rw [show k1_off2 i 0 = 0 from congrFun (k1_off2_eq i) 0]
      | ⟨1, _⟩ => show C.val = k1_off2 i 1 + q.val; rw [show k1_off2 i 1 = 2048 * (i 1).val from congrFun (k1_off2_eq i) 1]; exact hC
  rw [e5, e7]
  simp only [e4, e6]

/-! ## The array after the region -/

section Arrays

variable (V : (c : Dev nD) → (b : Ref sig .tc) → Buf (Elt Ideal) ((c : Thread nD τ).loc b))

/-- Relation p of the row tile of point t, as a row of the whole arrays. -/
def relRow (t : Fin cfg1.N) (p : Fin 256) : Fin 65536 :=
  ⟨256 * (t.val / 2) + p.val, by have := p.isLt; have := t.isLt; have : cfg1.N = 512 := N_1; omega⟩
/-- Column q of the column tile of point t, as a column of the whole arrays. -/
def outCol (t : Fin cfg1.N) (q : Fin 2048) : Fin 4096 :=
  ⟨2048 * (t.val % 2) + q.val, by have := q.isLt; omega⟩

/-- The concatenated features of the 256 relations of point t's row tile, from the arrays as the region finds them. -/
def scratchAt (c : Dev nD) (t : Fin cfg1.N) : Vec Ideal S256x1024 .bf16 :=
  fun y => Cert.Spec.pairRowOf (V c main_v3_0) (V c main_v3_1)
    (Cert.Spec.rowOf ((V c main_v0 : Vec Ideal S65536x2 .i32) (ix2 (relRow t (y 0)) 0)))
    (Cert.Spec.rowOf ((V c main_v0 : Vec Ideal S65536x2 .i32) (ix2 (relRow t (y 0)) 1))) (y 1)

theorem scratchAt_apply (c : Dev nD) (t : Fin cfg1.N) (p : Fin 256) (k : Fin 1024) :
    scratchAt V c t (ix2 p k) = Cert.Spec.pairRowOf (V c main_v3_0) (V c main_v3_1)
      (Cert.Spec.rowOf ((V c main_v0 : Vec Ideal S65536x2 .i32) (ix2 (relRow t p) 0)))
      (Cert.Spec.rowOf ((V c main_v0 : Vec Ideal S65536x2 .i32) (ix2 (relRow t p) 1))) k := rfl

/-- The two points of a row tile have the same relations. -/
theorem scratchAt_pred (c : Dev nD) (t : Fin cfg1.N) (h : ¬t.val % 2 = 0) (ht : t.val - 1 < cfg1.N) :
    scratchAt V c ⟨t.val - 1, ht⟩ = scratchAt V c t := by
  have e : ∀ p : Fin 256, relRow ⟨t.val - 1, ht⟩ p = relRow t p := fun p => Fin.ext (by
    show 256 * ((t.val - 1) / 2) + p.val = 256 * (t.val / 2) + p.val
    omega)
  funext y
  obtain ⟨p, k, rfl⟩ : ∃ (p : Fin 256) (k : Fin 1024), y = ix2 p k := ⟨y 0, y 1, eq_ix2 y⟩
  rw [scratchAt_apply, scratchAt_apply, e p]

/-- The pair block of a point's own blocks is the pair block of its row tile's relations. -/
theorem pairBlock_blocks (c : Dev nD) (t : Fin cfg1.N) :
    pairBlock (iblk1 V c 0 t) (iblk1 V c 2 t) (iblk1 V c 3 t) = scratchAt V c t := by
  funext y
  obtain ⟨p, k, rfl⟩ : ∃ (p : Fin 256) (k : Fin 1024), y = ix2 p k := ⟨y 0, y 1, eq_ix2 y⟩
  rw [pairBlock_apply, scratchAt_apply, r1_blk0_apply V c t p 0, r1_blk0_apply V c t p 1, r1_blk2_eq V c t, r1_blk3_eq V c t]
  rfl

/-- The index words of a point's block are in range when those of the array are. -/
theorem blk0_inRange (c : Dev nD) (hV : Cert.Spec.InRange (V c main_v0)) (t : Fin cfg1.N) (j : S256x2.Idx) :
    ((iblk1 V c 0 t : Vec Ideal S256x2 .i32) j).toNat < 1280 := by
  obtain ⟨p, a, rfl⟩ : ∃ (p : Fin 256) (a : Fin 2), j = ix2 p a := ⟨j 0, j 1, eq_ix2 j⟩
  rw [r1_blk0_apply V c t p a]
  exact hV _

/-- THE SCRATCH after the body at position n holds the concatenated features of the relations of that point's row
    tile: an even point fills it so, an odd point finds it so and leaves it. -/
theorem scratch_inv (c : Dev nD) (hV : Cert.Spec.InRange (V c main_v0)) :
    ∀ (n : ℕ) (hn : n < cfg1.N), (outsAt1 V c n hn).2 = scratchAt V c ⟨n, hn⟩
  | 0, hn => by
    rw [outsAt1_A V c ⟨0, hn⟩ (Nat.zero_mod 2)]
    dsimp only
    exact (sout_A_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod 2)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (blk0_inRange V c hV ⟨0, hn⟩)).trans (pairBlock_blocks V c ⟨0, hn⟩)
  | n + 1, hn => by
    by_cases h : (n + 1) % 2 = 0
    · rw [outsAt1_A V c ⟨n + 1, hn⟩ h]
      dsimp only
      exact (sout_A_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (blk0_inRange V c hV ⟨n + 1, hn⟩)).trans (pairBlock_blocks V c ⟨n + 1, hn⟩)
    · rw [outsAt1_B V c ⟨n + 1, hn⟩ h]
      dsimp only
      show (outsAt1 V c n _).2 = _
      rw [scratch_inv c hV n]
      exact scratchAt_pred V c ⟨n + 1, hn⟩ h _

/-- THE TILE a point leaves in the output block. -/
theorem tile_eq (c : Dev nD) (hV : Cert.Spec.InRange (V c main_v0)) (t : Fin cfg1.N) :
    (outsAt1 V c t.val t.isLt).1
      = tileOf (grid1.coords t) (iblk1 V c 1 t) (iblk1 V c 4 t) (iblk1 V c 5 t) (iblk1 V c 6 t) (iblk1 V c 7 t) (scratchAt V c t) := by
  by_cases h : t.val % 2 = 0
  · rw [outsAt1_A V c t h]
    dsimp only
    rw [out_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h) (iblk1 V c 0 t) (iblk1 V c 1 t) (iblk1 V c 2 t) (iblk1 V c 3 t) (iblk1 V c 4 t) (iblk1 V c 5 t) (iblk1 V c 6 t) (iblk1 V c 7 t) (blk0_inRange V c hV t), pairBlock_blocks V c t]
  · rw [outsAt1_B V c t h]
    dsimp only
    rw [out_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h' => h ((hcond1_0 t).mp h')) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      scratch_inv V c hV (t.val - 1) _, scratchAt_pred V c t h _]

/-- The result the second kernel computes from the arrays as the region finds them, entry by entry. -/
abbrev fusedArr (c : Dev nD) : S65536x4096.Idx → EReal :=
  fun j => Cert.Spec.fusedOf (V c main_v0) (V c main_arg2) (V c main_v3_0) (V c main_v3_1) (V c main_v4) (fun q => V c main_v5 (ix2 0 q))
    (V c main_v6) (fun q => V c main_v7 (ix2 0 q)) (j 0) (j 1)

/-- Entry (p, q) of the tile of point t is the result's entry at relation 256 (t / 2) + p and column 2048 (t % 2) + q. -/
theorem tile_entry (c : Dev nD) (hV : Cert.Spec.InRange (V c main_v0)) (t : Fin cfg1.N) (p : Fin 256) (q : Fin 2048) :
    (outsAt1 V c t.val t.isLt).1 (ix2 p q) = fusedArr V c (ix2 (relRow t p) (outCol t q)) := by
  rw [tile_eq V c hV t]
  rw [tileOf_apply (grid1.coords t) (iblk1 V c 1 t) (iblk1 V c 4 t) (iblk1 V c 5 t) (iblk1 V c 6 t) (iblk1 V c 7 t) (scratchAt V c t) p q
    (outCol t q) (by rw [(r1_coords t).2]; rfl)]
  rw [r1_blk4_eq V c t, r1_blk5_eq V c t, r1_blk6_eq V c t, r1_blk7_eq V c t]
  simp only [r1_blk1_apply V c t p, scratchAt_apply]
  rfl

/-- AFTER THE REGION the output array holds, at every entry, the fused result of the arrays as the region found them:
    the index words, the relation features, the two half tables, the two weight matrices and their bias rows. -/
theorem arr8_eq (c : Dev nD) (h : Cert.Spec.InRange (V c main_v0)) :
    (dat1 (F := Ideal) V c).arrAt 8 cfg1.N
      = fun j : S65536x4096.Idx => Cert.Spec.fusedOf (V c main_v0) (V c main_arg2) (V c main_v3_0) (V c main_v3_1) (V c main_v4)
          (fun q => V c main_v5 (ix2 0 q)) (V c main_v6) (fun q => V c main_v7 (ix2 0 q)) (j 0) (j 1) :=
  r1_arr8_of_tiles V c (fusedArr V c) fun t p q => tile_entry V c h t p q

end Arrays

end Cert.KernelIdeal.HandValue

end
-- ==== Proof.KI.Value.lean ====
/-
  The idealized kernel program's result over the extended reals: from any launch memory whose index words all name a row
  of the table, every execution ends with the result array equal to the specification's result of the nine argument
  arrays, and with the arguments as launched.

  The run leaves every unscoped buffer at the contents the fold of the six items names. The result array is the second
  region's output array, which is the fused entry function of the contents the region was entered with. Those contents
  are read back to the launch: the index pairs are the launched ones (clipping changes no word that names a row), the
  relation features and the two weight matrices are the launched ones, the biases the launched ones read along their
  row, and the head and tail tables are what the first region wrote, the left and right halves of relu(e · w + b)
  of the launched object features, weight and bias. Over half tables that are the halves of one table, the entry
  function over the halves is the entry function over the table.
-/
import proofs.«403099_j88871463289481_2_alg».proof.Proof.KI.HostValue
import proofs.«403099_j88871463289481_2_alg».proof.Proof.KI.Region0Value
import proofs.«403099_j88871463289481_2_alg».proof.Proof.KI.Region1
import proofs.«403099_j88871463289481_2_alg».proof.Proof.KI.Region1Value
import proofs.«403099_j88871463289481_2_alg».proof.Proof.KI.Frame
import proofs.«403099_j88871463289481_2_alg».proof.Proof.Spec

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Hand
open Cert.KernelIdeal.Gen hiding V0 V1 V2 V3 V4 V5 V6

/-- Over half tables that are the left and right halves of relu(e · w + b), an entry of the result computed from the
    halves is the entry computed from the whole table. -/
theorem fusedOf_eq_fused (e : Cert.Spec.RArr 1280 512) (idx : Cert.Spec.WArr 65536 2) (u : Cert.Spec.RArr 65536 2048)
    (w : Cert.Spec.RArr 512 1024) (b : Fin 1024 → EReal) (wc : Cert.Spec.RArr 1024 4096) (bc : Fin 4096 → EReal)
    (wu : Cert.Spec.RArr 2048 4096) (bu : Fin 4096 → EReal) (H T : Cert.Spec.RArr 1280 512)
    (hH : ∀ r q, H (ix2 r q) = Cert.Spec.emb e w b r (Cert.Spec.dn q))
    (hT : ∀ r q, T (ix2 r q) = Cert.Spec.emb e w b r (Cert.Spec.up q)) (r : Fin 65536) (c : Fin 4096) :
    Cert.Spec.fusedOf idx u H T wc bc wu bu r c = Cert.Spec.fused e idx u w b wc bc wu bu r c :=
  congrArg (fun x => Cert.Spec.fusedAt x u wc bc wu bu r c)
    (funext fun k => Cert.Spec.pairRow_eq (Cert.Spec.emb e w b) H T hH hT _ _ k)

/-- The two regions' proof data as functions of the contents each region is entered with. -/
abbrev dataI0 : Data0 Ideal := fun V c => dat0 V c
abbrev dataI1 : Data1 Ideal := fun V c => dat1 V c

/-- An unscoped TensorCore buffer is among those a core's state holds between items. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section Tables

variable (m : (ℓ : Loc nD τ sig) → Buf (Elt Ideal) ℓ) (c : Dev nD)

/-- The bias row the first region is entered with, read along the row, is the launched bias. -/
theorem bias0 : (fun k : Fin 1024 => (V3 m c main_v2 : S1x1024.Idx → EReal) (ix2 0 k))
    = fun k => (m (c, main_arg4) : S1024.Idx → EReal) (ix1 k) :=
  funext (entry0_b m c)

/-- The head table the second region is entered with is the left half of the table of the launched arguments. -/
theorem head_entry (r : Fin 1280) (q : Fin 512) :
    (V5 dataI0 m c main_v3_0 : S1280x512.Idx → EReal) (ix2 r q)
      = Cert.Spec.emb (m (c, main_arg0)) (m (c, main_arg3)) (fun k => (m (c, main_arg4) : S1024.Idx → EReal) (ix1 k)) r (Cert.Spec.dn q) := by
  rw [entry1_head dataI0 m c, arr3_eq (V3 m) c]
  show Cert.Spec.emb (V3 m c main_arg0) (V3 m c main_v1) (fun k => (V3 m c main_v2 : S1x1024.Idx → EReal) (ix2 0 k)) r (Cert.Spec.dn q) = _
  rw [entry0_arg0 m c, entry0_w_fun m c, bias0 m c]

/-- The tail table is the right half. -/
theorem tail_entry (r : Fin 1280) (q : Fin 512) :
    (V5 dataI0 m c main_v3_1 : S1280x512.Idx → EReal) (ix2 r q)
      = Cert.Spec.emb (m (c, main_arg0)) (m (c, main_arg3)) (fun k => (m (c, main_arg4) : S1024.Idx → EReal) (ix1 k)) r (Cert.Spec.up q) := by
  rw [entry1_tail dataI0 m c, arr4_eq (V3 m) c]
  show Cert.Spec.emb (V3 m c main_arg0) (V3 m c main_v1) (fun k => (V3 m c main_v2 : S1x1024.Idx → EReal) (ix2 0 k)) r (Cert.Spec.up q) = _
  rw [entry0_arg0 m c, entry0_w_fun m c, bias0 m c]

end Tables

section Assembly

variable
  (hrun : ∀ (m : (ℓ : Loc nD τ sig) → Buf (Elt Ideal) ℓ) (ρ : Dev nD → PrngReg),
    θ_run defs (onTc (τ := τ) (main (F := Ideal))) ⟨m, fun _ => 0, ρ⟩
      (fun r => ∀ c : Dev nD, ∀ b ∈ Pipeline.ucRefs τ sig, r.2.mem (((c : Thread nD τ)).1, b) = W6 dataI0 dataI1 m c b))
  (hargs : ∀ (m : (ℓ : Loc nD τ sig) → Buf (Elt Ideal) ℓ) (c : Dev nD),
      W6 dataI0 dataI1 m c (Proc.devRef .tc main_arg0) = m ((c : Thread nD τ).loc main_arg0)
      ∧ W6 dataI0 dataI1 m c (Proc.devRef .tc main_arg1) = m ((c : Thread nD τ).loc main_arg1)
      ∧ W6 dataI0 dataI1 m c (Proc.devRef .tc main_arg2) = m ((c : Thread nD τ).loc main_arg2)
      ∧ W6 dataI0 dataI1 m c (Proc.devRef .tc main_arg3) = m ((c : Thread nD τ).loc main_arg3)
      ∧ W6 dataI0 dataI1 m c (Proc.devRef .tc main_arg4) = m ((c : Thread nD τ).loc main_arg4)
      ∧ W6 dataI0 dataI1 m c (Proc.devRef .tc main_arg5) = m ((c : Thread nD τ).loc main_arg5)
      ∧ W6 dataI0 dataI1 m c (Proc.devRef .tc main_arg6) = m ((c : Thread nD τ).loc main_arg6)
      ∧ W6 dataI0 dataI1 m c (Proc.devRef .tc main_arg7) = m ((c : Thread nD τ).loc main_arg7)
      ∧ W6 dataI0 dataI1 m c (Proc.devRef .tc main_arg8) = m ((c : Thread nD τ).loc main_arg8))
  (harr8 : ∀ (V : Entry Ideal) (c : Dev nD), Cert.Spec.InRange (V c main_v0) →
    (dat1 (F := Ideal) V c).arrAt 8 cfg1.N = fun j : S65536x4096.Idx =>
      Cert.Spec.fusedOf (V c main_v0) (V c main_arg2) (V c main_v3_0) (V c main_v3_1) (V c main_v4)
        (fun q => V c main_v5 (ix2 0 q)) (V c main_v6) (fun q => V c main_v7 (ix2 0 q)) (j 0) (j 1))

include harr8 in
/-- The second region's output array after the region is the specification's result of the launched arguments. -/
theorem v8_value (m : (ℓ : Loc nD τ sig) → Buf (Elt Ideal) ℓ) (c : Dev nD)
    (hr : Cert.Spec.InRange (m ((c.tc : Thread nD τ).loc main_arg1))) :
    (dat1 (F := Ideal) (V5 dataI0 m) c).arrAt 8 cfg1.N
      = Cert.Spec.result (m ((c.tc : Thread nD τ).loc main_arg0)) (m ((c.tc : Thread nD τ).loc main_arg1)) (m ((c.tc : Thread nD τ).loc main_arg2)) (m ((c.tc : Thread nD τ).loc main_arg3))
          (fun q => m ((c.tc : Thread nD τ).loc main_arg4) (ix1 q)) (m ((c.tc : Thread nD τ).loc main_arg5))
          (fun q => m ((c.tc : Thread nD τ).loc main_arg6) (ix1 q)) (m ((c.tc : Thread nD τ).loc main_arg7))
          (fun q => m ((c.tc : Thread nD τ).loc main_arg8) (ix1 q)) := by
  show _ = Cert.Spec.result (m (c, main_arg0)) (m (c, main_arg1)) (m (c, main_arg2)) (m (c, main_arg3))
          (fun q => (m (c, main_arg4) : S1024.Idx → EReal) (ix1 q)) (m (c, main_arg5))
          (fun q => (m (c, main_arg6) : S4096.Idx → EReal) (ix1 q)) (m (c, main_arg7))
          (fun q => (m (c, main_arg8) : S4096.Idx → EReal) (ix1 q))
  have hidx : (V5 dataI0 m c main_v0 : S65536x2.Idx → BitVec 32) = m (c, main_arg1) :=
    (entry1_idx dataI0 m c).trans (entry0_idx m c hr)
  have hbc : (fun q : Fin 4096 => (V5 dataI0 m c main_v5 : S1x4096.Idx → EReal) (ix2 0 q))
      = fun q => (m (c, main_arg6) : S4096.Idx → EReal) (ix1 q) := funext (entry1_bc dataI0 m c)
  have hbu : (fun q : Fin 4096 => (V5 dataI0 m c main_v7 : S1x4096.Idx → EReal) (ix2 0 q))
      = fun q => (m (c, main_arg8) : S4096.Idx → EReal) (ix1 q) := funext (entry1_bu dataI0 m c)
  rw [harr8 (V5 dataI0 m) c (by rw [hidx]; exact hr)]
  funext j
  show Cert.Spec.fusedOf (V5 dataI0 m c main_v0) (V5 dataI0 m c main_arg2) (V5 dataI0 m c main_v3_0) (V5 dataI0 m c main_v3_1)
      (V5 dataI0 m c main_v4) (fun q => (V5 dataI0 m c main_v5 : S1x4096.Idx → EReal) (ix2 0 q)) (V5 dataI0 m c main_v6)
      (fun q => (V5 dataI0 m c main_v7 : S1x4096.Idx → EReal) (ix2 0 q)) (j 0) (j 1)
    = Cert.Spec.fused (m (c, main_arg0)) (m (c, main_arg1)) (m (c, main_arg2)) (m (c, main_arg3))
      (fun q => (m (c, main_arg4) : S1024.Idx → EReal) (ix1 q)) (m (c, main_arg5))
      (fun q => (m (c, main_arg6) : S4096.Idx → EReal) (ix1 q)) (m (c, main_arg7))
      (fun q => (m (c, main_arg8) : S4096.Idx → EReal) (ix1 q)) (j 0) (j 1)
  rw [hidx, entry1_u dataI0 m c, entry1_wc_fun dataI0 m c, entry1_wu_fun dataI0 m c, hbc, hbu]
  exact fusedOf_eq_fused (m (c, main_arg0)) (m (c, main_arg1)) (m (c, main_arg2)) (m (c, main_arg3))
    (fun q => (m (c, main_arg4) : S1024.Idx → EReal) (ix1 q)) (m (c, main_arg5))
    (fun q => (m (c, main_arg6) : S4096.Idx → EReal) (ix1 q)) (m (c, main_arg7))
    (fun q => (m (c, main_arg8) : S4096.Idx → EReal) (ix1 q))
    (V5 dataI0 m c main_v3_0) (V5 dataI0 m c main_v3_1) (head_entry m c) (tail_entry m c) (j 0) (j 1)

include hrun hargs harr8 in
/-- From a launch memory whose index words all name a row, every execution ends with the result array at the
    specification's result of the arguments and the arguments as launched. -/
theorem run_value_of (m : (ℓ : Loc nD τ sig) → Buf (Elt Ideal) ℓ) (ρ : Dev nD → PrngReg)
    (hr : ∀ c : Dev nD, Cert.Spec.InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v8)
          = Cert.Spec.result (m ((c.tc : Thread nD τ).loc main_arg0)) (m ((c.tc : Thread nD τ).loc main_arg1)) (m ((c.tc : Thread nD τ).loc main_arg2)) (m ((c.tc : Thread nD τ).loc main_arg3))
          (fun q => m ((c.tc : Thread nD τ).loc main_arg4) (ix1 q)) (m ((c.tc : Thread nD τ).loc main_arg5))
          (fun q => m ((c.tc : Thread nD τ).loc main_arg6) (ix1 q)) (m ((c.tc : Thread nD τ).loc main_arg7))
          (fun q => m ((c.tc : Thread nD τ).loc main_arg8) (ix1 q))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run defs _ _).mono (fun r h c =>
    ⟨((h c _ (uc_mem main_v8 (by decide))).trans (W6_arr dataI0 dataI1 m c 8)).trans (v8_value harr8 m c (hr c)),
      (h c _ (uc_mem main_arg0 (by decide))).trans (hargs m c).1,
      (h c _ (uc_mem main_arg1 (by decide))).trans (hargs m c).2.1,
      (h c _ (uc_mem main_arg2 (by decide))).trans (hargs m c).2.2.1,
      (h c _ (uc_mem main_arg3 (by decide))).trans (hargs m c).2.2.2.1,
      (h c _ (uc_mem main_arg4 (by decide))).trans (hargs m c).2.2.2.2.1,
      (h c _ (uc_mem main_arg5 (by decide))).trans (hargs m c).2.2.2.2.2.1,
      (h c _ (uc_mem main_arg6 (by decide))).trans (hargs m c).2.2.2.2.2.2.1,
      (h c _ (uc_mem main_arg7 (by decide))).trans (hargs m c).2.2.2.2.2.2.2.1,
      (h c _ (uc_mem main_arg8 (by decide))).trans (hargs m c).2.2.2.2.2.2.2.2⟩)
    (hrun m ρ)

end Assembly

/-- The idealized kernel program's result: from a launch memory whose index words all name a row, every execution ends
    with the result array at the specification's result of the nine arguments, and the arguments as launched. -/
theorem run_value (m : (ℓ : Loc nD τ sig) → Buf (Elt Ideal) ℓ) (ρ : Dev nD → PrngReg)
    (hr : ∀ c : Dev nD, Cert.Spec.InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v8)
          = Cert.Spec.result (m ((c.tc : Thread nD τ).loc main_arg0)) (m ((c.tc : Thread nD τ).loc main_arg1)) (m ((c.tc : Thread nD τ).loc main_arg2)) (m ((c.tc : Thread nD τ).loc main_arg3))
          (fun q => m ((c.tc : Thread nD τ).loc main_arg4) (ix1 q)) (m ((c.tc : Thread nD τ).loc main_arg5))
          (fun q => m ((c.tc : Thread nD τ).loc main_arg6) (ix1 q)) (m ((c.tc : Thread nD τ).loc main_arg7))
          (fun q => m ((c.tc : Thread nD τ).loc main_arg8) (ix1 q))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  run_value_of (fun m ρ => run_data (F := Ideal) m ρ)
    (fun m c => ⟨W6_main_arg0 dataI0 dataI1 (fun V c w => A_eq0 V c w) (fun V c w => A_eq1 V c w) m c,
      W6_main_arg1 dataI0 dataI1 (fun V c w => A_eq0 V c w) (fun V c w => A_eq1 V c w) m c,
      W6_main_arg2 dataI0 dataI1 (fun V c w => A_eq0 V c w) (fun V c w => A_eq1 V c w) m c,
      W6_main_arg3 dataI0 dataI1 (fun V c w => A_eq0 V c w) (fun V c w => A_eq1 V c w) m c,
      W6_main_arg4 dataI0 dataI1 (fun V c w => A_eq0 V c w) (fun V c w => A_eq1 V c w) m c,
      W6_main_arg5 dataI0 dataI1 (fun V c w => A_eq0 V c w) (fun V c w => A_eq1 V c w) m c,
      W6_main_arg6 dataI0 dataI1 (fun V c w => A_eq0 V c w) (fun V c w => A_eq1 V c w) m c,
      W6_main_arg7 dataI0 dataI1 (fun V c w => A_eq0 V c w) (fun V c w => A_eq1 V c w) m c,
      W6_main_arg8 dataI0 dataI1 (fun V c w => A_eq0 V c w) (fun V c w => A_eq1 V c w) m c⟩)
    (fun V c h => arr8_eq V c h) m ρ hr

end Cert.KernelIdeal.HandValue

end
-- ==== Proof.RefValue.lean ====
/-
  The reference program's result, entry by entry, is the specification's result.

  The reference computes the table relu(e · w + b), cuts it into its left and right halves, takes from the left half the
  row named by each relation's first index word and from the right half the row named by its second, lays the two rows
  end to end, and multiplies two affine images: one of that joined row, one of the relation's own feature row. Under the
  range hypothesis every index word w has a value below 1280, so it is not negative when read signed, the "add 1280 to a
  negative index" step leaves it alone, and the row it selects, clamped into the table, is row w itself. A column of the
  joined row below 512 comes from the first piece and any other column from the second, 512 columns to the left. All
  sums run over the same index sets on both sides, so the two sides agree term by term.
-/
import proofs.«403099_j88871463289481_2_alg».proof.Proof.Gen.ReferenceIdeal.Read
import proofs.«403099_j88871463289481_2_alg».proof.Proof.Spec

noncomputable section

namespace Cert.ReferenceIdeal.RefValue

open Cert.ReferenceIdeal Cert.ReferenceIdeal.Gen Cert.ReferenceIdeal.Read Cert.ReferenceIdeal.Facts₀
open Idealize.ShloMosaic Idealize.ShloMosaic.ValueIdx

/-! ## Index words in range -/

/-- A word below 1280 is not negative read signed, so the wrap of negative indices keeps it. -/
theorem wrap_keep (w : BitVec 32) (h : w.toNat < 1280) :
    Scalar.select (IntOp.cmpi .slt w 0#32) (IntOp.addi w 1280#32) w = w := by
  have hn : ¬ IntOp.cmpi .slt w 0#32 = 1#1 := by
    rw [IntOp.cmpi_slt, BitVec.toInt_eq_toNat_of_lt (by omega), show (0#32 : BitVec 32).toInt = 0 from by decide]
    omega
  rw [eq_zero_of_ne_one hn, select_zero]

/-- A word below 1280, read signed and clamped into [0, 1279], is the row it names. -/
theorem clamp_row (w : BitVec 32) (h : w.toNat < 1280) (hlt : min w.toInt.toNat 1279 < 1280) :
    (⟨min w.toInt.toNat 1279, hlt⟩ : Fin 1280) = Spec.rowOf w := by
  apply Fin.ext
  rw [Spec.rowOf_val h]
  show min w.toInt.toNat 1279 = w.toNat
  rw [BitVec.toInt_eq_toNat_of_lt (by omega), Int.toNat_natCast]
  omega

/-! ## The row gather at an entry -/

/-- Taking rows of a 1280 × 512 table at a column of 65536 start words: entry (p, c) of the result is entry
    (row, c) of the table, the row being word p read signed and clamped into the table. -/
theorem gather_rows {α : Type} (x : S1280x512.Idx → α) (idx : IVec S65536x1 32) (p : Fin 65536) (c : Fin 512)
    (hlt : min (idx (ix2 p 0)).toInt.toNat 1279 < 1280) :
    Host.gather gather_S1280x512_S65536x1_S65536x512_1_0_n_n_0_1_1512 x idx (ix2 p c)
      = x (ix2 (⟨min (idx (ix2 p 0)).toInt.toNat 1279, hlt⟩ : Fin 1280) c) := by
  unfold Host.gather
  congr 1
  funext a
  apply Fin.ext
  match a with
  | ⟨0, _⟩ =>
    -- axis 0 is the collapsed, start-indexed axis: the clamped start word alone
    show gather_S1280x512_S65536x1_S65536x512_1_0_n_n_0_1_1512.start (ix2 p c) idx 0 + gather_S1280x512_S65536x1_S65536x512_1_0_n_n_0_1_1512.batchCoord (ix2 p c) 0 + gather_S1280x512_S65536x1_S65536x512_1_0_n_n_0_1_1512.offCoord (ix2 p c) 0 = min (idx (ix2 p 0)).toInt.toNat 1279
    rw [GatherDims.batchCoord_eq_zero _ _ _ (show (0 : Fin S1280x512.rank) ∉ gather_S1280x512_S65536x1_S65536x512_1_0_n_n_0_1_1512.operandBatchingDims by decide),
      GatherDims.offCoord_eq_zero _ _ _ (fun h => ((GatherDims.mem_sKept _ _).mp h).1
        (show (0 : Fin S1280x512.rank) ∈ gather_S1280x512_S65536x1_S65536x512_1_0_n_n_0_1_1512.collapsedSliceDims by decide))]
    simp only [Nat.add_zero]
    unfold GatherDims.start
    rw [dif_pos (show (0 : Fin S1280x512.rank) ∈ gather_S1280x512_S65536x1_S65536x512_1_0_n_n_0_1_1512.startIndexMap by decide)]
    have hsi : gather_S1280x512_S65536x1_S65536x512_1_0_n_n_0_1_1512.siIdx (ix2 p c) ⟨List.idxOf (0 : Fin S1280x512.rank) gather_S1280x512_S65536x1_S65536x512_1_0_n_n_0_1_1512.startIndexMap,
        List.idxOf_lt_length_iff.2 (by decide)⟩ = ix2 p 0 := by
      funext b; refine Fin.ext ?_
      match b with
      | ⟨0, _⟩ => rfl
      | ⟨1, _⟩ => rfl
    rw [hsi]
    rfl
  | ⟨1, _⟩ =>
    -- axis 1 is the offset axis: the result's own column
    show gather_S1280x512_S65536x1_S65536x512_1_0_n_n_0_1_1512.start (ix2 p c) idx 1 + gather_S1280x512_S65536x1_S65536x512_1_0_n_n_0_1_1512.batchCoord (ix2 p c) 1 + gather_S1280x512_S65536x1_S65536x512_1_0_n_n_0_1_1512.offCoord (ix2 p c) 1 = c.val
    rw [GatherDims.batchCoord_eq_zero _ _ _ (show (1 : Fin S1280x512.rank) ∉ gather_S1280x512_S65536x1_S65536x512_1_0_n_n_0_1_1512.operandBatchingDims by decide)]
    have hs : gather_S1280x512_S65536x1_S65536x512_1_0_n_n_0_1_1512.start (ix2 p c) idx 1 = 0 := by
      unfold GatherDims.start
      exact dif_neg (by decide)
    have ho : gather_S1280x512_S65536x1_S65536x512_1_0_n_n_0_1_1512.offCoord (ix2 p c) 1 = c.val := by
      unfold GatherDims.offCoord
      rw [dif_pos (show (1 : Fin S1280x512.rank) ∈ gather_S1280x512_S65536x1_S65536x512_1_0_n_n_0_1_1512.sKept by decide)]
      rfl
    rw [hs, ho]
    omega

/-- The same when the start word is known and in range: the row is the one the word names. -/
theorem gather_rows_of_lt {α : Type} (x : S1280x512.Idx → α) (idx : IVec S65536x1 32) (p : Fin 65536) (c : Fin 512)
    (w : BitVec 32) (hw : idx (ix2 p 0) = w) (h : w.toNat < 1280) :
    Host.gather gather_S1280x512_S65536x1_S65536x512_1_0_n_n_0_1_1512 x idx (ix2 p c) = x (ix2 (Spec.rowOf w) c) := by
  rw [gather_rows x idx p c (Nat.lt_succ_of_le (Nat.min_le_right _ _))]
  subst hw
  rw [clamp_row _ h]

/-! ## The reference's index maps at coordinates -/

theorem lidx0 (r : Fin 1280) (c : Fin 1024) (k : Fin 512) : lidx_main_v0 (ix2 r c) k = ix2 r k :=
  funext fun a => Fin.ext (by match a with | ⟨0, _⟩ => rfl | ⟨1, _⟩ => rfl)
theorem ridx0 (r : Fin 1280) (c : Fin 1024) (k : Fin 512) : ridx_main_v0 (ix2 r c) k = ix2 k c :=
  funext fun a => Fin.ext (by match a with | ⟨0, _⟩ => rfl | ⟨1, _⟩ => rfl)
theorem bidx0 (r : Fin 1280) (c : Fin 1024) : idx_main_v1 (idx_main_v2 (ix2 r c)) = ix1 c :=
  funext fun a => Fin.ext (by match a with | ⟨0, _⟩ => rfl)
theorem idx5 (r : Fin 1280) (c : Fin 512) : idx_main_v5 (ix2 r c) = ix2 r (Spec.dn c) :=
  funext fun a => Fin.ext (by match a with | ⟨0, _⟩ => rfl | ⟨1, _⟩ => rfl)
theorem idx6 (r : Fin 1280) (c : Fin 512) : idx_main_v6 (ix2 r c) = ix2 r (Spec.up c) :=
  funext fun a => Fin.ext (by match a with | ⟨0, _⟩ => rfl | ⟨1, _⟩ => exact Nat.add_comm _ _)
theorem widx0 (p : Fin 65536) : idx_main_v7 (idx_main_v8 (idx_main_v14 (ix2 p (0 : Fin 1)))) = ix2 p (0 : Fin 2) :=
  funext fun a => Fin.ext (by match a with | ⟨0, _⟩ => exact Nat.div_one _ | ⟨1, _⟩ => rfl)
theorem widx1 (p : Fin 65536) : idx_main_v16 (idx_main_v17 (idx_main_v23 (ix2 p (0 : Fin 1)))) = ix2 p (1 : Fin 2) :=
  funext fun a => Fin.ext (by match a with | ⟨0, _⟩ => exact Nat.div_one _ | ⟨1, _⟩ => rfl)
theorem lidx26 (p : Fin 65536) (q : Fin 4096) (k : Fin 1024) : lidx_main_v26 (ix2 p q) k = ix2 p k :=
  funext fun a => Fin.ext (by match a with | ⟨0, _⟩ => rfl | ⟨1, _⟩ => rfl)
theorem ridx26 (p : Fin 65536) (q : Fin 4096) (k : Fin 1024) : ridx_main_v26 (ix2 p q) k = ix2 k q :=
  funext fun a => Fin.ext (by match a with | ⟨0, _⟩ => rfl | ⟨1, _⟩ => rfl)
theorem bidx27 (p : Fin 65536) (q : Fin 4096) : idx_main_v27 (idx_main_v28 (ix2 p q)) = ix1 q :=
  funext fun a => Fin.ext (by match a with | ⟨0, _⟩ => rfl)
theorem lidx30 (p : Fin 65536) (q : Fin 4096) (k : Fin 2048) : lidx_main_v30 (ix2 p q) k = ix2 p k :=
  funext fun a => Fin.ext (by match a with | ⟨0, _⟩ => rfl | ⟨1, _⟩ => rfl)
theorem ridx30 (p : Fin 65536) (q : Fin 4096) (k : Fin 2048) : ridx_main_v30 (ix2 p q) k = ix2 k q :=
  funext fun a => Fin.ext (by match a with | ⟨0, _⟩ => rfl | ⟨1, _⟩ => rfl)
theorem bidx31 (p : Fin 65536) (q : Fin 4096) : idx_main_v31 (idx_main_v32 (ix2 p q)) = ix1 q :=
  funext fun a => Fin.ext (by match a with | ⟨0, _⟩ => rfl)

/-! ## The table and its halves -/

variable (x0 : (⟨S1280x512, .f32⟩ : BufTy).Contents (Elt Ideal)) (x1 : (⟨S65536x2, .i32⟩ : BufTy).Contents (Elt Ideal))
  (x2 : (⟨S65536x2048, .f32⟩ : BufTy).Contents (Elt Ideal)) (x3 : (⟨S512x1024, .f32⟩ : BufTy).Contents (Elt Ideal))
  (x4 : (⟨S1024, .f32⟩ : BufTy).Contents (Elt Ideal)) (x5 : (⟨S1024x4096, .f32⟩ : BufTy).Contents (Elt Ideal))
  (x6 : (⟨S4096, .f32⟩ : BufTy).Contents (Elt Ideal)) (x7 : (⟨S2048x4096, .f32⟩ : BufTy).Contents (Elt Ideal))
  (x8 : (⟨S4096, .f32⟩ : BufTy).Contents (Elt Ideal))

/-- Entry (r, c) of the reference's relu(e · w + b). -/
theorem table_at (r : Fin 1280) (c : Fin 1024) :
    val_main_v4 (F := Ideal) x0 x3 x4 (ix2 r c) = Spec.emb x0 x3 (fun q => x4 (ix1 q)) r c := by
  rw [val_main_v4_apply, val_main_v3_apply, val_main_v0_apply, val_main_v2_apply, val_main_v1_apply,
    val_main_call0_v0_apply, val_main_call0_cst_apply, bidx0]
  simp only [lidx0, ridx0, Ideal.maximumf_def, Ideal.addf_def, Ideal.ofBits_def, Ideal.ofBits_zero_f32]
  rfl

/-- Entry (r, c) of the left half is entry (r, c) of the table. -/
theorem left_at (r : Fin 1280) (c : Fin 512) :
    val_main_v5 (F := Ideal) x0 x3 x4 (ix2 r c) = Spec.emb x0 x3 (fun q => x4 (ix1 q)) r (Spec.dn c) := by
  rw [val_main_v5_apply, idx5, table_at]

/-- Entry (r, c) of the right half is entry (r, c + 512) of the table. -/
theorem right_at (r : Fin 1280) (c : Fin 512) :
    val_main_v6 (F := Ideal) x0 x3 x4 (ix2 r c) = Spec.emb x0 x3 (fun q => x4 (ix1 q)) r (Spec.up c) := by
  rw [val_main_v6_apply, idx6, table_at]

/-! ## The start words -/

/-- The first start word of relation p, after the wrap of negative indices, is the first index word itself. -/
theorem word0 (p : Fin 65536) (h : (x1 (ix2 p 0)).toNat < 1280) :
    val_main_v14 (F := Ideal) x1 (ix2 p 0) = x1 (ix2 p 0) := by
  rw [val_main_v14_apply, val_main_v13_apply, val_main_v10_apply, val_main_v12_apply, val_main_v9_apply, val_main_c_apply,
    val_main_v11_apply, val_main_c_0_apply, val_main_v8_apply, val_main_v7_apply, widx0]
  exact wrap_keep _ h

/-- The second start word of relation p is the second index word itself. -/
theorem word1 (p : Fin 65536) (h : (x1 (ix2 p 1)).toNat < 1280) :
    val_main_v23 (F := Ideal) x1 (ix2 p 0) = x1 (ix2 p 1) := by
  rw [val_main_v23_apply, val_main_v22_apply, val_main_v19_apply, val_main_v21_apply, val_main_v18_apply, val_main_c_1_apply,
    val_main_v20_apply, val_main_c_2_apply, val_main_v17_apply, val_main_v16_apply, widx1]
  exact wrap_keep _ h

/-! ## The gathered rows and the joined row -/

/-- Relation p's head row: the left half of the table's row named by its first index word. -/
theorem head_at (h : Spec.InRange x1) (p : Fin 65536) (c : Fin 512) :
    val_main_v15 (F := Ideal) x0 x1 x3 x4 (ix2 p c)
      = Spec.emb x0 x3 (fun q => x4 (ix1 q)) (Spec.rowOf (x1 (ix2 p 0))) (Spec.dn c) := by
  unfold val_main_v15
  exact (gather_rows_of_lt _ _ p c _ (word0 x1 p (h _)) (h _)).trans (left_at x0 x3 x4 _ c)

/-- Relation p's tail row: the right half of the table's row named by its second index word. -/
theorem tail_at (h : Spec.InRange x1) (p : Fin 65536) (c : Fin 512) :
    val_main_v24 (F := Ideal) x0 x1 x3 x4 (ix2 p c)
      = Spec.emb x0 x3 (fun q => x4 (ix1 q)) (Spec.rowOf (x1 (ix2 p 1))) (Spec.up c) := by
  unfold val_main_v24
  exact (gather_rows_of_lt _ _ p c _ (word1 x1 p (h _)) (h _)).trans (right_at x0 x3 x4 _ c)

/-- A column of the joined row below 512 comes from the head row. -/
theorem joined_lo (p : Fin 65536) (k : Fin 1024) (hk : k.val < 512) :
    val_main_v25 (F := Ideal) x0 x1 x3 x4 (ix2 p k) = val_main_v15 (F := Ideal) x0 x1 x3 x4 (ix2 p (Spec.lo k hk)) := by
  unfold val_main_v25
  exact concatenate_pair_apply_left (t := S65536x1024) (s₁ := S65536x512) (s₂ := S65536x512) (1 : Fin 2) _ _ _ (ix2 p k) rfl
    (ix2 p (Spec.lo k hk)) (fun b => by match b with | ⟨0, _⟩ => rfl | ⟨1, _⟩ => rfl)

/-- Any other column comes from the tail row, 512 columns to the left. -/
theorem joined_hi (p : Fin 65536) (k : Fin 1024) (hk : ¬ k.val < 512) :
    val_main_v25 (F := Ideal) x0 x1 x3 x4 (ix2 p k) = val_main_v24 (F := Ideal) x0 x1 x3 x4 (ix2 p (Spec.hi k hk)) := by
  unfold val_main_v25
  refine concatenate_pair_apply_right (t := S65536x1024) (s₁ := S65536x512) (s₂ := S65536x512) (1 : Fin 2) _ _ _ (ix2 p k) rfl rfl
    (ix2 p (Spec.hi k hk)) (fun b hb => ?_) ?_
  · match b with
    | ⟨0, _⟩ => rfl
    | ⟨1, _⟩ => exact absurd rfl hb
  · show k.val - 512 + 512 = k.val
    omega

/-- The joined row of relation p is the specification's concatenated feature. -/
theorem joined_at (h : Spec.InRange x1) (p : Fin 65536) (k : Fin 1024) :
    val_main_v25 (F := Ideal) x0 x1 x3 x4 (ix2 p k)
      = Spec.pairRow (Spec.emb x0 x3 (fun q => x4 (ix1 q))) (Spec.rowOf (x1 (ix2 p 0))) (Spec.rowOf (x1 (ix2 p 1))) k := by
  unfold Spec.pairRow
  by_cases hk : k.val < 512
  · rw [if_pos hk, joined_lo x0 x1 x3 x4 p k hk, head_at x0 x1 x3 x4 h]
    rfl
  · rw [if_neg hk, joined_hi x0 x1 x3 x4 p k hk, tail_at x0 x1 x3 x4 h]
    congr 1
    apply Fin.ext
    show k.val - 512 + 512 = k.val
    omega

/-! ## The result -/

/-- The reference's result is the specification's result. -/
theorem ref_result (h : Spec.InRange x1) :
    val_main_v34 (F := Ideal) x0 x1 x2 x3 x4 x5 x6 x7 x8
      = Spec.result x0 x1 x2 x3 (fun q => x4 (ix1 q)) x5 (fun q => x6 (ix1 q)) x7 (fun q => x8 (ix1 q)) := by
  funext j
  obtain ⟨p, q, rfl⟩ : ∃ (p : Fin 65536) (q : Fin 4096), j = ix2 p q := ⟨j 0, j 1, eq_ix2 j⟩
  rw [val_main_v34_apply, val_main_v29_apply, val_main_v26_apply, val_main_v28_apply, val_main_v27_apply, val_main_v33_apply,
    val_main_v30_apply, val_main_v32_apply, val_main_v31_apply, bidx27, bidx31]
  simp only [lidx26, ridx26, lidx30, ridx30, joined_at x0 x1 x3 x4 h, Ideal.mulf_def, Ideal.addf_def]
  rfl

end Cert.ReferenceIdeal.RefValue

end
-- ==== Proof.PreDecode.lean ====
/-
  The precondition, read back as a fact about the index words.

  The precondition is a conjunction of nine "every entry is finite" tests followed by two tests on the array of index
  words: every word is at least 0 and every word is below 1280, both read signed. A conjunction of bits that is 1 has
  every conjunct 1; an "all" over an array that is 1 has the tested bit 1 at every position; and a 32-bit word that is
  at least 0 and below 1280 when read signed has the same value read unsigned, which is then below 1280. That is the
  range the specification asks of the index words: each names a row of the 1280-row table.
-/
import proofs.«403099_j88871463289481_2_alg».proof.Pre_finite_inputs
import proofs.«403099_j88871463289481_2_alg».proof.Proof.Spec
import Idealize.ShloMosaic.Lib.ReduceAll

noncomputable section

namespace Cert.PreDecode

open Idealize.ShloMosaic Idealize.ShloMosaic.ValueIdx Cert.Pre_finite_inputs

variable [Cert.Pre_finite_inputs.Facts]

/-- The shape with no axes has one index. -/
instance : Subsingleton S_.Idx := ⟨fun _ _ => funext fun d => d.elim0⟩

/-- A 32-bit word that is at least 0 and below 1280 read signed is below 1280 read unsigned. -/
theorem toNat_lt_of_signed (w : BitVec 32) (h0 : IntOp.cmpi .sge w 0#32 = 1#1) (h1 : IntOp.cmpi .slt w 1280#32 = 1#1) :
    w.toNat < 1280 := by
  rw [IntOp.cmpi_sge, show (0#32 : BitVec 32).toInt = 0 from by decide] at h0
  rw [IntOp.cmpi_slt, show (1280#32 : BitVec 32).toInt = 1280 from by decide] at h1
  have hn : 2 * w.toNat < 2 ^ 32 := BitVec.toInt_pos_iff.1 h0
  rw [BitVec.toInt_eq_toNat_of_lt hn] at h1
  omega

/-- Under the precondition every index word names a row of the 1280-row table. -/
theorem inRange_of_pre {F : FTy → Type} [FloatOps F]
    (a0 : FVec F S1280x512 .f32) (a1 : IVec S65536x2 32) (a2 : FVec F S65536x2048 .f32) (a3 : FVec F S512x1024 .f32)
    (a4 : FVec F S1024 .f32) (a5 : FVec F S1024x4096 .f32) (a6 : FVec F S4096 .f32) (a7 : FVec F S2048x4096 .f32)
    (a8 : FVec F S4096 .f32)
    (h : Cert.Pre_finite_inputs.fn (F := F) a0 a1 a2 a3 a4 a5 a6 a7 a8 = fun _ => 1#1) : Cert.Spec.InRange a1 := by
  intro j
  have e : Cert.Pre_finite_inputs.fn (F := F) a0 a1 a2 a3 a4 a5 a6 a7 a8 ix0 = 1#1 := congrFun h ix0
  dsimp only [Cert.Pre_finite_inputs.fn, Cert.Pre_finite_inputs.fn_part1, Cert.Pre_finite_inputs.fn_part2] at e
  -- the last conjunct is "every word is below 1280", the one before it "every word is at least 0"
  obtain ⟨e1, hlt⟩ := IntOp.andi_eq_one.1 e
  obtain ⟨-, hge⟩ := IntOp.andi_eq_one.1 e1
  have h0 := Host.reduce_andi_all _ _ _ _ _ hge j
  have h1 := Host.reduce_andi_all _ _ _ _ _ hlt j
  exact toNat_lt_of_signed (a1 j) h0 h1

end Cert.PreDecode

end
-- ==== Proof.lean ====
/-
  The certificate of a two-kernel program against its array-language reference, over the extended reals.

  The program: the index pairs are clipped to the table's rows; a first kernel computes the table relu(edge · W + b) in one
  step and writes its left and right halves as two arrays (the head and the tail representation of each object); a second
  kernel, over a grid of 256 row tiles by 2 column tiles, gathers for each relation of the tile the head half of its
  subject's row and the tail half of its object's row by a product with a one-hot matrix (once per row tile, kept in a
  scratch buffer across the two column tiles), multiplies that concatenated feature with a column slice of the second weight
  matrix and adds its bias, does the same with the relation's own feature row and the third weight matrix, and writes the
  product of the two. The reference computes the same table, gathers rows by index, concatenates, and forms the same two
  products of the whole arrays.

  Over the extended reals a change of float format is the identity and a matrix product into a zero accumulator is the sum
  over the contracted axis, so both programs compute Cert.Spec.result of the nine arguments wherever every index word names a
  row of the table (0 ≤ w < 1280: there the clip and the reference's wrap of a negative index are identities, the gather reads
  row w, and the one-hot sum ∑ₖ [k = w] · xₖ is x_w — also at an infinite xₖ, since 0 · x = 0 on the extended reals; no
  finiteness is used). The two sides sum in the same arrangement, so no algebraic law beyond that one is needed.

  Frames: each kernel program's run is the launch theorem over its six segments (three stretches of host operations, the first
  region, a fourth stretch, the second region) with a body triple per region — the second region's in two cases (first column
  tile: gather then product; second: product from the carried scratch), its invariant carrying the scratch's contents from a
  point to the next. The reference's frame is its run with the result dropped. The idealization rewrote nothing, so the
  preservation conjunct is trivial.
-/
import proofs.«403099_j88871463289481_2_alg».proof.Defs
import proofs.«403099_j88871463289481_2_alg».proof.Proof.Gen.Kernel
import proofs.«403099_j88871463289481_2_alg».proof.Proof.Gen.KernelIdeal
import proofs.«403099_j88871463289481_2_alg».proof.Proof.Gen.ReferenceIdeal
import proofs.«403099_j88871463289481_2_alg».proof.Proof.Gen.Pre_finite_inputs
import proofs.«403099_j88871463289481_2_alg».proof.Proof.Gen.ReferenceIdeal.Run
import proofs.«403099_j88871463289481_2_alg».proof.Proof.Gen.ReferenceIdeal.Read
import proofs.«403099_j88871463289481_2_alg».proof.Proof.K.Frame
import proofs.«403099_j88871463289481_2_alg».proof.Proof.KI.Frame
import proofs.«403099_j88871463289481_2_alg».proof.Proof.KI.Value
import proofs.«403099_j88871463289481_2_alg».proof.Proof.RefValue
import proofs.«403099_j88871463289481_2_alg».proof.Proof.PreDecode
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every index word naming a row of the table, both programs end with
    Cert.Spec.result of the arguments. -/
theorem algebraic : Cert.algebraic_KernelIdeal_ReferenceIdeal := by
  intro m ρ m' ρ' hpre hagree
  have hr : ∀ c : Dev Cert.KernelIdeal.nD, Cert.Spec.InRange (m ((c.tc : Thread Cert.KernelIdeal.nD Cert.KernelIdeal.τ).loc Cert.KernelIdeal.main_arg1)) :=
    fun c => Cert.PreDecode.inRange_of_pre _ _ _ _ _ _ _ _ _ (hpre c)
  refine ⟨_, Cert.KernelIdeal.HandValue.run_value m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.ReferenceIdeal.Read.val_main_v34_eq _ _ _ _ _ _ _ _ _).trans
    (Cert.ReferenceIdeal.RefValue.ref_result _ _ _ _ _ _ _ _ _ (hr c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
